-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x160x160 : Shape := ⟨4, ![32, 32, 160, 160]⟩
abbrev S32x25600x4 : Shape := ⟨3, ![32, 25600, 4]⟩
abbrev S32x25600 : Shape := ⟨2, ![32, 25600]⟩
abbrev S_ : Shape := ⟨0, ![]⟩

class Facts : Prop where
  bcast_S_S32x32x160x160 : S_.BroadcastsInDim S32x32x160x160 (![] : Fin 0 → Fin S32x32x160x160.rank)
  reducesTo_S32x32x160x160_S_d0_1_2_3 : S32x32x160x160.ReducesTo [0, 1, 2, 3] S_
  h_S_ : 0 < S_.numel
  bcast_S_S32x25600x4 : S_.BroadcastsInDim S32x25600x4 (![] : Fin 0 → Fin S32x25600x4.rank)
  reducesTo_S32x25600x4_S_d0_1_2 : S32x25600x4.ReducesTo [0, 1, 2] S_

variable [Facts]

def fn {F : FTy → Type} [FloatOps F] (main_arg0 : FVec F S32x32x160x160 .f32) (main_arg1 : FVec F S32x25600x4 .f32) (main_arg2 : IVec S32x25600 1) : IVec S_ 1 :=
  let main_v0 : FVec F S32x32x160x160 .f32 := Host.absf main_arg0
  let main_cst : FVec F S_ .f32 := constant S_ .f32 0x7F800000#32
  let main_v1 : FVec F S32x32x160x160 .f32 := broadcastInDim S32x32x160x160 ![] bcast_S_S32x32x160x160 main_cst
  let main_v2 : IVec S32x32x160x160 1 := cmpf .olt main_v0 main_v1
  let main_c : IVec S_ 1 := constantI S_ 1 1#1
  let main_v3 : IVec S_ 1 := (fun x v => Host.reduce IntOp.andi x v reducesTo_S32x32x160x160_S_d0_1_2_3 h_S_) main_v2 main_c
  let main_v4 : FVec F S32x25600x4 .f32 := Host.absf main_arg1
  let main_cst_0 : FVec F S_ .f32 := constant S_ .f32 0x7F800000#32
  let main_v5 : FVec F S32x25600x4 .f32 := broadcastInDim S32x25600x4 ![] bcast_S_S32x25600x4 main_cst_0
  let main_v6 : IVec S32x25600x4 1 := cmpf .olt main_v4 main_v5
  let main_c_1 : IVec S_ 1 := constantI S_ 1 1#1
  let main_v7 : IVec S_ 1 := (fun x v => Host.reduce IntOp.andi x v reducesTo_S32x25600x4_S_d0_1_2 h_S_) main_v6 main_c_1
  let main_v8 : IVec S_ 1 := andi main_v3 main_v7
  main_v8
-- ==== Kernel.lean ====
abbrev S32x32x160x160 : Shape := ⟨4, ![32, 32, 160, 160]⟩
abbrev S32x25600x4 : Shape := ⟨3, ![32, 25600, 4]⟩
abbrev S32x25600 : Shape := ⟨2, ![32, 25600]⟩
abbrev S32x4x25600 : Shape := ⟨3, ![32, 4, 25600]⟩
abbrev S32x4x160x160 : Shape := ⟨4, ![32, 4, 160, 160]⟩
abbrev S32x160x160 : Shape := ⟨3, ![32, 160, 160]⟩
abbrev S32x2 : Shape := ⟨2, ![32, 2]⟩
abbrev S8x32x16x160 : Shape := ⟨4, ![8, 32, 16, 160]⟩
abbrev S8x4x16x160 : Shape := ⟨4, ![8, 4, 16, 160]⟩
abbrev S8x16x160 : Shape := ⟨3, ![8, 16, 160]⟩
abbrev S8x2 : Shape := ⟨2, ![8, 2]⟩
abbrev S8x16 : Shape := ⟨2, ![8, 16]⟩
abbrev S8 : Shape := ⟨1, ![8]⟩
abbrev S8x8x16x160 : Shape := ⟨4, ![8, 8, 16, 160]⟩
abbrev S8x1x16x160 : Shape := ⟨4, ![8, 1, 16, 160]⟩
abbrev S8x1 : Shape := ⟨2, ![8, 1]⟩
abbrev S32x1 : Shape := ⟨2, ![32, 1]⟩
abbrev S32 : Shape := ⟨1, ![32]⟩
abbrev S_ : Shape := ⟨0, ![]⟩

abbrev nBuf : Space → Nat
  | .hbm => 25
  | .vmem => 8
  | .smem => 0
  | _ => 0

abbrev bufTy : (tb : Table) → Fin (tcTables nBuf tb) → BufTy
  | .hbm, ⟨0, _⟩ => ⟨S32x32x160x160, .f32⟩
  | .hbm, ⟨1, _⟩ => ⟨S32x25600x4, .f32⟩
  | .hbm, ⟨2, _⟩ => ⟨S32x25600, .i1⟩
  | .hbm, ⟨3, _⟩ => ⟨S32x4x25600, .f32⟩
  | .hbm, ⟨4, _⟩ => ⟨S32x4x160x160, .f32⟩
  | .hbm, ⟨5, _⟩ => ⟨S32x25600, .f32⟩
  | .hbm, ⟨6, _⟩ => ⟨S32x160x160, .f32⟩
  | .hbm, ⟨7, _⟩ => ⟨S32x2, .f32⟩
  | .hbm, ⟨8, _⟩ => ⟨S32x1, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S32x1, .f32⟩
  | .hbm, ⟨13, _⟩ => ⟨S32, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8x32x16x160, .f32⟩
  | .local _ .vmem, ⟨1, _⟩ => ⟨S8x32x16x160, .f32⟩
  | .local _ .vmem, ⟨2, _⟩ => ⟨S8x4x16x160, .f32⟩
  | .local _ .vmem, ⟨3, _⟩ => ⟨S8x4x16x160, .f32⟩
  | .local _ .vmem, ⟨4, _⟩ => ⟨S8x16x160, .f32⟩
  | .local _ .vmem, ⟨5, _⟩ => ⟨S8x16x160, .f32⟩
  | .local _ .vmem, ⟨6, _⟩ => ⟨S8x2, .f32⟩
  | .local _ .vmem, ⟨7, _⟩ => ⟨S8x2, .f32⟩
  | _, _ => ⟨S32x32x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x32x16x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4x16x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S32x25600x4_S32x4x25600_0_2_1 : S32x25600x4.Transposes [0, 2, 1] S32x4x25600
  shapeCasts_S32x4x25600_S32x4x160x160 : S32x4x25600.ShapeCasts S32x4x160x160
  shapeCasts_S32x25600_S32x160x160 : S32x25600.ShapeCasts S32x160x160
  inb_S8x2_S8x2_0_0 : ∀ a, (![0, 0] : Fin 2 → Nat) a + S8x2.size a ≤ S8x2.size a
  h_S8x2 : 0 < S8x2.numel
  inb_S8x32x16x160_S8x32x16x160_0_0_0_0 : ∀ a, (![0, 0, 0, 0] : Fin 4 → Nat) a + S8x32x16x160.size a ≤ S8x32x16x160.size a
  h_S8x32x16x160 : 0 < S8x32x16x160.numel
  inb_S8x4x16x160_S8x4x16x160_0_0_0_0 : ∀ a, (![0, 0, 0, 0] : Fin 4 → Nat) a + S8x4x16x160.size a ≤ S8x4x16x160.size a
  h_S8x4x16x160 : 0 < S8x4x16x160.numel
  shapeCasts_S8x4x16x160_S8x4x16x160 : S8x4x16x160.ShapeCasts S8x4x16x160
  inb_S8x16x160_S8x16x160_0_0_0 : ∀ a, (![0, 0, 0] : Fin 3 → Nat) a + S8x16x160.size a ≤ S8x16x160.size a
  h_S8x16x160 : 0 < S8x16x160.numel
  shapeCasts_S8x16x160_S8x16x160 : S8x16x160.ShapeCasts S8x16x160
  reduces_S8x16x160_S8x16 : S8x16x160.Reduces [2] S8x16
  reduces_S8x16_S8 : S8x16.Reduces [1] S8
  slices_S8x32x16x160_o0_0_0_0_S8x8x16x160 : S8x32x16x160.Slices ![0, 0, 0, 0] S8x8x16x160
  reduces_S8x8x16x160_S8x16x160 : S8x8x16x160.Reduces [1] S8x16x160
  shapeCasts_S8x16x160_S8x1x16x160 : S8x16x160.ShapeCasts S8x1x16x160
  broadcasts_S8x1x16x160_S8x8x16x160 : S8x1x16x160.Broadcasts S8x8x16x160
  slices_S8x4x16x160_o0_0_0_0_S8x1x16x160 : S8x4x16x160.Slices ![0, 0, 0, 0] S8x1x16x160
  shapeCasts_S8x1x16x160_S8x16x160 : S8x1x16x160.ShapeCasts S8x16x160
  iota_S8x8x16x160_d1_w32 : S8x8x16x160.Iotas .tc 32 [1]
  natLt_1_32 : 1 < 32
  slices_S8x32x16x160_o0_8_0_0_S8x8x16x160 : S8x32x16x160.Slices ![0, 8, 0, 0] S8x8x16x160
  slices_S8x4x16x160_o0_1_0_0_S8x1x16x160 : S8x4x16x160.Slices ![0, 1, 0, 0] S8x1x16x160
  slices_S8x32x16x160_o0_16_0_0_S8x8x16x160 : S8x32x16x160.Slices ![0, 16, 0, 0] S8x8x16x160
  slices_S8x4x16x160_o0_2_0_0_S8x1x16x160 : S8x4x16x160.Slices ![0, 2, 0, 0] S8x1x16x160
  slices_S8x32x16x160_o0_24_0_0_S8x8x16x160 : S8x32x16x160.Slices ![0, 24, 0, 0] S8x8x16x160
  slices_S8x4x16x160_o0_3_0_0_S8x1x16x160 : S8x4x16x160.Slices ![0, 3, 0, 0] S8x1x16x160
  shapeCasts_S8_S8x1 : S8.ShapeCasts S8x1
  concatenates_S8x1_S8x1_S8x2_d1 : Shape.Concatenates [S8x1, S8x1] S8x2 1
  shapeCasts_S8x2_S8x2 : S8x2.ShapeCasts S8x2
  slices_S32x2_S32x1_0_0 : S32x2.Slices ![0, 0] S32x1
  shapeCasts_S32x1_S32 : S32x1.ShapeCasts S32
  reducesTo_S32_S_d0 : S32.ReducesTo [0] S_
  h_S_ : 0 < S_.numel
  slices_S32x2_S32x1_0_1 : S32x2.Slices ![0, 1] S32x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x16x160.size a ≤ S32x32x160x160.size a
  hwx0_0 : ∀ i : grid0.Coords, EltTy.bits .f32 = 32 ∨ (Rect.block (s := S32x32x160x160) S8x32x16x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4x16x160.size a ≤ S32x4x160x160.size a
  hwx0_1 : ∀ i : grid0.Coords, EltTy.bits .f32 = 32 ∨ (Rect.block (s := S32x4x160x160) S8x4x16x160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x160.size a ≤ S32x160x160.size a
  hwx0_2 : ∀ i : grid0.Coords, EltTy.bits .f32 = 32 ∨ (Rect.block (s := S32x160x160) S8x16x160.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2.size a ≤ S32x2.size a
  hwx0_3 : ∀ i : grid0.Coords, EltTy.bits .f32 = 32 ∨ (Rect.block (s := S32x2) S8x2.size (cc0_transform_3 i) (hinb0_3 i)).WholeWords (EltTy.packing .f32)

variable [Facts₀]

abbrev win0_0 : Pipeline.Window sig grid0 :=
  Pipeline.Window.ofSpec (Memref.whole main_arg0) S8x32x16x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x4x16x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x16x160.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x32x160x160 : Shape := ⟨4, ![32, 32, 160, 160]⟩
abbrev S32x25600x4 : Shape := ⟨3, ![32, 25600, 4]⟩
abbrev S32x25600 : Shape := ⟨2, ![32, 25600]⟩
abbrev S32x160x160x32 : Shape := ⟨4, ![32, 160, 160, 32]⟩
abbrev S32x25600x4x8 : Shape := ⟨4, ![32, 25600, 4, 8]⟩
abbrev S_ : Shape := ⟨0, ![]⟩
abbrev S32x25600x4x1 : Shape := ⟨4, ![32, 25600, 4, 1]⟩
abbrev S32x25600x4x1x1 : Shape := ⟨5, ![32, 25600, 4, 1, 1]⟩
abbrev S1 : Shape := ⟨1, ![1]⟩
abbrev S1x1x1x1x1 : Shape := ⟨5, ![1, 1, 1, 1, 1]⟩
abbrev S32x25600x1 : Shape := ⟨3, ![32, 25600, 1]⟩

abbrev nBuf : Space → Nat
  | .hbm => 111
  | .vmem => 0
  | .smem => 0
  | _ => 0

abbrev bufTy : (tb : Table) → Fin (tcTables nBuf tb) → BufTy
  | .hbm, ⟨0, _⟩ => ⟨S32x32x160x160, .f32⟩
  | .hbm, ⟨1, _⟩ => ⟨S32x25600x4, .f32⟩
  | .hbm, ⟨2, _⟩ => ⟨S32x25600, .i1⟩
  | .hbm, ⟨3, _⟩ => ⟨S32x160x160x32, .f32⟩
  | .hbm, ⟨4, _⟩ => ⟨S32x25600x4x8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x25600x4, .f32⟩
  | .hbm, ⟨9, _⟩ => ⟨S32x25600x4, .f32⟩
  | .hbm, ⟨10, _⟩ => ⟨S_, .f32⟩
  | .hbm, ⟨11, _⟩ => ⟨S32x25600x4, .f32⟩
  | .hbm, ⟨12, _⟩ => ⟨S32x25600x4, .f32⟩
  | .hbm, ⟨13, _⟩ => ⟨S32x25600x4, .f32⟩
  | .hbm, ⟨14, _⟩ => ⟨S32x25600x4, .i32⟩
  | .hbm, ⟨15, _⟩ => ⟨S_, .i32⟩
  | .hbm, ⟨16, _⟩ => ⟨S32x25600x4, .i32⟩
  | .hbm, ⟨17, _⟩ => ⟨S32x25600x4, .i32⟩
  | .hbm, ⟨18, _⟩ => ⟨S_, .i32⟩
  | .hbm, ⟨19, _⟩ => ⟨S32x25600x4, .i32⟩
  | .hbm, ⟨20, _⟩ => ⟨S32x25600x4, .i32⟩
  | .hbm, ⟨21, _⟩ => ⟨S32x25600x4, .f32⟩
  | .hbm, ⟨22, _⟩ => ⟨S32x25600x4, .f32⟩
  | .hbm, ⟨23, _⟩ => ⟨S_, .f32⟩
  | .hbm, ⟨24, _⟩ => ⟨S32x25600x4, .f32⟩
  | .hbm, ⟨25, _⟩ => ⟨S32x25600x4, .f32⟩
  | .hbm, ⟨26, _⟩ => ⟨S_, .f32⟩
  | .hbm, ⟨27, _⟩ => ⟨S32x25600x4, .f32⟩
  | .hbm, ⟨28, _⟩ => ⟨S_, .f32⟩
  | .hbm, ⟨29, _⟩ => ⟨S32x25600x4, .f32⟩
  | .hbm, ⟨30, _⟩ => ⟨S32x25600x4, .f32⟩
  | .hbm, ⟨31, _⟩ => ⟨S32x25600x4x1, .f32⟩
  | .hbm, ⟨32, _⟩ => ⟨S32x25600x4x8, .f32⟩
  | .hbm, ⟨33, _⟩ => ⟨S32x25600x4x8, .f32⟩
  | .hbm, ⟨34, _⟩ => ⟨S32x25600x4x8, .f32⟩
  | .hbm, ⟨35, _⟩ => ⟨S_, .f32⟩
  | .hbm, ⟨36, _⟩ => ⟨S32x25600x4, .f32⟩
  | .hbm, ⟨37, _⟩ => ⟨S32x25600x4x1, .f32⟩
  | .hbm, ⟨38, _⟩ => ⟨S32x25600x4x1, .f32⟩
  | .hbm, ⟨39, _⟩ => ⟨S32x25600x4x8, .f32⟩
  | .hbm, ⟨40, _⟩ => ⟨S32x25600x4x8, .f32⟩
  | .hbm, ⟨41, _⟩ => ⟨S32x25600x4x1, .i32⟩
  | .hbm, ⟨42, _⟩ => ⟨S_, .i32⟩
  | .hbm, ⟨43, _⟩ => ⟨S32x25600x4x1, .i32⟩
  | .hbm, ⟨44, _⟩ => ⟨S32x25600x4x1, .i1⟩
  | .hbm, ⟨45, _⟩ => ⟨S_, .i32⟩
  | .hbm, ⟨46, _⟩ => ⟨S32x25600x4x1, .i32⟩
  | .hbm, ⟨47, _⟩ => ⟨S32x25600x4x1, .i32⟩
  | .hbm, ⟨48, _⟩ => ⟨S32x25600x4x1, .i32⟩
  | .hbm, ⟨49, _⟩ => ⟨S32x25600x4x1x1, .i32⟩
  | .hbm, ⟨50, _⟩ => ⟨S1, .i32⟩
  | .hbm, ⟨51, _⟩ => ⟨S_, .i32⟩
  | .hbm, ⟨52, _⟩ => ⟨S32x25600x4x1x1, .i32⟩
  | .hbm, ⟨53, _⟩ => ⟨S32x25600x4x1x1, .i1⟩
  | .hbm, ⟨54, _⟩ => ⟨S1x1x1x1x1, .i32⟩
  | .hbm, ⟨55, _⟩ => ⟨S32x25600x4x1x1, .i32⟩
  | .hbm, ⟨56, _⟩ => ⟨S32x25600x4x1x1, .i1⟩
  | .hbm, ⟨57, _⟩ => ⟨S32x25600x4x1x1, .i1⟩
  | .hbm, ⟨58, _⟩ => ⟨S_, .i1⟩
  | .hbm, ⟨59, _⟩ => ⟨S32x25600x4x1, .i1⟩
  | .hbm, ⟨60, _⟩ => ⟨S32x25600x4x1, .f32⟩
  | .hbm, ⟨61, _⟩ => ⟨S_, .f32⟩
  | .hbm, ⟨62, _⟩ => ⟨S32x25600x4x1, .f32⟩
  | .hbm, ⟨63, _⟩ => ⟨S32x25600x4x1, .f32⟩
  | .hbm, ⟨64, _⟩ => ⟨S32x25600x4, .f32⟩
  | .hbm, ⟨65, _⟩ => ⟨S32x25600x4, .f32⟩
  | .hbm, ⟨66, _⟩ => ⟨S32x25600x4x1, .i32⟩
  | .hbm, ⟨67, _⟩ => ⟨S_, .i32⟩
  | .hbm, ⟨68, _⟩ => ⟨S32x25600x4x1, .i32⟩
  | .hbm, ⟨69, _⟩ => ⟨S32x25600x4x1, .i1⟩
  | .hbm, ⟨70, _⟩ => ⟨S_, .i32⟩
  | .hbm, ⟨71, _⟩ => ⟨S32x25600x4x1, .i32⟩
  | .hbm, ⟨72, _⟩ => ⟨S32x25600x4x1, .i32⟩
  | .hbm, ⟨73, _⟩ => ⟨S32x25600x4x1, .i32⟩
  | .hbm, ⟨74, _⟩ => ⟨S32x25600x4x1x1, .i32⟩
  | .hbm, ⟨75, _⟩ => ⟨S1, .i32⟩
  | .hbm, ⟨76, _⟩ => ⟨S_, .i32⟩
  | .hbm, ⟨77, _⟩ => ⟨S32x25600x4x1x1, .i32⟩
  | .hbm, ⟨78, _⟩ => ⟨S32x25600x4x1x1, .i1⟩
  | .hbm, ⟨79, _⟩ => ⟨S1x1x1x1x1, .i32⟩
  | .hbm, ⟨80, _⟩ => ⟨S32x25600x4x1x1, .i32⟩
  | .hbm, ⟨81, _⟩ => ⟨S32x25600x4x1x1, .i1⟩
  | .hbm, ⟨82, _⟩ => ⟨S32x25600x4x1x1, .i1⟩
  | .hbm, ⟨83, _⟩ => ⟨S_, .i1⟩
  | .hbm, ⟨84, _⟩ => ⟨S32x25600x4x1, .i1⟩
  | .hbm, ⟨85, _⟩ => ⟨S32x25600x4x1, .f32⟩
  | .hbm, ⟨86, _⟩ => ⟨S_, .f32⟩
  | .hbm, ⟨87, _⟩ => ⟨S32x25600x4x1, .f32⟩
  | .hbm, ⟨88, _⟩ => ⟨S32x25600x4x1, .f32⟩
  | .hbm, ⟨89, _⟩ => ⟨S32x25600x4, .f32⟩
  | .hbm, ⟨90, _⟩ => ⟨S32x25600x4, .f32⟩
  | .hbm, ⟨91, _⟩ => ⟨S32x25600x4, .f32⟩
  | .hbm, ⟨92, _⟩ => ⟨S32x25600x4, .f32⟩
  | .hbm, ⟨93, _⟩ => ⟨S32x25600x4, .f32⟩
  | .hbm, ⟨94, _⟩ => ⟨S32x25600, .f32⟩
  | .hbm, ⟨95, _⟩ => ⟨S_, .f32⟩
  | .hbm, ⟨96, _⟩ => ⟨S_, .f32⟩
  | .hbm, ⟨97, _⟩ => ⟨S32x25600x1, .f32⟩
  | .hbm, ⟨98, _⟩ => ⟨S32x25600x4, .f32⟩
  | .hbm, ⟨99, _⟩ => ⟨S32x25600x4, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .i1⟩
  | .hbm, ⟨109, _⟩ => ⟨S_, .f32⟩
  | .hbm, ⟨110, _⟩ => ⟨S_, .f32⟩
  | _, _ => ⟨S32x32x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v13 : Ref sig .tc := ⟨.hbm, 40, rfl⟩
abbrev main_v14 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_cst : Ref sig .tc := ⟨.hbm, 86, rfl⟩
abbrev main_call3_v14 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_cst_3 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_cst_4 : Ref sig .tc := ⟨.hbm, 100, rfl⟩
abbrev main_v30 : Ref sig .tc := ⟨.hbm, 101, rfl⟩
abbrev main_cst_5 : Ref sig .tc := ⟨.hbm, 102, rfl⟩
abbrev main_v31 : Ref sig .tc := ⟨.hbm, 103, rfl⟩
abbrev main_cst_6 : Ref sig .tc := ⟨.hbm, 104, rfl⟩
abbrev main_v32 : Ref sig .tc := ⟨.hbm, 105, rfl⟩
abbrev main_v33 : Ref sig .tc := ⟨.hbm, 106, rfl⟩
abbrev main_cst_7 : Ref sig .tc := ⟨.hbm, 107, rfl⟩
abbrev main_v34 : Ref sig .tc := ⟨.hbm, 108, rfl⟩
abbrev main_cst_8 : Ref sig .tc := ⟨.hbm, 109, rfl⟩
abbrev main_v35 : Ref sig .tc := ⟨.hbm, 110, rfl⟩

abbrev nD : Nat := 1
abbrev τ : Topo := Topo.v7x

variable {F : FTy → Type} [FloatOps F]

class Facts₀ : Prop where
  transposes_S32x32x160x160_S32x160x160x32_0_2_3_1 : S32x32x160x160.Transposes [0, 2, 3, 1] S32x160x160x32
  shapeCasts_S32x160x160x32_S32x25600x4x8 : S32x160x160x32.ShapeCasts S32x25600x4x8
  bcast_S_S32x25600x4 : S_.BroadcastsInDim S32x25600x4 (![] : Fin 0 → Fin S32x25600x4.rank)
  reducesTo_S32x25600x4x8_S32x25600x4_d3 : S32x25600x4x8.ReducesTo [3] S32x25600x4
  h_S_ : 0 < S_.numel
  bcast_S32x25600x4_S32x25600x4x1_0_1_2 : S32x25600x4.BroadcastsInDim S32x25600x4x1 (![0, 1, 2] : Fin 3 → Fin S32x25600x4x1.rank)
  bcast_S32x25600x4x1_S32x25600x4x8_0_1_2_3 : S32x25600x4x1.BroadcastsInDim S32x25600x4x8 (![0, 1, 2, 3] : Fin 4 → Fin S32x25600x4x8.rank)
  bcast_S_S32x25600x4x1 : S_.BroadcastsInDim S32x25600x4x1 (![] : Fin 0 → Fin S32x25600x4x1.rank)
  shapeCasts_S32x25600x4x1_S32x25600x4x1x1 : S32x25600x4x1.ShapeCasts S32x25600x4x1x1
  bcast_S_S32x25600x4x1x1 : S_.BroadcastsInDim S32x25600x4x1x1 (![] : Fin 0 → Fin S32x25600x4x1x1.rank)
  bcast_S1_S1x1x1x1x1_4 : S1.BroadcastsInDim S1x1x1x1x1 (![4] : Fin 1 → Fin S1x1x1x1x1.rank)
  bcast_S1x1x1x1x1_S32x25600x4x1x1_0_1_2_3_4 : S1x1x1x1x1.BroadcastsInDim S32x25600x4x1x1 (![0, 1, 2, 3, 4] : Fin 5 → Fin S32x25600x4x1x1.rank)
  reducesTo_S32x25600x4x1x1_S32x25600x4x1_d4 : S32x25600x4x1x1.ReducesTo [4] S32x25600x4x1
  shapeCasts_S32x25600x4x1_S32x25600x4 : S32x25600x4x1.ShapeCasts S32x25600x4
  reducesTo_S32x25600_S_d0_1 : S32x25600.ReducesTo [0, 1] S_
  bcast_S32x25600_S32x25600x1_0_1 : S32x25600.BroadcastsInDim S32x25600x1 (![0, 1] : Fin 2 → Fin S32x25600x1.rank)
  bcast_S32x25600x1_S32x25600x4_0_1_2 : S32x25600x1.BroadcastsInDim S32x25600x4 (![0, 1, 2] : Fin 3 → Fin S32x25600x4.rank)
  reducesTo_S32x25600x4_S_d0_1_2 : S32x25600x4.ReducesTo [0, 1, 2] S_
  gather_S32x25600x4x8_S32x25600x4x1x1_S32x25600x4x1_n_3_012_012_3_4_1111_wf : GatherDims.WF S32x25600x4x8 S32x25600x4x1x1 S32x25600x4x1 [] [3] [0, 1, 2] [3] [0, 1, 2] 4 ![1, 1, 1, 1]

variable [Facts₀]

def gather_S32x25600x4x8_S32x25600x4x1x1_S32x25600x4x1_n_3_012_012_3_4_1111 : GatherDims S32x25600x4x8 S32x25600x4x1x1 S32x25600x4x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S32x25600x4x8_S32x25600x4x1x1_S32x25600x4x1_n_3_012_012_3_4_1111_wf

class Facts : Prop extends Facts₀ where

variable [Facts]
-- ==== Proof.Stacked.lean ====
/-
  What one grid point adds to its eight images' accumulators, as one pure function of the point's three input
  blocks: the block of logits `x0`, the block of targets `x1` and the block of mask values `x2`.

  The body computes, coordinate after coordinate, a running per-image total (`tot0`, `tot1`, `tot2`, and the
  fourth inside the last step), and finally lays the total and the per-image mask count side by side as the two
  columns of an [8, 2] value, `stacked`. The body then stores `acc + stacked`, where `acc` is zero at the first
  strip of an image group and what the previous strip left otherwise.
-/
import proofs.«150996_j10127532883990_1_alg».proof.Proof.Gen.KernelIdeal.Skeleton

noncomputable section

namespace Cert.Proof.Body

open Idealize.ShloMosaic Cert.KernelIdeal Cert.KernelIdeal.Gen

variable {F : FTy → Type} [FloatOps F]

/-- The per-image total after coordinate 0 … -/
def tot0 (x0 : Vec F S8x32x16x160 .f32) (x1 : Vec F S8x4x16x160 .f32) (x2 : Vec F S8x16x160 .f32) : FVec F S8 .f32 :=
  k0_pay12 (k0_pay4 x2) (k0_pay6 (F := F)) (k0_pay7 x0) (k0_pay8 x1) (k0_pay9 x1) (k0_pay10 x1) (k0_pay11 x1)

/-- … after coordinate 1 … -/
def tot1 (x0 : Vec F S8x32x16x160 .f32) (x1 : Vec F S8x4x16x160 .f32) (x2 : Vec F S8x16x160 .f32) : FVec F S8 .f32 :=
  k0_pay16 (k0_pay4 x2) (tot0 x0 x1 x2) (k0_pay13 x0) (k0_pay14 (k0_pay3 x1)) (k0_pay15 (k0_pay3 x1)) 1#32

/-- … after coordinate 2. -/
def tot2 (x0 : Vec F S8x32x16x160 .f32) (x1 : Vec F S8x4x16x160 .f32) (x2 : Vec F S8x16x160 .f32) : FVec F S8 .f32 :=
  k0_pay20 (k0_pay4 x2) (tot1 x0 x1 x2) (k0_pay17 x0) (k0_pay18 (k0_pay3 x1)) (Scalar.ofBits .f32 0x40DFFF2E#32) (k0_pay19 (F := F))

/-- The [8, 2] value a grid point adds: column 0 the total over the four coordinates, column 1 the mask count. -/
def stacked (x0 : Vec F S8x32x16x160 .f32) (x1 : Vec F S8x4x16x160 .f32) (x2 : Vec F S8x16x160 .f32) : FVec F S8x2 .f32 :=
  k0_pay23 (k0_pay3 x1) (k0_pay4 x2) (k0_pay5 x2) (tot2 x0 x1 x2) (k0_pay21 x0) (k0_pay22 x0)

/-- What the body stores at a point: the accumulator it found plus the point's contribution. -/
def stored (x0 : Vec F S8x32x16x160 .f32) (x1 : Vec F S8x4x16x160 .f32) (x2 : Vec F S8x16x160 .f32) (acc : Vec F S8x2 .f32) : FVec F S8x2 .f32 :=
  k0_pay1 (stacked x0 x1 x2) acc

end Cert.Proof.Body

end
-- ==== Proof.Spec.lean ====
/-
  The loss both programs compute, written once as plain functions on the extended reals.

  For an image `b`, a box coordinate `c` (four of them) and a pixel `(y, x)` of the 160 x 160 map, the eight logits
  `z k = reg[b, 8 c + k, y, x]` give log-probabilities `logp z k = (z k - max z) - log (sum_j exp (z j - max z))`.
  The target `t = targets[b, 160 y + x, c]` is clipped to `[0, cHi]` (`cHi` the f32 just below 7), its integer part
  `lo t` and the next bin `hi t = min (lo t + 1) 7` are the two bins it falls between, `wU t` its fractional part and
  `wL t = 1 - wU t`. The pixel's loss is `per z t = wL t * (-logp z (lo t)) + wU t * (-logp z (hi t))`, weighted by the
  mask value `M[b, 160 y + x]`. The result is `finish S N`: the weighted total `S` over everything divided by
  `4 * max N 1`, `N` the sum of the mask, and `0` when `N` is not positive.

  The kernel adds the pixels up image by image and, inside an image, strip by strip (ten strips of sixteen rows), four
  coordinates per strip; the reference adds them up in one sweep over (image, pixel, coordinate). `totalK` / `countK` and
  `totalR` / `countR` are the two arrangements.
-/
import Idealize.ShloMosaic.PureOps.Ideal
import Idealize.ShloMosaic.Lib.ValueIdx

noncomputable section

open scoped BigOperators

namespace Cert.Proof.Spec

open Idealize.ShloMosaic Idealize.ShloMosaic.ValueIdx

/-- The upper clipping bound: the f32 nearest 6.9999, just below 7. -/
def cHi : EReal := Ideal.ofBits .f32 0x40DFFF2E#32
/-- The f32 words of 1, 0, 4 and minus infinity, as both programs spell them. -/
def cOne : EReal := Ideal.ofBits .f32 0x3F800000#32
def cZero : EReal := Ideal.ofBits .f32 0x00000000#32
def cFour : EReal := Ideal.ofBits .f32 0x40800000#32
def cNegInf : EReal := Ideal.ofBits .f32 0xFF800000#32

/-- The target clipped to `[0, cHi]`. -/
def clipT (t : EReal) : EReal := min cHi (max cZero t)
/-- The lower bin: the clipped target's integer part, as a 32-bit word. -/
def lo (t : EReal) : BitVec 32 := Ideal.fptosi 32 (Ideal.liftRound Int.floor (clipT t))
/-- The upper bin: one more, capped at 7. -/
def hi (t : EReal) : BitVec 32 := IntOp.minsi (IntOp.addi (lo t) 1#32) 7#32
/-- The weight of the upper bin: the clipped target's fractional part. -/
def wU (t : EReal) : EReal := clipT t - (((lo t).toInt : ℝ) : EReal)
/-- The weight of the lower bin. -/
def wL (t : EReal) : EReal := cOne - wU t

/-- The largest of eight logits (a fold of `max` from minus infinity). -/
def rowMax (z : Fin 8 → EReal) : EReal := (Finset.univ : Finset (Fin 8)).fold max cNegInf z
/-- The log-probability of bin `k`: the shifted logit less the log of the sum of the shifted exponentials. -/
def logp (z : Fin 8 → EReal) (k : Fin 8) : EReal :=
  (z k - rowMax z) - Ideal.log (∑ j : Fin 8, Ideal.exp (z j - rowMax z))
/-- A bin word as an index into the eight bins (the words met here are below 8). -/
def bin (l : BitVec 32) : Fin 8 := ⟨l.toNat % 8, Nat.mod_lt _ (by decide)⟩
/-- One pixel's loss for one coordinate: the two neighbouring bins' negative log-probabilities, weighted. -/
def per (z : Fin 8 → EReal) (t : EReal) : EReal :=
  wL t * (-(logp z (bin (lo t)))) + wU t * (-(logp z (bin (hi t))))

/-- How the last step combines the total and the count. -/
def finish (S N : EReal) : EReal :=
  Scalar.select (Ideal.cmp .ogt N cZero) (Ideal.div S (max N cOne * cFour)) cZero

/-! ## The arrays -/

abbrev SReg : Shape := ⟨4, ![32, 32, 160, 160]⟩
abbrev STgt : Shape := ⟨3, ![32, 25600, 4]⟩
abbrev SMsk : Shape := ⟨2, ![32, 25600]⟩

/-- Channel `8 c + k`: bin `k` of coordinate `c`. -/
def chan (c : Fin 4) (k : Fin 8) : Fin 32 := ⟨8 * c.val + k.val, by omega⟩
/-- Pixel `(y, x)` in the flattened map. -/
def pix (y x : Fin 160) : Fin 25600 := ⟨160 * y.val + x.val, by omega⟩
/-- Row `h` of strip `j`. -/
def row16 (j : Fin 10) (h : Fin 16) : Fin 160 := ⟨16 * j.val + h.val, by omega⟩
/-- Image `b` of group `g` (four groups of eight images). -/
def img8 (g : Fin 4) (b : Fin 8) : Fin 32 := ⟨8 * g.val + b.val, by omega⟩

/-- The eight logits of coordinate `c` at pixel `(y, x)` of image `b`. -/
def zAt (A0 : SReg.Idx → EReal) (b : Fin 32) (c : Fin 4) (y x : Fin 160) : Fin 8 → EReal :=
  fun k => A0 (ix4 b (chan c k) y x)

/-- One (image, coordinate, pixel) term of the total: the pixel's loss times its mask value. -/
def elt (A0 : SReg.Idx → EReal) (A1 : STgt.Idx → EReal) (M : SMsk.Idx → EReal) (b : Fin 32) (c : Fin 4) (y x : Fin 160) : EReal :=
  per (zAt A0 b c y x) (A1 (ix3 b (pix y x) c)) * M (ix2 b (pix y x))

/-- What strip `j` adds to image `b`'s total … -/
def blkTot (A0 : SReg.Idx → EReal) (A1 : STgt.Idx → EReal) (M : SMsk.Idx → EReal) (b : Fin 32) (j : Fin 10) : EReal :=
  ∑ c : Fin 4, ∑ h : Fin 16, ∑ w : Fin 160, elt A0 A1 M b c (row16 j h) w
/-- … and to its count. -/
def blkCnt (M : SMsk.Idx → EReal) (b : Fin 32) (j : Fin 10) : EReal :=
  ∑ h : Fin 16, ∑ w : Fin 160, M (ix2 b (pix (row16 j h) w))

/-- The kernel's [32, 2] output: per image its total (column 0) and its count (column 1), over the ten strips. -/
def outSpec (A0 : SReg.Idx → EReal) (A1 : STgt.Idx → EReal) (M : SMsk.Idx → EReal) : (⟨2, ![32, 2]⟩ : Shape).Idx → EReal :=
  fun i => if (i 1).val = 0 then ∑ j : Fin 10, blkTot A0 A1 M (i 0) j else ∑ j : Fin 10, blkCnt M (i 0) j

/-- The kernel's arrangement of the total and the count … -/
def totalK (A0 : SReg.Idx → EReal) (A1 : STgt.Idx → EReal) (M : SMsk.Idx → EReal) : EReal :=
  ∑ b : Fin 32, ∑ j : Fin 10, blkTot A0 A1 M b j
def countK (M : SMsk.Idx → EReal) : EReal := ∑ b : Fin 32, ∑ j : Fin 10, blkCnt M b j

/-- … and the reference's: one sweep over (image, pixel, coordinate), the pixel split into its row and column. -/
def totalR (A0 : SReg.Idx → EReal) (A1 : STgt.Idx → EReal) (M : SMsk.Idx → EReal) : EReal :=
  ∑ i : STgt.Idx, per (zAt A0 (i 0) (i 2) ⟨(i 1).val / 160, by have h : (i 1).val < 25600 := (i 1).isLt; omega⟩ ⟨(i 1).val % 160, Nat.mod_lt _ (by decide)⟩) (A1 i)
    * M (ix2 (i 0) (i 1))
def countR (M : SMsk.Idx → EReal) : EReal := ∑ i : SMsk.Idx, M i

end Cert.Proof.Spec

end
-- ==== Proof.Accum.lean ====
/-
  The kernel's output array: what the [32, 2] array of per-image (total, count) pairs holds after the whole grid.

  The grid has 4 x 10 points; point `t = 10 g + j` works on image group `g` (eight images) and row strip `j`
  (sixteen rows). All ten points of a group share one [8, 2] output block. At the first strip of a group the block
  is set to zero and the strip's contribution is added; at every later strip the contribution is added to what the
  strip before left. So after strip `j` the block holds the sum of the contributions of strips `0 … j`, and the
  block that is written to the array after the last strip holds the sum over all ten. The four groups' blocks tile
  the array: row `8 g + b` of the array is row `b` of group `g`'s block.
-/
import proofs.«150996_j10127532883990_1_alg».proof.Proof.Gen.KernelIdeal.Frame
import proofs.«150996_j10127532883990_1_alg».proof.Proof.Stacked
import proofs.«150996_j10127532883990_1_alg».proof.Proof.Spec
import Idealize.ShloMosaic.Lib.Pipeline.Value
import Idealize.ShloMosaic.Lib.Tactic
import Idealize.ShloMosaic.PureOps.Ideal.Laws

noncomputable section

open scoped BigOperators

namespace Cert.Proof.Accum

open Idealize.ShloMosaic Idealize.ShloMosaic.ValueIdx Idealize.ShloMosaic.TcCoe Idealize.SL.Sem Cert.KernelIdeal Cert.KernelIdeal.Gen
open Idealize.ShloMosaic.Pipeline (Dat)

/-! ## What each control case leaves in the output block (any float values) -/

section Pieces
variable {F : FTy → Type} [FloatOps F]

/-- The all-zero offsets of a whole-block access, at ranks 2, 3 and 4. -/
theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later strip of a group: the block ends at what it held before plus the strip's contribution. The one store
    covers the whole block, and every load reads a whole block, so the stored value is the body's sum of the
    loaded blocks. -/
theorem out0_B_3_eq (c : Dev nD) (i : grid0.Coords)
    (arg2 : Memref sig .tc .vmem S8x32x16x160 .f32) (harg2 : arg2.IsWhole)
    (arg3 : Memref sig .tc .vmem S8x4x16x160 .f32) (harg3 : arg3.IsWhole)
    (arg4 : Memref sig .tc .vmem S8x16x160 .f32) (harg4 : arg4.IsWhole)
    (arg5 : Memref sig .tc .vmem S8x2 .f32) (harg5 : arg5.IsWhole) (hc0 : ¬cond0_0 i)
    (x0 : Vec F S8x32x16x160 .f32) (x1 : Vec F S8x4x16x160 .f32) (x2 : Vec F S8x16x160 .f32) (xo3 : Vec F S8x2 .f32) :
    out0_B_3 c i arg2 harg2 arg3 harg3 arg4 harg4 arg5 harg5 hc0 x0 x1 x2 xo3 = Body.stored x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz]
  simp only [View.readAt_eq_ld, harg2.read_unread, harg3.read_unread, harg4.read_unread, harg5.read_unread,
    View.ld_unit_zero (S := S8x2) hz, View.ld_unit_zero (S := S8x16x160) hz3, View.ld_unit_zero (S := S8x4x16x160) hz4,
    View.ld_unit_zero (S := S8x32x16x160) hz4]
  rfl

/-- The first strip of a group: the block is first set to the zero block; the later load of it reads that zero
    block back, and the last store, which covers the whole block, leaves the zero block plus the strip's
    contribution. -/
theorem out0_A_3_eq (c : Dev nD) (i : grid0.Coords)
    (arg2 : Memref sig .tc .vmem S8x32x16x160 .f32) (harg2 : arg2.IsWhole)
    (arg3 : Memref sig .tc .vmem S8x4x16x160 .f32) (harg3 : arg3.IsWhole)
    (arg4 : Memref sig .tc .vmem S8x16x160 .f32) (harg4 : arg4.IsWhole)
    (arg5 : Memref sig .tc .vmem S8x2 .f32) (harg5 : arg5.IsWhole) (hc0 : cond0_0 i)
    (x0 : Vec F S8x32x16x160 .f32) (x1 : Vec F S8x4x16x160 .f32) (x2 : Vec F S8x16x160 .f32) :
    out0_A_3 c i arg2 harg2 arg3 harg3 arg4 harg4 arg5 harg5 hc0 x0 x1 x2 = Body.stored x0 x1 x2 (k0_pay2 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S8x2) hz, View.readCov_unit_zero (S := S8x2) _ hz]
  simp only [View.readAt_eq_ld, harg2.read_unread, harg3.read_unread, harg4.read_unread,
    View.ld_unit_zero (S := S8x16x160) hz3, View.ld_unit_zero (S := S8x4x16x160) hz4,
    View.ld_unit_zero (S := S8x32x16x160) hz4]
  rfl

end Pieces

/-! ## Over the extended reals: the block after a point is a sum of contributions -/

section AtIdeal
variable (m : (ℓ : Loc nD τ sig) → Buf (Elt Ideal) ℓ)

/-- The three input blocks of point `t`: logits, targets, mask. -/
abbrev blk0 (c : Dev nD) (t : Fin cfg0.N) : Vec Ideal S8x32x16x160 .f32 := iblk m c 0 t
abbrev blk1 (c : Dev nD) (t : Fin cfg0.N) : Vec Ideal S8x4x16x160 .f32 := iblk m c 1 t
abbrev blk2 (c : Dev nD) (t : Fin cfg0.N) : Vec Ideal S8x16x160 .f32 := iblk m c 2 t

/-- What point `t` adds to its group's [8, 2] block: per image the strip's total and the strip's mask count. -/
def contrib (c : Dev nD) (t : Fin cfg0.N) : S8x2.Idx → EReal :=
  Body.stacked (blk0 m c t) (blk1 m c t) (blk2 m c t)

/-- The stored value at an entry: the accumulator's entry plus the contribution's (the sum is entrywise, and
    re-reading a block at its own shape changes nothing). -/
theorem stored_apply (x0 : Vec Ideal S8x32x16x160 .f32) (x1 : Vec Ideal S8x4x16x160 .f32) (x2 : Vec Ideal S8x16x160 .f32)
    (acc : Vec Ideal S8x2 .f32) (i : S8x2.Idx) :
    Body.stored x0 x1 x2 acc i = acc i + Body.stacked x0 x1 x2 i := by
  unfold Body.stored k0_pay1
  show (shapeCast S8x2 acc shapeCasts_S8x2_S8x2 i : EReal) + Body.stacked x0 x1 x2 i = _
  rw [shapeCast_self]

/-- The zero block's entries are the extended real `0`. -/
theorem zero_apply (i : S8x2.Idx) : (k0_pay2 (F := Ideal)) i = (0 : EReal) := by
  unfold k0_pay2
  show Ideal.ofBits .f32 0x00000000#32 = 0
  exact Ideal.ofBits_zero_f32

/-- At the first strip of a group the block ends at the strip's contribution: `0 + x = x`. -/
theorem outsAt0_first (c : Dev nD) (t : Fin cfg0.N) (h0 : t.val % 10 = 0) (i : S8x2.Idx) :
    outsAt0 m c t.val t.isLt i = contrib m c t i := by
  rw [outsAt0_A m c t h0]
  refine (congrFun (out0_A_3_eq (F := Ideal) c (grid0.coords t) (ms0_0 t) (hs0_0 t) (ms0_1 t) (hs0_1 t) (ms0_2 t) (hs0_2 t)
    (ms0_3 t) (hs0_3 t) ((hcond0_0 t).mpr h0) (blk0 m c t) (blk1 m c t) (blk2 m c t)) i).trans ?_
  rw [stored_apply, zero_apply, zero_add]
  rfl

/-- At a later strip it ends at what the point before left plus the strip's contribution. -/
theorem outsAt0_later (c : Dev nD) (t : Fin cfg0.N) (h0 : ¬t.val % 10 = 0) (i : S8x2.Idx) :
    outsAt0 m c t.val t.isLt i
      = outsAt0 m c (t.val - 1) (Nat.lt_of_le_of_lt (Nat.sub_le _ _) t.isLt) i + contrib m c t i := by
  rw [outsAt0_B m c t h0]
  refine (congrFun (out0_B_3_eq (F := Ideal) c (grid0.coords t) (ms0_0 t) (hs0_0 t) (ms0_1 t) (hs0_1 t) (ms0_2 t) (hs0_2 t)
    (ms0_3 t) (hs0_3 t) (fun h => h0 ((hcond0_0 t).mp h)) (blk0 m c t) (blk1 m c t) (blk2 m c t)
    (outsAt0 m c (t.val - 1) (Nat.lt_of_le_of_lt (Nat.sub_le _ _) t.isLt))) i).trans ?_
  rw [stored_apply]
  rfl

/-- The contribution of the point numbered `n`, for any natural `n` (zero past the grid, which no sum below reaches). -/
def contribAt (c : Dev nD) (n : ℕ) : S8x2.Idx → EReal :=
  if h : n < cfg0.N then contrib m c ⟨n, h⟩ else fun _ => 0

theorem contribAt_of_lt (c : Dev nD) (n : ℕ) (h : n < cfg0.N) : contribAt m c n = contrib m c ⟨n, h⟩ := dif_pos h

/-- THE RUNNING SUM. After point `n = 10 g + j` the block holds the sum of the contributions of the points
    `10 g, …, 10 g + j`: by induction on `n`. When `n` starts a group the sum has the one term `n`; otherwise
    `n - 1` is in the same group, one strip earlier, and the sum gains the term `n`. -/
theorem outsAt0_sum (c : Dev nD) : ∀ (n : ℕ) (h : n < cfg0.N) (i : S8x2.Idx),
    outsAt0 m c n h i = ∑ j ∈ Finset.range (n % 10 + 1), contribAt m c (10 * (n / 10) + j) i := by
  intro n
  induction n with
  | zero =>
    intro h i
    refine (outsAt0_first m c ⟨0, h⟩ (Nat.zero_mod 10) i).trans ?_
    rw [show (0 : ℕ) % 10 + 1 = 1 from rfl, Finset.sum_range_one, show 10 * (0 / 10) + 0 = 0 from rfl,
      contribAt_of_lt m c 0 h]
  | succ n ih =>
    intro h i
    by_cases h0 : (n + 1) % 10 = 0
    · refine (outsAt0_first m c ⟨n + 1, h⟩ h0 i).trans ?_
      have e : 10 * ((n + 1) / 10) + 0 = n + 1 := by omega
      rw [h0, Finset.sum_range_one, e, contribAt_of_lt m c (n + 1) h]
    · refine (outsAt0_later m c ⟨n + 1, h⟩ h0 i).trans ?_
      have e1 : (n + 1) % 10 + 1 = (n % 10 + 1) + 1 := by omega
      have e2 : (n + 1) / 10 = n / 10 := by omega
      have e3 : 10 * (n / 10) + (n % 10 + 1) = n + 1 := by omega
      rw [e1, e2, Finset.sum_range_succ, e3, contribAt_of_lt m c (n + 1) h]
      exact congrArg (· + contrib m c ⟨n + 1, h⟩ i) (ih (Nat.lt_of_succ_lt h) i)

/-- The same at a point of the grid, each term a point of the grid (every index the sum meets is one). -/
theorem outsAt0_eq (c : Dev nD) (t : Fin cfg0.N) (i : S8x2.Idx) :
    outsAt0 m c t.val t.isLt i
      = ∑ j ∈ Finset.range (t.val % 10 + 1),
          if h : 10 * (t.val / 10) + j < cfg0.N then contrib m c ⟨10 * (t.val / 10) + j, h⟩ i else 0 := by
  rw [outsAt0_sum m c t.val t.isLt i]
  refine Finset.sum_congr rfl fun j _ => ?_
  unfold contribAt
  split <;> rfl

end AtIdeal

/-! ## The output array after the run -/

section Output
variable (m : (ℓ : Loc nD τ sig) → Buf (Elt Ideal) ℓ)

/-- The grid point of image group `g` and row strip `j`. -/
def pt (g : Fin 4) (j : Fin 10) : Fin cfg0.N :=
  ⟨10 * g.val + j.val, by rw [show cfg0.N = 40 from N_0]; have := g.isLt; have := j.isLt; omega⟩

/-- The output block's index at point `t`: block row `t / 10` (the image group), block column 0. -/
theorem idx3 : ∀ t : Fin cfg0.N, win0_3.index t (0 : Fin 2) = t.val / 10 ∧ win0_3.index t (1 : Fin 2) = 0 :=
  (by decide +kernel : ∀ t : Fin grid0.N, win0_3.index t (0 : Fin 2) = t.val / 10 ∧ win0_3.index t (1 : Fin 2) = 0)

/-- The whole [32, 2] array as one function: row `r` is image `r % 8` of group `r / 8`, and its entry is the sum of
    that group's ten strips' contributions there. -/
def outArr (c : Dev nD) : S32x2.Idx → EReal := fun i =>
  ∑ j : Fin 10, contrib m c (pt ⟨(i 0).val / 8, by have h : (i 0).val < 32 := (i 0).isLt; omega⟩ j)
    (ix2 ⟨(i 0).val % 8, Nat.mod_lt _ (by decide)⟩ (i 1))

/-- What a point that writes its block back writes: it is the last strip of its group (`t % 10 = 9`), the block
    holds the sum over the group's ten strips, and entry `(y₀, y₁)` of the block is entry `(8 (t / 10) + y₀, y₁)` of
    the array, whose group is `t / 10` and whose image is `y₀`. -/
theorem flushed_eq (c : Dev nD) (t : Fin cfg0.N) (hf : (cfg0.win 3).flush t = true) :
    (dats m 0 c).flushed 3 t = ((cfg0.win 3).blk t).view.read (Elt Ideal) (outArr m c) := by
  have h9 : t.val % 10 = 9 := (flush0_3 t).mp hf
  have hN : t.val < 40 := lt_of_lt_of_eq t.isLt (show cfg0.N = 40 from N_0)
  show (cfg0.win 3).cut (grid0.coords t) ((dats m 0 c).after 3 t) = _
  rw [after0_3]
  funext y
  show outsAt0 m c t.val t.isLt y = outArr m c (((cfg0.win 3).blk t).view.emb y)
  obtain ⟨e0, e1⟩ := idx3 t
  have hy0 : (y 0).val < 8 := (y 0).isLt
  have hy1 : (y 1).val < 2 := (y 1).isLt
  have q0 : ((((cfg0.win 3).blk t).view.emb y) 0).val = 8 * (t.val / 10) + (y 0).val := by
    show win0_3.index t (0 : Fin 2) * 8 + 1 * (y 0).val = _
    rw [e0]; omega
  have q1 : ((((cfg0.win 3).blk t).view.emb y) 1).val = (y 1).val := by
    show win0_3.index t (1 : Fin 2) * 2 + 1 * (y 1).val = _
    rw [e1]; omega
  rw [outsAt0_sum m c t.val t.isLt y, h9, Finset.sum_range]
  unfold outArr
  refine Finset.sum_congr rfl fun j _ => ?_
  have hj : j.val < 10 := j.isLt
  have hlt : 10 * (t.val / 10) + j.val < cfg0.N :=
    lt_of_lt_of_eq (show 10 * (t.val / 10) + j.val < 40 by omega) (show (40 : ℕ) = cfg0.N from N_0.symm)
  rw [contribAt_of_lt m c _ hlt]
  have hp : ∀ h, pt ⟨((((cfg0.win 3).blk t).view.emb y) 0).val / 8, h⟩ j = ⟨10 * (t.val / 10) + j.val, hlt⟩ := fun h =>
    Fin.ext (by show 10 * (((((cfg0.win 3).blk t).view.emb y) 0).val / 8) + j.val = 10 * (t.val / 10) + j.val; rw [q0]; omega)
  have hi : ∀ h, (ix2 (⟨((((cfg0.win 3).blk t).view.emb y) 0).val % 8, h⟩ : Fin 8) ((((cfg0.win 3).blk t).view.emb y) 1) : S8x2.Idx) = y := fun h => by
    funext a
    match a with
    | ⟨0, _⟩ => exact Fin.ext (by show ((((cfg0.win 3).blk t).view.emb y) 0).val % 8 = (y 0).val; rw [q0]; omega)
    | ⟨1, _⟩ => exact Fin.ext q1
  rw [hp, hi]

/-- An entry of the array is in point `t`'s block iff each coordinate is in the block's range on its axis. -/
theorem mem_blk3 (t : Fin cfg0.N) (i : S32x2.Idx) :
    i ∈ ((cfg0.win 3).blk t).view.set
      ↔ ∀ a : Fin 2, win0_3.index t a * S8x2.size a ≤ (i a).val ∧ (i a).val < win0_3.index t a * S8x2.size a + S8x2.size a := by
  show i ∈ ((View.whole main_v4).slice (win0_3.rect t)).set ↔ _
  rw [View.set_slice_whole, Rect.mem_set_unit]
  exact Iff.rfl

/-- Every entry of the array is in the block some point writes back: row `r` is in group `r / 8`'s block, written
    back at that group's last strip. -/
theorem covered (i : S32x2.Idx) :
    ∃ t : Fin cfg0.N, (cfg0.win 3).flush t = true ∧ i ∈ ((cfg0.win 3).blk t).view.set := by
  have h0 : (i 0).val < 32 := (i 0).isLt
  have h1 : (i 1).val < 2 := (i 1).isLt
  refine ⟨pt ⟨(i 0).val / 8, by omega⟩ 9, (flush0_3 _).mpr (by show (10 * ((i 0).val / 8) + 9) % 10 = 9; omega), ?_⟩
  rw [mem_blk3]
  obtain ⟨e0, e1⟩ := idx3 (pt ⟨(i 0).val / 8, by omega⟩ 9)
  have ev : (pt ⟨(i 0).val / 8, by omega⟩ 9).val = 10 * ((i 0).val / 8) + 9 := rfl
  intro a
  match a with
  | ⟨0, _⟩ =>
    show win0_3.index _ (0 : Fin 2) * 8 ≤ (i 0).val ∧ (i 0).val < win0_3.index _ (0 : Fin 2) * 8 + 8
    rw [e0, ev]
    omega
  | ⟨1, _⟩ =>
    show win0_3.index _ (1 : Fin 2) * 2 ≤ (i 1).val ∧ (i 1).val < win0_3.index _ (1 : Fin 2) * 2 + 2
    rw [e1]
    omega

/-- So the array ends holding `outArr`: every written block is a block of it, and the written blocks cover it. -/
theorem final (c : Dev nD) : (dats m 0 c).arrAt 3 cfg0.N = outArr m c :=
  (dats m 0 c).arrAt_eq_of_cover 3 (outArr m c) (flushed_eq m c) covered

/-- THE OUTPUT ARRAY: entry `s` of image `b` of group `g` is the sum over the ten strips of the strips'
    contributions at `(b, s)` (`(8 g + b) / 8 = g`, `(8 g + b) % 8 = b`). -/
theorem out_array (c : Dev nD) (g : Fin 4) (b : Fin 8) (s : Fin 2) :
    ((dats m 0 c).arrAt 3 cfg0.N : S32x2.Idx → EReal) (ix2 (Spec.img8 g b) s)
      = ∑ j : Fin 10, contrib m c (pt g j) (ix2 b s) := by
  have e : outArr m c (ix2 (Spec.img8 g b) s) = ∑ j : Fin 10, contrib m c (pt g j) (ix2 b s) := by
    unfold outArr
    have hb8 : b.val < 8 := b.isLt
    have hg : ∀ h, (⟨((ix2 (Spec.img8 g b) s) 0).val / 8, h⟩ : Fin 4) = g := fun h =>
      Fin.ext (by show (8 * g.val + b.val) / 8 = g.val; omega)
    have hb : ∀ h, (⟨((ix2 (Spec.img8 g b) s) 0).val % 8, h⟩ : Fin 8) = b := fun h =>
      Fin.ext (by show (8 * g.val + b.val) % 8 = b.val; omega)
    refine Finset.sum_congr rfl fun j _ => ?_
    rw [hg, hb]
  rw [final]
  exact e

end Output

end Cert.Proof.Accum

end
-- ==== Proof.Scalar.lean ====
/-
  Facts about single words and single extended reals that both programs' readings lean on: the two bin words stay
  inside the eight bins (the target is clipped below 7 before its integer part is taken), a sum against a one-hot
  weight picks one term, and the small laws of the extended reals that turn one program's spelling into the other's
  (`0 - x = -x`; the maximum with minus infinity).
-/
import proofs.«150996_j10127532883990_1_alg».proof.Proof.Spec
import Idealize.ShloMosaic.PureOps.Ideal.Laws
import Idealize.ShloMosaic.Lib.StableHlo.Predicate
import Mathlib.Algebra.BigOperators.Fin

noncomputable section

open scoped BigOperators

namespace Cert.Proof.Scalar

open Idealize.ShloMosaic Cert.Proof
open Idealize.ShloMosaic.StableHlo.Predicate

/-- The one-hot weight of bin `k` against the word `l`: the compare of the bin number with the word, widened to 32 bits
    and read as a (signed) integer: `1` when they are equal and `0` otherwise. -/
def oh (k : Fin 8) (l : BitVec 32) : EReal :=
  (((BitVec.setWidth 32 (IntOp.cmpi .eq (BitVec.ofNat 32 k.val) l)).toInt : ℝ) : EReal)

/-- The weight is `1` at equal words and `0` elsewhere. -/
theorem oh_eq (k : Fin 8) (l : BitVec 32) : oh k l = if BitVec.ofNat 32 k.val = l then 1 else 0 := by
  unfold oh
  by_cases h : BitVec.ofNat 32 k.val = l
  · rw [if_pos h, cmpi_eq_iff.mpr h]
    have : (BitVec.setWidth 32 (1#1)).toInt = 1 := by decide
    rw [this]; norm_num
  · rw [if_neg h]
    have h0 : IntOp.cmpi .eq (BitVec.ofNat 32 k.val) l = 0#1 := by
      rcases BitVec.eq_zero_or_eq_one (IntOp.cmpi .eq (BitVec.ofNat 32 k.val) l) with h' | h'
      · exact h'
      · exact absurd (cmpi_eq_iff.mp h') h
    have : (BitVec.setWidth 32 (0#1)).toInt = 0 := by decide
    rw [h0, this]; norm_num

/-- For a word below 8 the bin number equals the word exactly at the word's own bin. -/
theorem ofNat_eq_iff (k : Fin 8) (l : BitVec 32) (hl : l.toNat < 8) : BitVec.ofNat 32 k.val = l ↔ k = Spec.bin l := by
  constructor
  · intro h
    apply Fin.ext
    have : l.toNat = k.val := by
      rw [← h, BitVec.toNat_ofNat]; have := k.isLt; omega
    show k.val = l.toNat % 8
    omega
  · intro h
    apply BitVec.eq_of_toNat_eq
    have : k.val = l.toNat % 8 := congrArg Fin.val h
    rw [BitVec.toNat_ofNat]; omega

/-- Against a word below 8 the weighted sum over the bins is the one term at that bin. -/
theorem sum_oh (f : Fin 8 → EReal) (l : BitVec 32) (hl : l.toNat < 8) : ∑ k : Fin 8, f k * oh k l = f (Spec.bin l) := by
  rw [Finset.sum_eq_single (Spec.bin l)]
  · rw [oh_eq, if_pos ((ofNat_eq_iff _ l hl).mpr rfl), mul_one]
  · intro k _ hk
    rw [oh_eq, if_neg (fun h => hk ((ofNat_eq_iff k l hl).mp h)), mul_zero]
  · intro h; exact absurd (Finset.mem_univ _) h

/-- The zero word denotes zero. -/
theorem cZero_eq : Spec.cZero = 0 := Ideal.ofBits_zero_f32

/-- The upper clipping bound is the real `14679854 / 2^21`. -/
theorem cHi_eq : Spec.cHi = ((14679854 / 2097152 : ℝ) : EReal) := by
  unfold Spec.cHi
  simp [Ideal.ofBits, Ideal.ieee, -EReal.coe_mul]; norm_num

/-- The words of 1, 4 and minus infinity denote `1`, `4` and `⊥`. -/
theorem cOne_eq : Spec.cOne = 1 := by
  unfold Spec.cOne
  simp [Ideal.ofBits, Ideal.ieee, -EReal.coe_mul]; norm_num
theorem cFour_eq : Spec.cFour = ((4 : ℝ) : EReal) := by
  unfold Spec.cFour
  simp [Ideal.ofBits, Ideal.ieee, -EReal.coe_mul]; norm_num
theorem cNegInf_eq : Spec.cNegInf = ⊥ := by
  unfold Spec.cNegInf
  simp [Ideal.ofBits, Ideal.ieee]

/-- The clipped target is a real in `[0, 7)`, whatever the target (an infinity is clipped too). -/
theorem clipT_real (t : EReal) : ∃ r : ℝ, Spec.clipT t = (r : EReal) ∧ 0 ≤ r ∧ r < 7 := by
  have hhi : Spec.clipT t ≤ ((14679854 / 2097152 : ℝ) : EReal) := by
    unfold Spec.clipT; rw [cHi_eq]; exact min_le_left _ _
  have hlo : (0 : EReal) ≤ Spec.clipT t := by
    unfold Spec.clipT; rw [cHi_eq, cZero_eq]
    exact le_min (by exact_mod_cast (by norm_num : (0 : ℝ) ≤ 14679854 / 2097152)) (le_max_left _ _)
  have hbot : Spec.clipT t ≠ ⊥ := fun h => by rw [h] at hlo; exact absurd hlo (by simp)
  have htop : Spec.clipT t ≠ ⊤ := fun h => by rw [h] at hhi; exact absurd hhi (by simp)
  refine ⟨(Spec.clipT t).toReal, (EReal.coe_toReal htop hbot).symm, ?_, ?_⟩
  · rw [← EReal.coe_toReal htop hbot] at hlo; exact_mod_cast hlo
  · rw [← EReal.coe_toReal htop hbot] at hhi
    have : (Spec.clipT t).toReal ≤ 14679854 / 2097152 := by exact_mod_cast hhi
    linarith [show (14679854 / 2097152 : ℝ) < 7 by norm_num]

/-- The lower bin is the word of a number at most 6: the integer part of a real in `[0, 7)`. -/
theorem lo_eq (t : EReal) : ∃ n : ℕ, n ≤ 6 ∧ Spec.lo t = BitVec.ofNat 32 n := by
  obtain ⟨r, hr, h0, h7⟩ := clipT_real t
  have hf0 : 0 ≤ ⌊r⌋ := Int.floor_nonneg.mpr h0
  have hf6 : ⌊r⌋ ≤ 6 := by
    have : ⌊r⌋ < 7 := Int.floor_lt.mpr (by exact_mod_cast h7)
    omega
  refine ⟨⌊r⌋.toNat, by omega, ?_⟩
  unfold Spec.lo
  rw [hr, Ideal.liftRound_coe, Ideal.fptosi, Ideal.toIntClamped_coe,
    if_pos (by exact_mod_cast hf0), Int.floor_intCast]
  apply BitVec.eq_of_toNat_eq
  rw [BitVec.toNat_ofInt, BitVec.toNat_ofNat]
  omega

/-- The lower bin is at most 6 … -/
theorem lo_le (t : EReal) : (Spec.lo t).toNat ≤ 6 := by
  obtain ⟨n, hn, h⟩ := lo_eq t
  rw [h, BitVec.toNat_ofNat]; omega

/-- … so the upper bin is at most 7. -/
theorem hi_le (t : EReal) : (Spec.hi t).toNat ≤ 7 := by
  have hl := lo_le t
  unfold Spec.hi IntOp.minsi IntOp.addi
  split
  · rw [BitVec.toNat_add]; simp only [BitVec.toNat_ofNat]; omega
  · simp

/-- Subtracting from the zero word negates. -/
theorem cZero_sub (x : EReal) : Spec.cZero - x = -x := by
  rw [cZero_eq, zero_sub]

/-- The running maximum from minus infinity is unchanged by one more comparison with minus infinity. -/
theorem max_negInf_rowMax (z : Fin 8 → EReal) : max Spec.cNegInf (Spec.rowMax z) = Spec.rowMax z :=
  max_eq_right ((Finset.le_fold_max _).mpr (Or.inl le_rfl))

/-- A gather's start index, read signed and clamped to the last bin, is the bin itself for a word below 8. -/
theorem clamp_bin (l : BitVec 32) (hl : l.toNat < 8) : min l.toInt.toNat 7 = (Spec.bin l).val := by
  rw [toInt_eq_toNat_of_lt (by omega)]
  show min ((l.toNat : ℤ)).toNat 7 = l.toNat % 8
  rw [Int.toNat_natCast]; omega

/-- A word below 8 is not negative, is at least 0 and at most 7 in the signed order. -/
theorem slt_zero (l : BitVec 32) (hl : l.toNat < 8) : IntOp.cmpi .slt l 0#32 = 0#1 := by
  rcases BitVec.eq_zero_or_eq_one (IntOp.cmpi .slt l 0#32) with h | h
  · exact h
  · have := (slt_iff_toNat (a := l) (b := 0#32) (by omega) (by simp)).mp h
    simp at this
theorem sge_zero (l : BitVec 32) (hl : l.toNat < 8) : IntOp.cmpi .sge l 0#32 = 1#1 :=
  (sge_iff_toNat (a := l) (b := 0#32) (by omega) (by simp)).mpr (by simp)
theorem sle_seven (l : BitVec 32) (hl : l.toNat < 8) : IntOp.cmpi .sle l 7#32 = 1#1 :=
  (sle_iff_toNat (a := l) (b := 7#32) (by omega) (by simp)).mpr (by simp; omega)

end Cert.Proof.Scalar

end
-- ==== Proof.Seg.lean ====
/-
  The three repeated stretches of the kernel body, each as one function of the values it reads, and what each computes
  index by index on the extended reals.

  `lpOf` turns the eight logits of a pixel (the bin axis is axis 1 of an [8, 8, 16, 160] value) into log-probabilities:
  subtract the maximum over the bins, exponentiate, sum over the bins, take the log, subtract. `clipOf` clips a target to
  `[0, cHi]`. `segOf` is one coordinate's contribution to the eight images' totals: with `tc` the clipped targets, `l`
  and `u` the two bin words, `fl` the lower bin as a float, `lp` the log-probabilities and `v7` the mask, each pixel
  contributes `((1 - (tc - fl)) * (-(∑ k, lp k * [k = l])) + (tc - fl) * (-(∑ k, lp k * [k = u]))) * v7`, summed over the
  160 columns and then the 16 rows of the strip. The bracket `[k = l]` is `Scalar.oh k l`: the compare of the bin number
  with the word, widened and converted.
-/
import proofs.«150996_j10127532883990_1_alg».proof.Proof.Gen.KernelIdeal.Skeleton
import proofs.«150996_j10127532883990_1_alg».proof.Proof.Scalar
import Idealize.ShloMosaic.Lib.ValueIdx
import Idealize.ShloMosaic.Lib.Pipeline.Value
import Idealize.ShloMosaic.PureOps.Ideal.Laws

noncomputable section

open scoped BigOperators

namespace Cert.Proof.Seg

open Idealize.ShloMosaic Idealize.ShloMosaic.ValueIdx Cert.KernelIdeal Cert.KernelIdeal.Facts₀ Cert.KernelIdeal.Facts Cert.Proof

variable {F : FTy → Type} [FloatOps F]

/-- Log-probabilities along the bin axis. -/
def lpOf (v11 : FVec F S8x8x16x160 .f32) : FVec F S8x8x16x160 .f32 :=
  have v12 : FVec F S8x16x160 .f32 := multiReduction .maximumf [1] S8x16x160 v11 0xFF800000#32 reduces_S8x8x16x160_S8x16x160 (.inl rfl) rfl
  have v13 : FVec F S8x1x16x160 .f32 := shapeCast S8x1x16x160 v12 shapeCasts_S8x16x160_S8x1x16x160
  have v14 : FVec F S8x8x16x160 .f32 := broadcastTo S8x8x16x160 v13 broadcasts_S8x1x16x160_S8x8x16x160
  have v15 : FVec F S8x8x16x160 .f32 := subf v11 v14
  have v16 : FVec F S8x8x16x160 .f32 := exp v15
  have v17 : FVec F S8x16x160 .f32 := multiReduction .add [1] S8x16x160 v16 0x00000000#32 reduces_S8x8x16x160_S8x16x160 (.inl rfl) rfl
  have v18 : FVec F S8x1x16x160 .f32 := shapeCast S8x1x16x160 v17 shapeCasts_S8x16x160_S8x1x16x160
  have v19 : FVec F S8x1x16x160 .f32 := log v18
  have v20 : FVec F S8x8x16x160 .f32 := broadcastTo S8x8x16x160 v19 broadcasts_S8x1x16x160_S8x8x16x160
  have v21 : FVec F S8x8x16x160 .f32 := subf v15 v20
  v21

/-- The clip to `[0, cHi]`. -/
def clipOf (v23 : FVec F S8x16x160 .f32) : FVec F S8x16x160 .f32 :=
  have cst_15 : F .f32 := Scalar.ofBits .f32 0x00000000#32
  have cst_16 : F .f32 := Scalar.ofBits .f32 0x40DFFF2E#32
  have v24 : FVec F S8x16x160 .f32 := broadcast S8x16x160 cst_15
  have v25 : FVec F S8x16x160 .f32 := maximumf v24 v23
  have v26 : FVec F S8x16x160 .f32 := broadcast S8x16x160 cst_16
  have v27 : FVec F S8x16x160 .f32 := minimumf v26 v25
  v27

/-- One coordinate's contribution to the eight images' totals. -/
def segOf (v7 : FVec F S8x16x160 .f32) (v21 : FVec F S8x8x16x160 .f32) (v27 : FVec F S8x16x160 .f32) (v29 : IVec S8x16x160 32) (v33 : IVec S8x16x160 32) (v34 : FVec F S8x16x160 .f32) : FVec F S8 .f32 :=
  have v35 : FVec F S8x16x160 .f32 := subf v27 v34
  have cst_17 : F .f32 := Scalar.ofBits .f32 0x3F800000#32
  have v36 : FVec F S8x16x160 .f32 := broadcast S8x16x160 cst_17
  have v37 : FVec F S8x16x160 .f32 := subf v36 v35
  have v38 : IVec S8x8x16x160 32 := iota .tc S8x8x16x160 32 [1] iota_S8x8x16x160_d1_w32
  have v39 : IVec S8x1x16x160 32 := shapeCast S8x1x16x160 v29 shapeCasts_S8x16x160_S8x1x16x160
  have v40 : IVec S8x8x16x160 32 := broadcastTo S8x8x16x160 v39 broadcasts_S8x1x16x160_S8x8x16x160
  have v41 : IVec S8x8x16x160 1 := cmpi .eq v38 v40
  have v42 : IVec S8x8x16x160 32 := extui 32 v41 natLt_1_32
  have v43 : FVec F S8x8x16x160 .f32 := sitofp .f32 v42
  have v44 : IVec S8x1x16x160 32 := shapeCast S8x1x16x160 v33 shapeCasts_S8x16x160_S8x1x16x160
  have v45 : IVec S8x8x16x160 32 := broadcastTo S8x8x16x160 v44 broadcasts_S8x1x16x160_S8x8x16x160
  have v46 : IVec S8x8x16x160 1 := cmpi .eq v38 v45
  have v47 : IVec S8x8x16x160 32 := extui 32 v46 natLt_1_32
  have v48 : FVec F S8x8x16x160 .f32 := sitofp .f32 v47
  have v49 : FVec F S8x8x16x160 .f32 := mulf v21 v43
  have v50 : FVec F S8x16x160 .f32 := multiReduction .add [1] S8x16x160 v49 0x00000000#32 reduces_S8x8x16x160_S8x16x160 (.inl rfl) rfl
  have cst_19 : F .f32 := Scalar.ofBits .f32 0x00000000#32
  have v51 : FVec F S8x16x160 .f32 := broadcast S8x16x160 cst_19
  have v52 : FVec F S8x16x160 .f32 := subf v51 v50
  have v53 : FVec F S8x8x16x160 .f32 := mulf v21 v48
  have v54 : FVec F S8x16x160 .f32 := multiReduction .add [1] S8x16x160 v53 0x00000000#32 reduces_S8x8x16x160_S8x16x160 (.inl rfl) rfl
  have cst_21 : F .f32 := Scalar.ofBits .f32 0x00000000#32
  have v55 : FVec F S8x16x160 .f32 := broadcast S8x16x160 cst_21
  have v56 : FVec F S8x16x160 .f32 := subf v55 v54
  have v57 : FVec F S8x16x160 .f32 := mulf v37 v52
  have v58 : FVec F S8x16x160 .f32 := mulf v35 v56
  have v59 : FVec F S8x16x160 .f32 := addf v57 v58
  have v60 : FVec F S8x16x160 .f32 := mulf v59 v7
  have v61 : FVec F S8x16 .f32 := multiReduction .add [2] S8x16 v60 0x00000000#32 reduces_S8x16x160_S8x16 (.inl rfl) rfl
  have v62 : FVec F S8 .f32 := multiReduction .add [1] S8 v61 0x00000000#32 reduces_S8x16_S8 (.inl rfl) rfl
  v62

/-! ## Layout: the keep-dims cast and the broadcast back over the bins -/

section Layout
variable {α : Type}

/-- An [8, 16, 160] value seen as [8, 1, 16, 160] reads, at `(b, u, h, w)`, the operand at `(b, h, w)`: the two indices
    have the same row-major position. -/
theorem cast_apply (x : S8x16x160.Idx → α) (hc : S8x16x160.ShapeCasts S8x1x16x160) (b : Fin 8) (u : Fin 1) (h : Fin 16)
    (w : Fin 160) : shapeCast S8x1x16x160 x hc (ix4 b u h w) = x (ix3 b h w) :=
  shapeCast_apply x hc _ _ (by
    have hu : u.val = 0 := by omega
    rw [Shape.rowMajor_val_three, Shape.rowMajor_val_four]
    show (b.val * 16 + h.val) * 160 + w.val = ((b.val * 1 + u.val) * 16 + h.val) * 160 + w.val
    rw [hu]; omega)

/-- An [8, 1, 16, 160] value broadcast over the eight bins reads, at `(b, k, h, w)`, the operand at `(b, 0, h, w)`. -/
theorem bcast_apply (x : S8x1x16x160.Idx → α) (hb : S8x1x16x160.Broadcasts S8x8x16x160) (b : Fin 8) (k : Fin 8) (h : Fin 16)
    (w : Fin 160) : broadcastTo S8x8x16x160 x hb (ix4 b k h w) = x (ix4 b (0 : Fin 1) h w) :=
  broadcastTo_apply x hb _ _ fun a => match a with
    | ⟨0, _⟩ => rfl
    | ⟨1, _⟩ => rfl
    | ⟨2, _⟩ => rfl
    | ⟨3, _⟩ => rfl

end Layout

/-! ## The reductions: over the bins, over a row's columns, over a strip's rows -/

/-- The index over `(b, h, w)` with bin `k` put back on axis 1. -/
theorem lift_bins (hr : S8x8x16x160.Reduces [1] S8x16x160) (b : Fin 8) (h : Fin 16) (w : Fin 160) (k : Fin 8) :
    hr.lift (ix3 b h w) k = ix4 b k h w := by
  funext a
  match a with
  | ⟨0, _⟩ => rfl
  | ⟨1, _⟩ => rfl
  | ⟨2, _⟩ => rfl
  | ⟨3, _⟩ => rfl

/-- The index over `(b, h)` with column `w` put back on axis 2. -/
theorem lift_cols (hr : S8x16x160.Reduces [2] S8x16) (b : Fin 8) (h : Fin 16) (w : Fin 160) :
    hr.lift (ix2 b h) w = ix3 b h w := by
  funext a
  match a with
  | ⟨0, _⟩ => rfl
  | ⟨1, _⟩ => rfl
  | ⟨2, _⟩ => rfl

/-- The index over `b` with row `h` put back on axis 1. -/
theorem lift_rows (hr : S8x16.Reduces [1] S8) (b : Fin 8) (h : Fin 16) : hr.lift (ix1 b) h = ix2 b h := by
  funext a
  match a with
  | ⟨0, _⟩ => rfl
  | ⟨1, _⟩ => rfl

/-- The sum over the bins. -/
theorem sum_bins (src : FVec Ideal S8x8x16x160 .f32) (hr : S8x8x16x160.Reduces [1] S8x16x160) (hφ : FKind.Formats .f32)
    (hacc : (0x00000000#32 : BitVec 32) = 0x00000000#32) (b : Fin 8) (h : Fin 16) (w : Fin 160) :
    multiReduction (F := Ideal) .add [1] S8x16x160 src 0x00000000#32 hr hφ hacc (ix3 b h w) = ∑ k : Fin 8, src (ix4 b k h w) :=
  (Ideal.multiReduction_add_single src 0x00000000#32 hr hφ hacc (ix3 b h w)).trans
    (Finset.sum_congr rfl fun k _ => congrArg src (lift_bins hr b h w k))

/-- The maximum over the bins. -/
theorem max_bins (src : FVec Ideal S8x8x16x160 .f32) (hr : S8x8x16x160.Reduces [1] S8x16x160) (hφ : FKind.Formats .f32)
    (hacc : (0xFF800000#32 : BitVec 32) = 0xFF800000#32) (b : Fin 8) (h : Fin 16) (w : Fin 160) :
    multiReduction (F := Ideal) .maximumf [1] S8x16x160 src 0xFF800000#32 hr hφ hacc (ix3 b h w)
      = Spec.rowMax (fun k => src (ix4 b k h w)) :=
  (Ideal.multiReduction_maximumf_single src 0xFF800000#32 hr hφ hacc (ix3 b h w)).trans
    (congrArg ((Finset.univ : Finset (Fin 8)).fold max Spec.cNegInf) (funext fun k => congrArg src (lift_bins hr b h w k)))

/-- The sum over a row's columns. -/
theorem sum_cols (src : FVec Ideal S8x16x160 .f32) (hr : S8x16x160.Reduces [2] S8x16) (hφ : FKind.Formats .f32)
    (hacc : (0x00000000#32 : BitVec 32) = 0x00000000#32) (b : Fin 8) (h : Fin 16) :
    multiReduction (F := Ideal) .add [2] S8x16 src 0x00000000#32 hr hφ hacc (ix2 b h) = ∑ w : Fin 160, src (ix3 b h w) :=
  (Ideal.multiReduction_add_single src 0x00000000#32 hr hφ hacc (ix2 b h)).trans
    (Finset.sum_congr rfl fun w _ => congrArg src (lift_cols hr b h w))

/-- The sum over a strip's rows. -/
theorem sum_rows (src : FVec Ideal S8x16 .f32) (hr : S8x16.Reduces [1] S8) (hφ : FKind.Formats .f32)
    (hacc : (0x00000000#32 : BitVec 32) = 0x00000000#32) (b : Fin 8) :
    multiReduction (F := Ideal) .add [1] S8 src 0x00000000#32 hr hφ hacc (ix1 b) = ∑ h : Fin 16, src (ix2 b h) :=
  (Ideal.multiReduction_add_single src 0x00000000#32 hr hφ hacc (ix1 b)).trans
    (Finset.sum_congr rfl fun h _ => congrArg src (lift_rows hr b h))

/-! ## The one-hot weight -/

/-- The compare of the bin number with a word broadcast over the bins, widened and converted, is the one-hot weight. -/
theorem oh_apply (l : IVec S8x16x160 32) (hi : S8x8x16x160.Iotas .tc 32 [1]) (hc : S8x16x160.ShapeCasts S8x1x16x160)
    (hb : S8x1x16x160.Broadcasts S8x8x16x160) (hlt : 1 < 32) (b : Fin 8) (k : Fin 8) (h : Fin 16) (w : Fin 160) :
    (sitofp (F := Ideal) .f32 (extui 32 (cmpi .eq (iota .tc S8x8x16x160 32 [1] hi)
      (broadcastTo S8x8x16x160 (shapeCast S8x1x16x160 l hc) hb)) hlt) : FVec Ideal S8x8x16x160 .f32) (ix4 b k h w)
      = Scalar.oh k (l (ix3 b h w)) := by
  show (((BitVec.setWidth 32 (IntOp.cmpi .eq (iota .tc S8x8x16x160 32 [1] hi (ix4 b k h w))
    (broadcastTo S8x8x16x160 (shapeCast S8x1x16x160 l hc) hb (ix4 b k h w)))).toInt : ℝ) : EReal) = _
  rw [iota_single_apply, bcast_apply, cast_apply]
  rfl

/-! ## Pointwise `exp` and `log` -/

/-- The exponential of a value, read at an index, is the exponential of the element. -/
theorem exp_apply {s : Shape} (x : FVec Ideal s .f32) (i : s.Idx) : exp x i = Ideal.exp (x i) := rfl
/-- The logarithm likewise. -/
theorem log_apply {s : Shape} (x : FVec Ideal s .f32) (i : s.Idx) : log x i = Ideal.log (x i) := rfl

/-! ## A pixel's negated one-hot sum -/

/-- Zero less the sum over the bins of the log-probabilities against a one-hot weight: minus the weighted sum. -/
theorem neg_dot_apply (lp : FVec Ideal S8x8x16x160 .f32) (l : IVec S8x16x160 32) (hi : S8x8x16x160.Iotas .tc 32 [1])
    (hc : S8x16x160.ShapeCasts S8x1x16x160) (hb : S8x1x16x160.Broadcasts S8x8x16x160) (hlt : 1 < 32)
    (hr : S8x8x16x160.Reduces [1] S8x16x160) (hφ : FKind.Formats .f32) (hacc : (0x00000000#32 : BitVec 32) = 0x00000000#32)
    (b : Fin 8) (h : Fin 16) (w : Fin 160) :
    (subf (broadcast S8x16x160 (Scalar.ofBits (F := Ideal) .f32 0x00000000#32))
      (multiReduction (F := Ideal) .add [1] S8x16x160 (mulf lp (sitofp .f32 (extui 32 (cmpi .eq (iota .tc S8x8x16x160 32 [1] hi)
        (broadcastTo S8x8x16x160 (shapeCast S8x1x16x160 l hc) hb)) hlt))) 0x00000000#32 hr hφ hacc)) (ix3 b h w)
      = -(∑ k : Fin 8, lp (ix4 b k h w) * Scalar.oh k (l (ix3 b h w))) := by
  rw [subf_apply, broadcast_apply, sum_bins]
  refine (Scalar.cZero_sub _).trans (congrArg Neg.neg (Finset.sum_congr rfl fun k _ => ?_))
  rw [mulf_apply, oh_apply]

/-- The log-probabilities at an index: the pixel's eight logits through `Spec.logp`. -/
theorem lpOf_apply (v : FVec Ideal S8x8x16x160 .f32) (b : Fin 8) (k : Fin 8) (h : Fin 16) (w : Fin 160) :
    lpOf v (ix4 b k h w) = Spec.logp (fun k' => v (ix4 b k' h w)) k := by
  -- the shifted logit at any bin of this pixel: the logit less the pixel's maximum over the bins
  have hsh : ∀ k' : Fin 8, (subf v (broadcastTo S8x8x16x160 (shapeCast S8x1x16x160
      (multiReduction (F := Ideal) .maximumf [1] S8x16x160 v 0xFF800000#32 reduces_S8x8x16x160_S8x16x160 (.inl rfl) rfl)
      shapeCasts_S8x16x160_S8x1x16x160) broadcasts_S8x1x16x160_S8x8x16x160)) (ix4 b k' h w)
      = v (ix4 b k' h w) - Spec.rowMax (fun k'' => v (ix4 b k'' h w)) := fun k' =>
    congrArg (v (ix4 b k' h w) - ·)
      ((bcast_apply _ _ b k' h w).trans ((cast_apply _ _ b 0 h w).trans (max_bins v _ _ _ b h w)))
  unfold lpOf
  dsimp only
  unfold Spec.logp
  -- the outer difference; its second term is the log, at the pixel, of the sum over the bins of the shifted exponentials
  rw [subf_apply, hsh k, bcast_apply, log_apply, cast_apply, sum_bins]
  simp only [exp_apply, hsh]

/-- The clip at an index. -/
theorem clipOf_apply (v : FVec Ideal S8x16x160 .f32) (i : S8x16x160.Idx) : clipOf v i = Spec.clipT (v i) := by
  rfl

/-- One coordinate's contribution for image `b`: the double sum over the strip's rows and columns. -/
theorem segOf_apply (v7 : FVec Ideal S8x16x160 .f32) (lp : FVec Ideal S8x8x16x160 .f32) (tc : FVec Ideal S8x16x160 .f32)
    (l u : IVec S8x16x160 32) (fl : FVec Ideal S8x16x160 .f32) (b : Fin 8) :
    segOf v7 lp tc l u fl (ix1 b) = ∑ h : Fin 16, ∑ w : Fin 160,
      ((Spec.cOne - (tc (ix3 b h w) - fl (ix3 b h w))) * (-(∑ k : Fin 8, lp (ix4 b k h w) * Scalar.oh k (l (ix3 b h w))))
        + (tc (ix3 b h w) - fl (ix3 b h w)) * (-(∑ k : Fin 8, lp (ix4 b k h w) * Scalar.oh k (u (ix3 b h w))))) * v7 (ix3 b h w) := by
  unfold segOf
  dsimp only
  -- the sum over the strip's rows, then over a row's columns
  refine (sum_rows _ _ _ _ b).trans (Finset.sum_congr rfl fun h _ => ?_)
  refine (sum_cols _ _ _ _ b h).trans (Finset.sum_congr rfl fun w _ => ?_)
  -- the pixel's term: the two weights against the two negated one-hot sums, times the mask value
  rw [mulf_apply, addf_apply, mulf_apply, mulf_apply, neg_dot_apply, neg_dot_apply]
  rfl

end Cert.Proof.Seg

end
-- ==== Proof.Body.lean ====
/-
  One grid point's contribution, read index by index on the extended reals: for image `b` of the point's eight, column
  0 of `stacked` is the sum over the four coordinates, the strip's sixteen rows and the 160 columns of the pixel's loss
  times its mask value, and column 1 is the sum of the mask values.
-/
import proofs.«150996_j10127532883990_1_alg».proof.Proof.Stacked
import proofs.«150996_j10127532883990_1_alg».proof.Proof.Seg

noncomputable section

open scoped BigOperators

namespace Cert.Proof.Body

open Idealize.ShloMosaic Idealize.ShloMosaic.ValueIdx Cert.KernelIdeal Cert.KernelIdeal.Gen Cert.Proof

/-! ## One coordinate's stretch of the body, as one function

For a coordinate the body takes the eight channels `z` of the logits block, the coordinate's plane `t` of the targets
block and the mask `m`: the log-probabilities of `z`, the clipped targets, the lower bin word (the integer part of the
clipped target), the upper bin word (one more, capped at 7), the lower bin as a float, and from these the
coordinate's contribution to the eight images' totals. -/

section Generic
variable {F : FTy → Type} [FloatOps F]

/-- The lower bin word: the integer part of the clipped target. -/
def loOf (tc : FVec F S8x16x160 .f32) : IVec S8x16x160 32 := fptosi 32 (floor tc)

/-- The upper bin word: one more, capped at 7. -/
def hiOf (l : IVec S8x16x160 32) : IVec S8x16x160 32 :=
  minsi (addi l (broadcast S8x16x160 1#32)) (broadcast S8x16x160 7#32)

/-- One coordinate's contribution to the eight images' totals. -/
def coordOf (m : FVec F S8x16x160 .f32) (z : FVec F S8x8x16x160 .f32) (t : FVec F S8x16x160 .f32) : FVec F S8 .f32 :=
  Seg.segOf m (Seg.lpOf z) (Seg.clipOf t) (loOf (Seg.clipOf t)) (hiOf (loOf (Seg.clipOf t)))
    (sitofp .f32 (loOf (Seg.clipOf t)))

/-- Channels `8 c .. 8 c + 7` of the logits block, for `c = 0, 1, 2, 3`. -/
def zs0 (x0 : Vec F S8x32x16x160 .f32) : FVec F S8x8x16x160 .f32 :=
  extractStridedSlice S8x8x16x160 ![0, 0, 0, 0] x0 slices_S8x32x16x160_o0_0_0_0_S8x8x16x160
def zs1 (x0 : Vec F S8x32x16x160 .f32) : FVec F S8x8x16x160 .f32 :=
  extractStridedSlice S8x8x16x160 ![0, 8, 0, 0] x0 slices_S8x32x16x160_o0_8_0_0_S8x8x16x160
def zs2 (x0 : Vec F S8x32x16x160 .f32) : FVec F S8x8x16x160 .f32 :=
  extractStridedSlice S8x8x16x160 ![0, 16, 0, 0] x0 slices_S8x32x16x160_o0_16_0_0_S8x8x16x160
def zs3 (x0 : Vec F S8x32x16x160 .f32) : FVec F S8x8x16x160 .f32 :=
  extractStridedSlice S8x8x16x160 ![0, 24, 0, 0] x0 slices_S8x32x16x160_o0_24_0_0_S8x8x16x160

/-- Plane `c` of the targets block, for `c = 0, 1, 2, 3`. -/
def ts0 (x1 : Vec F S8x4x16x160 .f32) : FVec F S8x16x160 .f32 :=
  shapeCast S8x16x160 (extractStridedSlice S8x1x16x160 ![0, 0, 0, 0] (k0_pay3 x1) slices_S8x4x16x160_o0_0_0_0_S8x1x16x160)
    shapeCasts_S8x1x16x160_S8x16x160
def ts1 (x1 : Vec F S8x4x16x160 .f32) : FVec F S8x16x160 .f32 :=
  shapeCast S8x16x160 (extractStridedSlice S8x1x16x160 ![0, 1, 0, 0] (k0_pay3 x1) slices_S8x4x16x160_o0_1_0_0_S8x1x16x160)
    shapeCasts_S8x1x16x160_S8x16x160
def ts2 (x1 : Vec F S8x4x16x160 .f32) : FVec F S8x16x160 .f32 :=
  shapeCast S8x16x160 (extractStridedSlice S8x1x16x160 ![0, 2, 0, 0] (k0_pay3 x1) slices_S8x4x16x160_o0_2_0_0_S8x1x16x160)
    shapeCasts_S8x1x16x160_S8x16x160
def ts3 (x1 : Vec F S8x4x16x160 .f32) : FVec F S8x16x160 .f32 :=
  shapeCast S8x16x160 (extractStridedSlice S8x1x16x160 ![0, 3, 0, 0] (k0_pay3 x1) slices_S8x4x16x160_o0_3_0_0_S8x1x16x160)
    shapeCasts_S8x1x16x160_S8x16x160

/-- The running total after coordinate 0 is the zero splat plus coordinate 0's contribution … -/
theorem tot0_eq (x0 : Vec F S8x32x16x160 .f32) (x1 : Vec F S8x4x16x160 .f32) (x2 : Vec F S8x16x160 .f32) :
    tot0 x0 x1 x2 = addf (k0_pay6 (F := F)) (coordOf (k0_pay4 x2) (zs0 x0) (ts0 x1)) := rfl

/-- … after coordinate 1 the previous total plus coordinate 1's … -/
theorem tot1_eq (x0 : Vec F S8x32x16x160 .f32) (x1 : Vec F S8x4x16x160 .f32) (x2 : Vec F S8x16x160 .f32) :
    tot1 x0 x1 x2 = addf (tot0 x0 x1 x2) (coordOf (k0_pay4 x2) (zs1 x0) (ts1 x1)) := rfl

/-- … after coordinate 2 likewise. -/
theorem tot2_eq (x0 : Vec F S8x32x16x160 .f32) (x1 : Vec F S8x4x16x160 .f32) (x2 : Vec F S8x16x160 .f32) :
    tot2 x0 x1 x2 = addf (tot1 x0 x1 x2) (coordOf (k0_pay4 x2) (zs2 x0) (ts2 x1)) := rfl

/-- The two columns laid side by side: the total after coordinate 3, and the mask count. -/
theorem stacked_eq (x0 : Vec F S8x32x16x160 .f32) (x1 : Vec F S8x4x16x160 .f32) (x2 : Vec F S8x16x160 .f32) :
    stacked x0 x1 x2 = concatenate S8x2 1
      [⟨S8x1, shapeCast S8x1 (addf (tot2 x0 x1 x2) (coordOf (k0_pay4 x2) (zs3 x0) (ts3 x1))) shapeCasts_S8_S8x1⟩,
       ⟨S8x1, shapeCast S8x1 (k0_pay5 x2) shapeCasts_S8_S8x1⟩] concatenates_S8x1_S8x1_S8x2_d1 := rfl

end Generic

/-! ## The pieces read at an index, on the extended reals -/

section AtIdeal

/-- The mask block and the targets block pass through a shape cast to their own shape. -/
theorem pay4_eq (x2 : Vec Ideal S8x16x160 .f32) : k0_pay4 x2 = x2 := shapeCast_self _ _
theorem pay3_eq (x1 : Vec Ideal S8x4x16x160 .f32) : k0_pay3 x1 = x1 := shapeCast_self _ _

/-- A slice of eight channels starting at channel `8 c`, read at an index. -/
theorem zslice_apply (x0 : Vec Ideal S8x32x16x160 .f32) (off : Fin 4 → Nat) (hs : S8x32x16x160.Slices off S8x8x16x160)
    (c : Fin 4) (h0 : off 0 = 0) (h1 : off 1 = 8 * c.val) (h2 : off 2 = 0) (h3 : off 3 = 0)
    (b k : Fin 8) (h : Fin 16) (w : Fin 160) :
    extractStridedSlice S8x8x16x160 off x0 hs (ix4 b k h w) = x0 (ix4 b (Spec.chan c k) h w) := by
  refine extractStridedSlice_apply off x0 hs _ _ fun a => ?_
  match a with
  | ⟨0, _⟩ => show b.val = off 0 + b.val; omega
  | ⟨1, _⟩ => show 8 * c.val + k.val = off 1 + k.val; omega
  | ⟨2, _⟩ => show h.val = off 2 + h.val; omega
  | ⟨3, _⟩ => show w.val = off 3 + w.val; omega

/-- Plane `c` of the targets block, read at an index. -/
theorem tslice_apply (x1 : Vec Ideal S8x4x16x160 .f32) (off : Fin 4 → Nat) (hs : S8x4x16x160.Slices off S8x1x16x160)
    (c : Fin 4) (h0 : off 0 = 0) (h1 : off 1 = c.val) (h2 : off 2 = 0) (h3 : off 3 = 0)
    (b : Fin 8) (h : Fin 16) (w : Fin 160) :
    shapeCast S8x16x160 (extractStridedSlice S8x1x16x160 off (k0_pay3 x1) hs) shapeCasts_S8x1x16x160_S8x16x160 (ix3 b h w)
      = x1 (ix4 b c h w) := by
  refine (shapeCast_apply _ _ (ix3 b h w) (ix4 b 0 h w) ?_).trans ?_
  · rw [Shape.rowMajor_val_four, Shape.rowMajor_val_three]
    show ((b.val * 1 + 0) * 16 + h.val) * 160 + w.val = (b.val * 16 + h.val) * 160 + w.val
    omega
  · rw [pay3_eq]
    refine extractStridedSlice_apply off x1 hs _ _ fun a => ?_
    match a with
    | ⟨0, _⟩ => show b.val = off 0 + b.val; omega
    | ⟨1, _⟩ => show c.val = off 1 + 0; omega
    | ⟨2, _⟩ => show h.val = off 2 + h.val; omega
    | ⟨3, _⟩ => show w.val = off 3 + w.val; omega

/-- One coordinate's contribution for image `b`: over the strip's rows and columns, the pixel's loss (its two
    neighbouring bins picked out of the eight by the one-hot weights) times the mask value. -/
theorem coordOf_apply (m : FVec Ideal S8x16x160 .f32) (z : FVec Ideal S8x8x16x160 .f32) (t : FVec Ideal S8x16x160 .f32)
    (b : Fin 8) :
    coordOf m z t (ix1 b) = ∑ h : Fin 16, ∑ w : Fin 160,
      Spec.per (fun k => z (ix4 b k h w)) (t (ix3 b h w)) * m (ix3 b h w) := by
  unfold coordOf
  refine (Seg.segOf_apply _ _ _ _ _ _ b).trans ?_
  refine Finset.sum_congr rfl fun h _ => Finset.sum_congr rfl fun w _ => ?_
  have hl : loOf (Seg.clipOf t) (ix3 b h w) = Spec.lo (t (ix3 b h w)) := by
    show Ideal.fptosi 32 (Ideal.liftRound Int.floor (Seg.clipOf t (ix3 b h w))) = _
    rw [Seg.clipOf_apply]; rfl
  have hu : hiOf (loOf (Seg.clipOf t)) (ix3 b h w) = Spec.hi (t (ix3 b h w)) := by
    show IntOp.minsi (IntOp.addi (loOf (Seg.clipOf t) (ix3 b h w)) 1#32) 7#32 = _
    rw [hl]; rfl
  have hf : (sitofp .f32 (loOf (Seg.clipOf t)) : FVec Ideal S8x16x160 .f32) (ix3 b h w)
      = (((Spec.lo (t (ix3 b h w))).toInt : ℝ) : EReal) := by
    show (((loOf (Seg.clipOf t) (ix3 b h w)).toInt : ℝ) : EReal) = _
    rw [hl]
  rw [hl, hu, hf, Seg.clipOf_apply]
  simp only [Seg.lpOf_apply]
  rw [Scalar.sum_oh _ _ (by have := Scalar.lo_le (t (ix3 b h w)); omega),
    Scalar.sum_oh _ _ (by have := Scalar.hi_le (t (ix3 b h w)); omega)]
  rfl

end AtIdeal

section Assemble

theorem zs0_apply (x0 : Vec Ideal S8x32x16x160 .f32) (b k : Fin 8) (h : Fin 16) (w : Fin 160) :
    zs0 x0 (ix4 b k h w) = x0 (ix4 b (Spec.chan 0 k) h w) := by
  unfold zs0
  exact zslice_apply x0 ![0, 0, 0, 0] slices_S8x32x16x160_o0_0_0_0_S8x8x16x160 0 rfl rfl rfl rfl b k h w
theorem zs1_apply (x0 : Vec Ideal S8x32x16x160 .f32) (b k : Fin 8) (h : Fin 16) (w : Fin 160) :
    zs1 x0 (ix4 b k h w) = x0 (ix4 b (Spec.chan 1 k) h w) := by
  unfold zs1
  exact zslice_apply x0 ![0, 8, 0, 0] slices_S8x32x16x160_o0_8_0_0_S8x8x16x160 1 rfl rfl rfl rfl b k h w
theorem zs2_apply (x0 : Vec Ideal S8x32x16x160 .f32) (b k : Fin 8) (h : Fin 16) (w : Fin 160) :
    zs2 x0 (ix4 b k h w) = x0 (ix4 b (Spec.chan 2 k) h w) := by
  unfold zs2
  exact zslice_apply x0 ![0, 16, 0, 0] slices_S8x32x16x160_o0_16_0_0_S8x8x16x160 2 rfl rfl rfl rfl b k h w
theorem zs3_apply (x0 : Vec Ideal S8x32x16x160 .f32) (b k : Fin 8) (h : Fin 16) (w : Fin 160) :
    zs3 x0 (ix4 b k h w) = x0 (ix4 b (Spec.chan 3 k) h w) := by
  unfold zs3
  exact zslice_apply x0 ![0, 24, 0, 0] slices_S8x32x16x160_o0_24_0_0_S8x8x16x160 3 rfl rfl rfl rfl b k h w

theorem ts0_apply (x1 : Vec Ideal S8x4x16x160 .f32) (b : Fin 8) (h : Fin 16) (w : Fin 160) :
    ts0 x1 (ix3 b h w) = x1 (ix4 b 0 h w) := by
  unfold ts0
  exact tslice_apply x1 ![0, 0, 0, 0] slices_S8x4x16x160_o0_0_0_0_S8x1x16x160 0 rfl rfl rfl rfl b h w
theorem ts1_apply (x1 : Vec Ideal S8x4x16x160 .f32) (b : Fin 8) (h : Fin 16) (w : Fin 160) :
    ts1 x1 (ix3 b h w) = x1 (ix4 b 1 h w) := by
  unfold ts1
  exact tslice_apply x1 ![0, 1, 0, 0] slices_S8x4x16x160_o0_1_0_0_S8x1x16x160 1 rfl rfl rfl rfl b h w
theorem ts2_apply (x1 : Vec Ideal S8x4x16x160 .f32) (b : Fin 8) (h : Fin 16) (w : Fin 160) :
    ts2 x1 (ix3 b h w) = x1 (ix4 b 2 h w) := by
  unfold ts2
  exact tslice_apply x1 ![0, 2, 0, 0] slices_S8x4x16x160_o0_2_0_0_S8x1x16x160 2 rfl rfl rfl rfl b h w
theorem ts3_apply (x1 : Vec Ideal S8x4x16x160 .f32) (b : Fin 8) (h : Fin 16) (w : Fin 160) :
    ts3 x1 (ix3 b h w) = x1 (ix4 b 3 h w) := by
  unfold ts3
  exact tslice_apply x1 ![0, 3, 0, 0] slices_S8x4x16x160_o0_3_0_0_S8x1x16x160 3 rfl rfl rfl rfl b h w

/-- The zero splat the running total starts from. -/
theorem pay6_apply (b : Fin 8) : (k0_pay6 (F := Ideal)) (ix1 b) = 0 := by
  show Ideal.ofBits .f32 0x00000000#32 = 0
  exact Ideal.ofBits_zero_f32

/-- Column 0 of two per-image vectors laid side by side is the first … -/
theorem cols_left (u v : FVec Ideal S8 .f32) (b : Fin 8) :
    concatenate S8x2 1 [⟨S8x1, shapeCast S8x1 u shapeCasts_S8_S8x1⟩, ⟨S8x1, shapeCast S8x1 v shapeCasts_S8_S8x1⟩]
      concatenates_S8x1_S8x1_S8x2_d1 (ix2 b 0) = u (ix1 b) := by
  refine (concatenate_pair_apply_left (1 : Fin S8x2.rank) _ _ concatenates_S8x1_S8x1_S8x2_d1 (ix2 b 0) rfl (ix2 b 0)
    (fun a => match a with | ⟨0, _⟩ => rfl | ⟨1, _⟩ => rfl)).trans ?_
  refine shapeCast_apply u shapeCasts_S8_S8x1 (ix2 b 0) (ix1 b) ?_
  rw [Shape.rowMajor_val_one, Shape.rowMajor_val_two]
  show b.val = b.val * 1 + 0
  omega

/-- … and column 1 the second. -/
theorem cols_right (u v : FVec Ideal S8 .f32) (b : Fin 8) :
    concatenate S8x2 1 [⟨S8x1, shapeCast S8x1 u shapeCasts_S8_S8x1⟩, ⟨S8x1, shapeCast S8x1 v shapeCasts_S8_S8x1⟩]
      concatenates_S8x1_S8x1_S8x2_d1 (ix2 b 1) = v (ix1 b) := by
  refine (concatenate_pair_apply_right (1 : Fin S8x2.rank) _ _ concatenates_S8x1_S8x1_S8x2_d1 (ix2 b 1) rfl rfl (ix2 b 0)
    (fun a => match a with | ⟨0, _⟩ => fun _ => rfl | ⟨1, _⟩ => fun hne => absurd rfl hne) rfl).trans ?_
  refine shapeCast_apply v shapeCasts_S8_S8x1 (ix2 b 0) (ix1 b) ?_
  rw [Shape.rowMajor_val_one, Shape.rowMajor_val_two]
  show b.val = b.val * 1 + 0
  omega

/-- The mask count of image `b`: the sum over the strip's rows and columns. -/
theorem pay5_apply (x2 : Vec Ideal S8x16x160 .f32) (b : Fin 8) :
    k0_pay5 x2 (ix1 b) = ∑ h : Fin 16, ∑ w : Fin 160, x2 (ix3 b h w) := by
  unfold k0_pay5
  refine (Ideal.multiReduction_add_single _ _ reduces_S8x16_S8 _ _ (ix1 b)).trans ?_
  refine Finset.sum_congr rfl fun h _ => ?_
  refine (Ideal.multiReduction_add_single _ _ reduces_S8x16x160_S8x16 _ _ _).trans ?_
  refine Finset.sum_congr rfl fun w _ => ?_
  rw [pay4_eq]
  refine congrArg x2 (funext fun a => ?_)
  match a with
  | ⟨0, _⟩ => rfl
  | ⟨1, _⟩ => rfl
  | ⟨2, _⟩ => rfl

end Assemble

/-- Column 0: the total over coordinates, rows and columns. -/
theorem stacked_tot (x0 : Vec Ideal S8x32x16x160 .f32) (x1 : Vec Ideal S8x4x16x160 .f32) (x2 : Vec Ideal S8x16x160 .f32) (b : Fin 8) :
    stacked x0 x1 x2 (ix2 b 0) = ∑ c : Fin 4, ∑ h : Fin 16, ∑ w : Fin 160,
      Spec.per (fun k => x0 (ix4 b (Spec.chan c k) h w)) (x1 (ix4 b c h w)) * x2 (ix3 b h w) := by
  rw [stacked_eq, cols_left, addf_apply, tot2_eq, addf_apply, tot1_eq, addf_apply, tot0_eq, addf_apply, pay6_apply, zero_add,
    coordOf_apply, coordOf_apply, coordOf_apply, coordOf_apply, Fin.sum_univ_four, pay4_eq]
  simp only [zs0_apply, zs1_apply, zs2_apply, zs3_apply, ts0_apply, ts1_apply, ts2_apply, ts3_apply]

/-- Column 1: the mask count. -/
theorem stacked_cnt (x0 : Vec Ideal S8x32x16x160 .f32) (x1 : Vec Ideal S8x4x16x160 .f32) (x2 : Vec Ideal S8x16x160 .f32) (b : Fin 8) :
    stacked x0 x1 x2 (ix2 b 1) = ∑ h : Fin 16, ∑ w : Fin 160, x2 (ix3 b h w) := by
  rw [stacked_eq, cols_right, pay5_apply]

end Cert.Proof.Body

end
-- ==== Proof.Blocks.lean ====
/-
  What each input block holds at a grid point, element by element, in terms of the three argument arrays.

  The grid has 4 x 10 points; point `t` has coordinates `g = t / 10` (a group of eight images) and `j = t % 10`
  (a strip of sixteen rows). The logits' block is the `[8, 32, 16, 160]` box of the logits at images `8 g ..` and
  rows `16 j ..`. The targets reach the kernel transposed (`[32, 25600, 4] -> [32, 4, 25600]`) and with the pixel
  axis split into rows and columns (`[32, 4, 160, 160]`); the mask reaches it converted to floats and split the same
  way (`[32, 160, 160]`). Read at an index, the transposition swaps two coordinates and the split sends pixel
  `160 y + x` to `(y, x)`.
-/
import proofs.«150996_j10127532883990_1_alg».proof.Proof.Gen.KernelIdeal.Frame
import proofs.«150996_j10127532883990_1_alg».proof.Proof.Spec
import Idealize.ShloMosaic.Lib.ValueIdx
import Idealize.ShloMosaic.Lib.Pipeline.Value
import Idealize.ShloMosaic.Lib.StableHlo.Run

noncomputable section

namespace Cert.Proof.Blocks

open Idealize.ShloMosaic Idealize.ShloMosaic.ValueIdx Cert.KernelIdeal Cert.KernelIdeal.Gen

variable (m : (ℓ : Loc nD τ sig) → Buf (Elt Ideal) ℓ)

/-- The logits as launched. -/
abbrev A0 (c : Dev nD) : Spec.SReg.Idx → EReal := m ((c.tc : Thread nD τ).loc main_arg0)
/-- The targets as launched. -/
abbrev A1 (c : Dev nD) : Spec.STgt.Idx → EReal := m ((c.tc : Thread nD τ).loc main_arg1)
/-- The mask as floats: each truth value converted to 0 or 1. -/
abbrev MK (c : Dev nD) : Spec.SMsk.Idx → EReal := uitofp (F := Ideal) .f32 (m ((c.tc : Thread nD τ).loc main_arg2))

/-- The image group of a grid point … -/
def gOf (t : Fin cfg0.N) : Fin 4 := ⟨t.val / 10, by have h : t.val < 40 := lt_of_lt_of_eq t.isLt (show cfg0.N = 40 from N_0); omega⟩
/-- … and its strip of rows. -/
def jOf (t : Fin cfg0.N) : Fin 10 := ⟨t.val % 10, Nat.mod_lt _ (by decide)⟩

/-- The three blocks under their literal types. -/
abbrev blk0 (c : Dev nD) (t : Fin cfg0.N) : Vec Ideal S8x32x16x160 .f32 := iblk m c 0 t
abbrev blk1 (c : Dev nD) (t : Fin cfg0.N) : Vec Ideal S8x4x16x160 .f32 := iblk m c 1 t
abbrev blk2 (c : Dev nD) (t : Fin cfg0.N) : Vec Ideal S8x16x160 .f32 := iblk m c 2 t

/-- The printed index maps, decided once over the grid: on the image axis a block's index is the point's group, on
    the row axis its strip, on the other axes zero. -/
theorem idx_facts : ∀ t : Fin cfg0.N,
    win0_0.index t (0 : Fin 4) = t.val / 10 ∧ win0_0.index t (1 : Fin 4) = 0
    ∧ win0_0.index t (2 : Fin 4) = t.val % 10 ∧ win0_0.index t (3 : Fin 4) = 0
    ∧ win0_1.index t (0 : Fin 4) = t.val / 10 ∧ win0_1.index t (1 : Fin 4) = 0
    ∧ win0_1.index t (2 : Fin 4) = t.val % 10 ∧ win0_1.index t (3 : Fin 4) = 0
    ∧ win0_2.index t (0 : Fin 3) = t.val / 10 ∧ win0_2.index t (1 : Fin 3) = t.val % 10
    ∧ win0_2.index t (2 : Fin 3) = 0 :=
  (by decide +kernel : ∀ t : Fin grid0.N, _)

theorem blk0_apply (c : Dev nD) (t : Fin cfg0.N) (b : Fin 8) (k : Fin 32) (h : Fin 16) (w : Fin 160) :
    blk0 m c t (ix4 b k h w) = A0 m c (ix4 (Spec.img8 (gOf t) b) k (Spec.row16 (jOf t) h) w) := by
  show V m c main_arg0 (((cfg0.win 0).blk t).view.emb (ix4 b k h w)) = _
  rw [V_main_arg0]
  obtain ⟨e0, e1, e2, e3, -⟩ := idx_facts t
  refine congrArg _ (funext fun a => Fin.ext ?_)
  match a with
  | ⟨0, _⟩ => show win0_0.index t (0 : Fin 4) * 8 + 1 * b.val = 8 * (t.val / 10) + b.val; omega
  | ⟨1, _⟩ => show win0_0.index t (1 : Fin 4) * 32 + 1 * k.val = k.val; omega
  | ⟨2, _⟩ => show win0_0.index t (2 : Fin 4) * 16 + 1 * h.val = 16 * (t.val % 10) + h.val; omega
  | ⟨3, _⟩ => show win0_0.index t (3 : Fin 4) * 160 + 1 * w.val = w.val; omega

/-- The array the second window stages: the targets with their last two axes swapped, then the pixel axis split into
    rows and columns. -/
theorem V_main_v1 (c : Dev nD) :
    (V m c main_v1 : S32x4x160x160.Idx → EReal)
      = shapeCast S32x4x160x160
          (transpose S32x4x25600 [0, 2, 1] (m ((c.tc : Thread nD τ).loc main_arg1)) transposes_S32x25600x4_S32x4x25600_0_2_1)
          shapeCasts_S32x4x25600_S32x4x160x160 := by
  dsimp only [Gen.V, Gen.V0]
  simp only [Gen.hostOps0, List.flatten_cons, List.flatten_nil, List.append_nil, List.cons_append, List.nil_append]
  after_results
  rfl

/-- That array read at `(i, cc, y, x)`: the split sends pixel `160 y + x` to `(y, x)` (the two positions in row-major
    order agree), and the swap exchanges the pixel and the coordinate. -/
theorem V_main_v1_apply (c : Dev nD) (i : Fin 32) (cc : Fin 4) (y x : Fin 160) :
    (V m c main_v1 : S32x4x160x160.Idx → EReal) (ix4 i cc y x) = A1 m c (ix3 i (Spec.pix y x) cc) := by
  rw [V_main_v1]
  refine (shapeCast_apply _ shapeCasts_S32x4x25600_S32x4x160x160 (ix4 i cc y x) (ix3 i cc (Spec.pix y x)) ?_).trans ?_
  · rw [Shape.rowMajor_val_three, Shape.rowMajor_val_four]
    show (i.val * 4 + cc.val) * 25600 + (160 * y.val + x.val) = ((i.val * 4 + cc.val) * 160 + y.val) * 160 + x.val
    omega
  · exact transpose_apply [0, 2, 1] _ transposes_S32x25600x4_S32x4x25600_0_2_1 (ix3 i cc (Spec.pix y x)) (ix3 i (Spec.pix y x) cc)
      (fun b => match b with
        | ⟨0, _⟩ => rfl
        | ⟨1, _⟩ => rfl
        | ⟨2, _⟩ => rfl)

theorem blk1_apply (c : Dev nD) (t : Fin cfg0.N) (b : Fin 8) (cc : Fin 4) (h : Fin 16) (w : Fin 160) :
    blk1 m c t (ix4 b cc h w) = A1 m c (ix3 (Spec.img8 (gOf t) b) (Spec.pix (Spec.row16 (jOf t) h) w) cc) := by
  rw [← V_main_v1_apply m c (Spec.img8 (gOf t) b) cc (Spec.row16 (jOf t) h) w]
  show V m c main_v1 (((cfg0.win 1).blk t).view.emb (ix4 b cc h w)) = _
  obtain ⟨-, -, -, -, e0, e1, e2, e3, -⟩ := idx_facts t
  refine congrArg _ (funext fun a => Fin.ext ?_)
  match a with
  | ⟨0, _⟩ => show win0_1.index t (0 : Fin 4) * 8 + 1 * b.val = 8 * (t.val / 10) + b.val; omega
  | ⟨1, _⟩ => show win0_1.index t (1 : Fin 4) * 4 + 1 * cc.val = cc.val; omega
  | ⟨2, _⟩ => show win0_1.index t (2 : Fin 4) * 16 + 1 * h.val = 16 * (t.val % 10) + h.val; omega
  | ⟨3, _⟩ => show win0_1.index t (3 : Fin 4) * 160 + 1 * w.val = w.val; omega

/-- The array the third window stages: the mask as floats, the pixel axis split into rows and columns. -/
theorem V_main_v3 (c : Dev nD) :
    (V m c main_v3 : S32x160x160.Idx → EReal)
      = shapeCast S32x160x160 (uitofp (F := Ideal) .f32 (m ((c.tc : Thread nD τ).loc main_arg2))) shapeCasts_S32x25600_S32x160x160 := by
  dsimp only [Gen.V, Gen.V0]
  simp only [Gen.hostOps0, List.flatten_cons, List.flatten_nil, List.append_nil, List.cons_append, List.nil_append]
  after_results
  rfl

/-- That array read at `(i, y, x)`: the mask's float at pixel `160 y + x`. -/
theorem V_main_v3_apply (c : Dev nD) (i : Fin 32) (y x : Fin 160) :
    (V m c main_v3 : S32x160x160.Idx → EReal) (ix3 i y x) = MK m c (ix2 i (Spec.pix y x)) := by
  rw [V_main_v3]
  refine shapeCast_apply _ shapeCasts_S32x25600_S32x160x160 (ix3 i y x) (ix2 i (Spec.pix y x)) ?_
  rw [Shape.rowMajor_val_two, Shape.rowMajor_val_three]
  show i.val * 25600 + (160 * y.val + x.val) = (i.val * 160 + y.val) * 160 + x.val
  omega

theorem blk2_apply (c : Dev nD) (t : Fin cfg0.N) (b : Fin 8) (h : Fin 16) (w : Fin 160) :
    blk2 m c t (ix3 b h w) = MK m c (ix2 (Spec.img8 (gOf t) b) (Spec.pix (Spec.row16 (jOf t) h) w)) := by
  rw [← V_main_v3_apply m c (Spec.img8 (gOf t) b) (Spec.row16 (jOf t) h) w]
  show V m c main_v3 (((cfg0.win 2).blk t).view.emb (ix3 b h w)) = _
  obtain ⟨-, -, -, -, -, -, -, -, e0, e1, e2⟩ := idx_facts t
  refine congrArg _ (funext fun a => Fin.ext ?_)
  match a with
  | ⟨0, _⟩ => show win0_2.index t (0 : Fin 3) * 8 + 1 * b.val = 8 * (t.val / 10) + b.val; omega
  | ⟨1, _⟩ => show win0_2.index t (1 : Fin 3) * 16 + 1 * h.val = 16 * (t.val % 10) + h.val; omega
  | ⟨2, _⟩ => show win0_2.index t (2 : Fin 3) * 160 + 1 * w.val = w.val; omega

end Cert.Proof.Blocks

end
-- ==== Proof.Tail.lean ====
/-
  The host operations after the kernel region, read as one closed expression.

  After the region the output array holds, per image, a pair: column 0 the image's total, column 1 its count. The host
  then takes each column (a slice and a reshape), sums it over the 32 images starting from zero, and combines the two
  sums: the total divided by four times the larger of the count and one, and zero when the count is not positive.
  That is `Spec.finish` of the two column sums.
-/
import proofs.«150996_j10127532883990_1_alg».proof.Proof.Gen.KernelIdeal.Frame
import proofs.«150996_j10127532883990_1_alg».proof.Proof.Spec
import Idealize.ShloMosaic.Lib.StableHlo.Run
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.Proof.Tail

open Idealize.ShloMosaic Idealize.ShloMosaic.ValueIdx Cert.KernelIdeal Cert.KernelIdeal.Gen

variable (m : (ℓ : Loc nD τ sig) → Buf (Elt Ideal) ℓ) (ρ : Dev nD → PrngReg)

/-! ## One column of the [32, 2] array and its sum -/

/-- Column `o` of a [32, 2] array, taken as the host takes it (the slice [0:32, o:o+1], reshaped to [32]), read at
    image `b`: the array at `(b, o)`. The reshape keeps the row-major position, which for a [32, 1] index `(b, 0)`
    is `b`; the slice shifts the second coordinate by `o`. -/
theorem col_apply (X : S32x2.Idx → EReal) (o : Nat) (ho : o < 2) (hs : S32x2.Slices ![0, o] S32x1)
    (hc : S32x1.ShapeCasts S32) (b : Fin 32) :
    shapeCast S32 (extractStridedSlice S32x1 ![0, o] X hs) hc (ix1 b) = X (ix2 b ⟨o, ho⟩) := by
  refine (shapeCast_apply _ hc (ix1 b) (ix2 b (0 : Fin 1)) ?_).trans ?_
  · rw [Shape.rowMajor_val_two, Shape.rowMajor_val_one]
    show b.val * 1 + 0 = b.val
    omega
  · refine extractStridedSlice_apply _ X hs (ix2 b (0 : Fin 1)) (ix2 b ⟨o, ho⟩) (fun a => ?_)
    match a with
    | ⟨0, _⟩ => show b.val = 0 + b.val; omega
    | ⟨1, _⟩ => show o = o + 0; omega

/-- The host's sum of a vector of 32 from the zero word is the plain sum of its entries: the initial value is `0`,
    and a sum over the rank-1 index set is the sum over its coordinate range. -/
theorem hostSum_eq (x : FVec Ideal S32 .f32) (h' : S32.ReducesTo [0] S_) (hu : 0 < S_.numel) (j : S_.Idx) :
    Host.reduceAdd x (constant (F := Ideal) S_ .f32 0x00000000#32) h' hu j = ∑ b : Fin 32, x (ix1 b) := by
  rw [hostReduceAdd_apply, Ideal.hostReduceAdd_total h' (fun a => a.elim0), constant_apply, Ideal.ofBits_zero_f32, zero_add]
  exact (Equiv.sum_comp (idxEquiv1 (n := 32)).symm x).symm

/-- The sum of column `o`, as the host computes it. -/
def colSum (X : FVec Ideal S32x2 .f32) (o : Nat) (hs : S32x2.Slices ![0, o] S32x1) : FVec Ideal S_ .f32 :=
  Host.reduceAdd (shapeCast S32 (extractStridedSlice S32x1 ![0, o] X hs) (by decide : S32x1.ShapeCasts S32))
    (constant (F := Ideal) S_ .f32 0x00000000#32) (by decide : S32.ReducesTo [0] S_) (by decide : 0 < S_.numel)

theorem colSum_eq (X : FVec Ideal S32x2 .f32) (o : Nat) (ho : o < 2) (hs : S32x2.Slices ![0, o] S32x1) (j : S_.Idx) :
    colSum X o hs j = ∑ b : Fin 32, X (ix2 b ⟨o, ho⟩) := by
  unfold colSum
  rw [hostSum_eq]
  exact Finset.sum_congr rfl fun b _ => col_apply X o ho hs _ b

/-! ## The tail as one function of the output array -/

/-- The host operations after the region, applied to the output array `X`: the two column sums, the comparison of the
    count with zero, the quotient of the total by four times the larger of the count and one, and the choice. -/
def tailFn (X : FVec Ideal S32x2 .f32) : FVec Ideal S_ .f32 :=
  select
    (cmpf .ogt (colSum X 1 (by decide)) (constant (F := Ideal) S_ .f32 0x00000000#32))
    (Host.divf (colSum X 0 (by decide))
      (mulf (maximumf (colSum X 1 (by decide)) (constant (F := Ideal) S_ .f32 0x3F800000#32))
        (constant (F := Ideal) S_ .f32 0x40800000#32)))
    (constant (F := Ideal) S_ .f32 0x00000000#32)

/-- Read at its one index, the tail is `Spec.finish` of the two column sums: each operation is pointwise, and the
    constants are the words `Spec.cZero`, `Spec.cOne`, `Spec.cFour` name. -/
theorem tailFn_apply (X : FVec Ideal S32x2 .f32) (i : S_.Idx) :
    tailFn X i = Spec.finish (∑ b : Fin 32, X (ix2 b 0)) (∑ b : Fin 32, X (ix2 b 1)) := by
  unfold tailFn Spec.finish Spec.cZero Spec.cOne Spec.cFour
  rw [select_apply, cmpf_apply, hostDivf_apply, mulf_apply, maximumf_apply, constant_apply, constant_apply, constant_apply,
    colSum_eq X 1 (by decide), colSum_eq X 0 (by decide)]
  rfl

/-! ## The result buffer -/

/-- the result buffer after the tail, from what the output array holds -/
theorem tail_value (c : Dev nD) (O : S32x2.Idx → EReal) (hO : ((dats m 0 c).arrAt 3 cfg0.N : S32x2.Idx → EReal) = O) :
    (Pipeline.afterTail₀ cfgs (dats m) 0 (V0 m) [hostOps1, hostOps1_1] c main_v15 : S_.Idx → EReal)
      = fun _ => Spec.finish (∑ b : Fin 32, O (ix2 b 0)) (∑ b : Fin 32, O (ix2 b 1)) := by
  -- after the region the output array holds `O`
  have e : (Pipeline.withArrays (cfgs 0).spec c (V0 m c) (fun w => (dats m 0 c).arrAt w (cfgs 0).N)
      (Proc.devRef .tc main_v4) : S32x2.Idx → EReal) = O :=
    (Pipeline.withArrays_arr spec0 launch0.win.arr_inj c _ _ 3).trans hO
  unfold Pipeline.afterTail₀
  simp only [Gen.hostOps1, Gen.hostOps1_1, List.flatten_cons, List.flatten_nil, List.append_nil, List.cons_append, List.nil_append]
  after_results
  funext i
  exact (congrArg (fun X => tailFn X i) e).trans (tailFn_apply O i)

/-- the kernel program's run, its result named -/
theorem run_value (O : Dev nD → S32x2.Idx → EReal) (hO : ∀ c, ((dats m 0 c).arrAt 3 cfg0.N : S32x2.Idx → EReal) = O c) :
    θ_run defs (onTc (τ := τ) (main (F := Ideal))) ⟨m, fun _ => 0, ρ⟩ (fun r => ∀ c : Dev nD,
      r.2.mem ((c.tc : Thread nD τ).loc main_v15) = (fun _ => Spec.finish (∑ b : Fin 32, O c (ix2 b 0)) (∑ b : Fin 32, O c (ix2 b 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v15 (Pipeline.mem_restRefs_of main_v15 (by decide) (by decide))).trans (tail_value m c (O c) (hO c)),
     ((h c).1 0).trans ((((dats m) 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Proof.Tail

end
-- ==== Proof.Glue.lean ====
/-
  The kernel program's value, assembled: the [32, 2] output array holds, per image, the total of the weighted pixel
  losses over the image's ten strips and the count of its mask; the host lines after the kernel add these up over the
  images and combine them by `Spec.finish`.

  A grid point `pt g j` handles image group `g` and strip `j`. Its contribution to image `b` of the group is the body's
  `stacked` value of the point's three blocks; the blocks are rectangles of the three argument arrays, so the
  contribution is `Spec.blkTot` (column 0) and `Spec.blkCnt` (column 1) of the arguments at image `8 g + b` and strip `j`.
-/
import proofs.«150996_j10127532883990_1_alg».proof.Proof.Accum
import proofs.«150996_j10127532883990_1_alg».proof.Proof.Body
import proofs.«150996_j10127532883990_1_alg».proof.Proof.Blocks
import proofs.«150996_j10127532883990_1_alg».proof.Proof.Tail

noncomputable section

open scoped BigOperators

namespace Cert.Proof.Glue

open Idealize.ShloMosaic Idealize.ShloMosaic.ValueIdx Idealize.ShloMosaic.TcCoe Idealize.SL.Sem Cert.KernelIdeal Cert.KernelIdeal.Gen Cert.Proof

variable (m : (ℓ : Loc nD τ sig) → Buf (Elt Ideal) ℓ) (ρ : Dev nD → PrngReg)

/-- The point of group `g` and strip `j` is in group `g` … -/
theorem gOf_pt (g : Fin 4) (j : Fin 10) : Blocks.gOf (Accum.pt g j) = g :=
  Fin.ext (by have := j.isLt; show (10 * g.val + j.val) / 10 = g.val; omega)
/-- … and on strip `j`. -/
theorem jOf_pt (g : Fin 4) (j : Fin 10) : Blocks.jOf (Accum.pt g j) = j :=
  Fin.ext (by have := j.isLt; show (10 * g.val + j.val) % 10 = j.val; omega)

/-- A point's contribution is the body's value of the point's three blocks. -/
theorem contrib_eq (c : Dev nD) (t : Fin cfg0.N) :
    Accum.contrib m c t = Body.stacked (Blocks.blk0 m c t) (Blocks.blk1 m c t) (Blocks.blk2 m c t) := rfl

/-- Column 0 of a point's contribution: the strip's share of the image's total. -/
theorem contrib_tot (c : Dev nD) (g : Fin 4) (j : Fin 10) (b : Fin 8) :
    Accum.contrib m c (Accum.pt g j) (ix2 b 0)
      = Spec.blkTot (Blocks.A0 m c) (Blocks.A1 m c) (Blocks.MK m c) (Spec.img8 g b) j := by
  rw [contrib_eq, Body.stacked_tot]
  unfold Spec.blkTot Spec.elt Spec.zAt
  refine Finset.sum_congr rfl fun cc _ => Finset.sum_congr rfl fun h _ => Finset.sum_congr rfl fun w _ => ?_
  rw [Blocks.blk1_apply, Blocks.blk2_apply, gOf_pt, jOf_pt]
  congr 2
  funext k
  rw [Blocks.blk0_apply, gOf_pt, jOf_pt]

/-- Column 1 of a point's contribution: the strip's share of the image's count. -/
theorem contrib_cnt (c : Dev nD) (g : Fin 4) (j : Fin 10) (b : Fin 8) :
    Accum.contrib m c (Accum.pt g j) (ix2 b 1) = Spec.blkCnt (Blocks.MK m c) (Spec.img8 g b) j := by
  rw [contrib_eq, Body.stacked_cnt]
  unfold Spec.blkCnt
  refine Finset.sum_congr rfl fun h _ => Finset.sum_congr rfl fun w _ => ?_
  rw [Blocks.blk2_apply, gOf_pt, jOf_pt]

/-- Every image is image `b` of some group `g`. -/
theorem img8_split (bb : Fin 32) : ∃ (g : Fin 4) (b : Fin 8), bb = Spec.img8 g b :=
  ⟨⟨bb.val / 8, by have := bb.isLt; omega⟩, ⟨bb.val % 8, Nat.mod_lt _ (by decide)⟩,
    Fin.ext (by show bb.val = 8 * (bb.val / 8) + bb.val % 8; omega)⟩

/-- What the output array holds after the run. -/
theorem out_eq (c : Dev nD) :
    ((dats m 0 c).arrAt 3 cfg0.N : S32x2.Idx → EReal) = Spec.outSpec (Blocks.A0 m c) (Blocks.A1 m c) (Blocks.MK m c) := by
  funext i
  obtain ⟨bb, s, rfl⟩ : ∃ (bb : Fin 32) (s : Fin 2), i = ix2 bb s := ⟨i 0, i 1, eq_ix2 i⟩
  obtain ⟨g, b, rfl⟩ := img8_split bb
  rw [Accum.out_array]
  unfold Spec.outSpec
  match s with
  | ⟨0, _⟩ => exact (Finset.sum_congr rfl fun j _ => contrib_tot m c g j b).trans (if_pos rfl).symm
  | ⟨1, _⟩ => exact (Finset.sum_congr rfl fun j _ => contrib_cnt m c g j b).trans (if_neg (show ¬((1 : ℕ) = 0) from Nat.one_ne_zero)).symm

/-- The kernel program runs, its result the specification's value in the kernel's arrangement, its arguments unchanged. -/
theorem kernel_run :
    θ_run defs (onTc (τ := τ) (main (F := Ideal))) ⟨m, fun _ => 0, ρ⟩ (fun r => ∀ c : Dev nD,
      r.2.mem ((c.tc : Thread nD τ).loc main_v15)
        = (fun _ => Spec.finish (Spec.totalK (Blocks.A0 m c) (Blocks.A1 m c) (Blocks.MK m c)) (Spec.countK (Blocks.MK m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Tail.run_value m ρ (fun c => Spec.outSpec (Blocks.A0 m c) (Blocks.A1 m c) (Blocks.MK m c)) (out_eq m)

end Cert.Proof.Glue

end
-- ==== Proof.Sums.lean ====
/-
  The two arrangements of the total and of the count add up the same terms.

  The kernel's arrangement runs over (image, strip, coordinate, row in the strip, column); the reference's runs over
  the rank-3 index set (image, flattened pixel, coordinate). A flattened pixel p below 160 * 160 is a (row, column) pair
  through p = 160 * row + column, a row below 10 * 16 is a (strip, row in the strip) pair through row = 16 * strip + h,
  and addition on the extended reals is commutative and associative, so the finite sums may be re-indexed along these
  bijections and their order exchanged. Nothing else about the extended reals is used.
-/
import proofs.«150996_j10127532883990_1_alg».proof.Proof.Spec
import Mathlib.Algebra.BigOperators.Group.Finset.Defs
import Mathlib.Algebra.BigOperators.Group.Finset.Sigma
import Mathlib.Data.Fintype.BigOperators
import Idealize.ShloMosaic.Lib.ValueIdx

noncomputable section

open scoped BigOperators

namespace Cert.Proof.Sums

open Idealize.ShloMosaic Idealize.ShloMosaic.ValueIdx

/-! ## Splitting a range of length n * k into n runs of length k -/

/-- The position b of run a lies below n * k. -/
theorem split_lt {n k : Nat} (a : Fin n) (b : Fin k) : k * a.val + b.val < n * k :=
  calc k * a.val + b.val < k * a.val + k := Nat.add_lt_add_left b.isLt _
    _ = k * (a.val + 1) := (Nat.mul_succ k a.val).symm
    _ ≤ k * n := Nat.mul_le_mul_left _ a.isLt
    _ = n * k := Nat.mul_comm _ _

/-- A range of length n * k is inhabited only when k is positive. -/
theorem pos_of_fin_mul {n k : Nat} (p : Fin (n * k)) : 0 < k :=
  Nat.pos_of_ne_zero fun h => Nat.not_lt_zero p.val (lt_of_lt_of_eq p.isLt (by rw [h, Nat.mul_zero]))

/-- A number below n * k is a pair (quotient, remainder) by k, and conversely (a, b) is the number k * a + b. -/
def splitEquiv (n k : Nat) : Fin n × Fin k ≃ Fin (n * k) where
  toFun q := ⟨k * q.1.val + q.2.val, split_lt q.1 q.2⟩
  invFun p :=
    (⟨p.val / k, Nat.div_lt_of_lt_mul (lt_of_lt_of_eq p.isLt (Nat.mul_comm n k))⟩,
     ⟨p.val % k, Nat.mod_lt _ (pos_of_fin_mul p)⟩)
  left_inv q := by
    obtain ⟨a, b⟩ := q
    have hk : 0 < k := Nat.lt_of_le_of_lt (Nat.zero_le _) b.isLt
    refine Prod.ext (Fin.ext ?_) (Fin.ext ?_)
    · show (k * a.val + b.val) / k = a.val
      rw [Nat.mul_add_div hk, Nat.div_eq_of_lt b.isLt, Nat.add_zero]
    · show (k * a.val + b.val) % k = b.val
      rw [Nat.mul_add_mod, Nat.mod_eq_of_lt b.isLt]
  right_inv p := Fin.ext (Nat.div_add_mod p.val k)

/-- A sum over a range of length n * k is the double sum over the run and the position in the run. -/
theorem sum_split {M : Type*} [AddCommMonoid M] (n k : Nat) (f : Fin (n * k) → M) :
    ∑ p, f p = ∑ a : Fin n, ∑ b : Fin k, f ⟨k * a.val + b.val, split_lt a b⟩ := by
  rw [← Equiv.sum_comp (splitEquiv n k) f, Fintype.sum_prod_type]
  rfl

/-- A sum over the 25600 flattened pixels is the double sum over rows and columns. -/
theorem sum_pix {M : Type*} [AddCommMonoid M] (f : Fin 25600 → M) :
    ∑ p, f p = ∑ y : Fin 160, ∑ x : Fin 160, f (Spec.pix y x) :=
  sum_split 160 160 f

/-- A sum over the 160 rows is the double sum over strips and rows in the strip. -/
theorem sum_row {M : Type*} [AddCommMonoid M] (f : Fin 160 → M) :
    ∑ y, f y = ∑ j : Fin 10, ∑ h : Fin 16, f (Spec.row16 j h) :=
  sum_split 10 16 f

/-! ## A rank-3 index set is the product of its three coordinate ranges -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The row and the column of a flattened pixel -/

theorem pix_div (y x : Fin 160) : (Spec.pix y x).val / 160 = y.val := by
  show (160 * y.val + x.val) / 160 = y.val
  have := x.isLt
  omega

theorem pix_mod (y x : Fin 160) : (Spec.pix y x).val % 160 = x.val := by
  show (160 * y.val + x.val) % 160 = x.val
  have := x.isLt
  omega

/-- The reference's term at the index (b, pixel (y, x), c) is the shared term elt b c y x: the quotient and the
    remainder of the pixel by 160 are its row and its column. -/
theorem term_eq (A0 : Spec.SReg.Idx → EReal) (A1 : Spec.STgt.Idx → EReal) (M : Spec.SMsk.Idx → EReal)
    (b : Fin 32) (c : Fin 4) (y x : Fin 160) (h1 : (Spec.pix y x).val / 160 < 160) (h2 : (Spec.pix y x).val % 160 < 160) :
    Spec.per (Spec.zAt A0 b c ⟨(Spec.pix y x).val / 160, h1⟩ ⟨(Spec.pix y x).val % 160, h2⟩) (A1 (ix3 b (Spec.pix y x) c))
        * M (ix2 b (Spec.pix y x))
      = Spec.elt A0 A1 M b c y x := by
  have e1 : (⟨(Spec.pix y x).val / 160, h1⟩ : Fin 160) = y := Fin.ext (pix_div y x)
  have e2 : (⟨(Spec.pix y x).val % 160, h2⟩ : Fin 160) = x := Fin.ext (pix_mod y x)
  rw [e1, e2]
  rfl

/-! ## The two arrangements agree -/

theorem total_eq (A0 : Spec.SReg.Idx → EReal) (A1 : Spec.STgt.Idx → EReal) (M : Spec.SMsk.Idx → EReal) :
    Spec.totalK A0 A1 M = Spec.totalR A0 A1 M := by
  unfold Spec.totalK Spec.totalR Spec.blkTot
  rw [sum_idx3]
  refine Finset.sum_congr rfl fun b _ => ?_
  rw [sum_pix, sum_row]
  refine Finset.sum_congr rfl fun j _ => ?_
  rw [Finset.sum_comm]
  refine Finset.sum_congr rfl fun h _ => ?_
  rw [Finset.sum_comm]
  refine Finset.sum_congr rfl fun w _ => ?_
  refine Finset.sum_congr rfl fun c _ => ?_
  exact (term_eq A0 A1 M b c (Spec.row16 j h) w _ _).symm

theorem count_eq (M : Spec.SMsk.Idx → EReal) : Spec.countK M = Spec.countR M := by
  unfold Spec.countK Spec.countR Spec.blkCnt
  rw [sum_idx2]
  refine Finset.sum_congr rfl fun b _ => ?_
  rw [sum_pix, sum_row]

end Cert.Proof.Sums

end
-- ==== Proof.RefElt.lean ====
/-
  The reference, pixel by pixel: its [32, 25600, 4] array of weighted losses holds, at image `b`, pixel `p` and
  coordinate `c`, the pixel's loss `Spec.per` of the eight logits `reg[b, 8 c + k, p / 160, p % 160]` and the target
  `targets[b, p, c]`, times the mask value at `(b, p)`.

  The reference moves the bin axis last (a transpose and a reshape: channel `8 c + k` of pixel `(y, x)` becomes entry
  `(160 y + x, c, k)`), takes log-probabilities along it, and picks the two bins by an indexed read whose index is the bin
  word; the words are below 8, so the read is in range and picks exactly that bin.
-/
import proofs.«150996_j10127532883990_1_alg».proof.Proof.RefRead
import proofs.«150996_j10127532883990_1_alg».proof.Proof.Scalar
import Idealize.ShloMosaic.Lib.ValueIdx
import Idealize.ShloMosaic.Lib.Pipeline.Value
import Idealize.ShloMosaic.PureOps.Ideal.Laws

noncomputable section

open scoped BigOperators

namespace Cert.Proof.RefElt

open Idealize.ShloMosaic Idealize.ShloMosaic.ValueIdx Cert.ReferenceIdeal Cert.ReferenceIdeal.ReadP Cert.Proof
open Cert.ReferenceIdeal.Gen

abbrev X0 := (⟨S32x32x160x160, .f32⟩ : BufTy).Contents (Elt Ideal)
abbrev X1 := (⟨S32x25600x4, .f32⟩ : BufTy).Contents (Elt Ideal)

/-! ## The target: its clipped value, the two bins and the two weights -/

/-- The clipped target: the minimum with the upper bound of the maximum with zero. -/
theorem v2_eq (x1 : X1) (i : S32x25600x4.Idx) : val_main_v2 (F := Ideal) x1 i = Spec.clipT (x1 i) := by
  rw [val_main_v2_apply, val_main_call0_v4_apply, val_main_call0_v3_apply, val_main_cst_0_apply,
    val_main_call0_v2_apply, val_main_call0_v1_apply, val_main_call0_v0_apply, val_main_cst_apply]
  rfl

/-- The lower bin: the integer part of the clipped target, as a word. -/
theorem v4_eq (x1 : X1) (i : S32x25600x4.Idx) : val_main_v4 (F := Ideal) x1 i = Spec.lo (x1 i) := by
  rw [val_main_v4_apply, val_main_v3_apply, v2_eq]
  rfl

/-- The upper bin: one more, capped at 7. -/
theorem v8_eq (x1 : X1) (i : S32x25600x4.Idx) : val_main_v8 (F := Ideal) x1 i = Spec.hi (x1 i) := by
  rw [val_main_v8_apply, val_main_v6_apply, v4_eq, val_main_v5_apply, val_main_c_apply, val_main_v7_apply, val_main_c_1_apply]
  rfl

/-- The upper bin's weight: the clipped target less its integer part. -/
theorem v10_eq (x1 : X1) (i : S32x25600x4.Idx) : val_main_v10 (F := Ideal) x1 i = Spec.wU (x1 i) := by
  rw [val_main_v10_apply, v2_eq, val_main_v9_apply, v4_eq]
  rfl

/-- The lower bin's weight: one less the upper bin's. -/
theorem v12_eq (x1 : X1) (i : S32x25600x4.Idx) : val_main_v12 (F := Ideal) x1 i = Spec.wL (x1 i) := by
  rw [val_main_v12_apply, v10_eq, val_main_v11_apply, val_main_cst_2_apply]
  rfl

/-! ## The logits with the bin axis last -/

/-- Entry `(b, p, c, k)` of the rearranged logits is channel `8 c + k` at row `p / 160` and column `p % 160`: the flat
    position `((25600 b + p) 4 + c) 8 + k` of the reshape, split by the transposed array's extents [32, 160, 160, 32]. -/
theorem v1_eq (x0 : X0) (b : Fin 32) (p : Fin 25600) (c : Fin 4) (k : Fin 8) :
    val_main_v1 (F := Ideal) x0 (ix4 b p c k)
      = x0 (ix4 b (Spec.chan c k) ⟨p.val / 160, by have := p.isLt; omega⟩ ⟨p.val % 160, Nat.mod_lt _ (by decide)⟩) := by
  rw [val_main_v1_apply, val_main_v0_apply]
  congr 1
  funext a
  have hb := b.isLt; have hp := p.isLt; have hc := c.isLt; have hk := k.isLt
  match a with
  | ⟨0, _⟩ => apply Fin.ext; show ((((b.val * 25600 + p.val) * 4 + c.val) * 8 + k.val) / 819200) = b.val; omega
  | ⟨1, _⟩ => apply Fin.ext; show ((((b.val * 25600 + p.val) * 4 + c.val) * 8 + k.val) % 32) = 8 * c.val + k.val; omega
  | ⟨2, _⟩ => apply Fin.ext; show ((((b.val * 25600 + p.val) * 4 + c.val) * 8 + k.val) / 5120 % 160) = p.val / 160; omega
  | ⟨3, _⟩ => apply Fin.ext; show ((((b.val * 25600 + p.val) * 4 + c.val) * 8 + k.val) / 32 % 160) = p.val % 160; omega

/-- The eight logits of one (image, pixel, coordinate), as the reference lays them out. -/
abbrev zR (x0 : X0) (b : Fin 32) (p : Fin 25600) (c : Fin 4) : Fin 8 → EReal :=
  fun k => val_main_v1 (F := Ideal) x0 (ix4 b p c k)

/-! ## The log-probabilities along the bin axis -/

theorem hred8 : S32x25600x4x8.Reduces [3] S32x25600x4 := by decide

/-- Inserting bin `k` on the last axis of `(b, p, c)`. -/
theorem lift8 (b : Fin 32) (p : Fin 25600) (c : Fin 4) (k : Fin 8) :
    hred8.lift (ix3 b p c) k = ix4 b p c k := by
  funext a
  match a with
  | ⟨0, _⟩ => rfl
  | ⟨1, _⟩ => rfl
  | ⟨2, _⟩ => rfl
  | ⟨3, _⟩ => rfl

/-- The largest logit: a reduce by `max` over one axis is the fold of `max`, from the initial value (minus infinity),
    over that axis's eight coordinates. -/
theorem redmax_eq (x0 : X0) (b : Fin 32) (p : Fin 25600) (c : Fin 4) :
    val_main_call1_v0 (F := Ideal) x0 (ix3 b p c) = Spec.rowMax (zR x0 b p c) := by
  unfold val_main_call1_v0
  rw [Host.reduce_eq_fold_single FloatOps.maximumf _ _ reducesTo_S32x25600x4x8_S32x25600x4_d3 hred8 h_S_]
  have hf : (val_main_v1 (F := Ideal) x0 ∘ hred8.lift (ix3 b p c)) = zR x0 b p c :=
    funext fun k => congrArg (val_main_v1 (F := Ideal) x0) (lift8 b p c k)
  rw [hf]
  rfl

theorem idx3_4 (b : Fin 32) (p : Fin 25600) (c : Fin 4) (k : Fin 8) :
    idx_main_call1_v3 (idx_main_call1_v4 (ix4 b p c k)) = ix3 b p c := by
  funext a
  match a with
  | ⟨0, _⟩ => rfl
  | ⟨1, _⟩ => rfl
  | ⟨2, _⟩ => rfl

/-- The shifted logit: the largest logit, once more compared with minus infinity, is taken off. -/
theorem c1v5_eq (x0 : X0) (b : Fin 32) (p : Fin 25600) (c : Fin 4) (k : Fin 8) :
    val_main_call1_v5 (F := Ideal) x0 (ix4 b p c k) = zR x0 b p c k - Spec.rowMax (zR x0 b p c) := by
  rw [val_main_call1_v5_apply, val_main_call1_v4_apply, val_main_call1_v3_apply, idx3_4, val_main_call1_v2_apply,
    redmax_eq, val_main_call1_v1_apply, val_main_call1_cst_0_apply]
  show zR x0 b p c k - max Spec.cNegInf (Spec.rowMax (zR x0 b p c)) = _
  rw [Scalar.max_negInf_rowMax]

theorem idx7 (b : Fin 32) (p : Fin 25600) (c : Fin 4) (k : Fin 8) :
    idx_main_call1_v7 (ix3 b p c) k = ix4 b p c k := by
  funext a
  match a with
  | ⟨0, _⟩ => rfl
  | ⟨1, _⟩ => rfl
  | ⟨2, _⟩ => rfl
  | ⟨3, _⟩ => rfl

/-- The sum of the shifted exponentials: the sum from the zero word is the sum. -/
theorem c1v7_eq (x0 : X0) (b : Fin 32) (p : Fin 25600) (c : Fin 4) :
    val_main_call1_v7 (F := Ideal) x0 (ix3 b p c)
      = ∑ j : Fin 8, Ideal.exp (zR x0 b p c j - Spec.rowMax (zR x0 b p c)) := by
  rw [val_main_call1_v7_apply, val_main_call1_cst_1_apply]
  have h0 : (FloatOps.ofBits (F := Ideal) .f32 0x00000000#32 : EReal) = 0 := Scalar.cZero_eq
  rw [h0, zero_add]
  refine Finset.sum_congr rfl fun j _ => ?_
  rw [idx7, val_main_call1_v6_apply, c1v5_eq]
  rfl

theorem idx8_10 (b : Fin 32) (p : Fin 25600) (c : Fin 4) (k : Fin 8) :
    idx_main_call1_v8 (idx_main_call1_v10 (ix4 b p c k)) = ix3 b p c := by
  funext a
  match a with
  | ⟨0, _⟩ => rfl
  | ⟨1, _⟩ => rfl
  | ⟨2, _⟩ => rfl

/-- The log-probability of bin `k`: the shifted logit less the log of the sum. -/
theorem v13_eq (x0 : X0) (b : Fin 32) (p : Fin 25600) (c : Fin 4) (k : Fin 8) :
    val_main_v13 (F := Ideal) x0 (ix4 b p c k) = Spec.logp (zR x0 b p c) k := by
  rw [val_main_v13_apply, c1v5_eq, val_main_call1_v10_apply, val_main_call1_v9_apply, val_main_call1_v8_apply, idx8_10, c1v7_eq]
  rfl

/-! ## The indexed read along the bin axis

  The read at `(b, p, c)` takes the operand at `(b, p, c, s)`: the first three axes are batching axes (the result's
  coordinates carried over), the last is the indexed one, its start `s` the index word read signed and clamped to
  `[0, 7]`. The index arrays carry two more axes of extent one. -/

abbrev gD := gather_S32x25600x4x8_S32x25600x4x1x1_S32x25600x4x1_n_3_012_012_3_4_1111

/-- Where the read at `(b, p, c, 0)` finds its index word. -/
theorem siIdx_eq (b : Fin 32) (p : Fin 25600) (c : Fin 4) :
    gD.siIdx (ix4 b p c (0 : Fin 1)) ⟨0, by decide⟩ = ix5 b p c (0 : Fin 1) (0 : Fin 1) := by
  funext e
  match e with
  | ⟨0, _⟩ => rfl
  | ⟨1, _⟩ => rfl
  | ⟨2, _⟩ => rfl
  | ⟨3, _⟩ => rfl
  | ⟨4, _⟩ => rfl

/-- The operand index of the read at `(b, p, c, 0)`: on a batching axis the start and the offset are zero and the
    batching coordinate is the result's; on the indexed axis there is only the clamped start. -/
theorem opIdx_eq (b : Fin 32) (p : Fin 25600) (c : Fin 4) (idx : IVec S32x25600x4x1x1 32) :
    gD.operandIdx (ix4 b p c (0 : Fin 1)) idx
      = ix4 b p c ⟨min (idx (ix5 b p c (0 : Fin 1) (0 : Fin 1))).toInt.toNat 7, by omega⟩ := by
  funext a
  match a with
  | ⟨0, _⟩ => apply Fin.ext; show (0 + b.val + 0 : Nat) = b.val; omega
  | ⟨1, _⟩ => apply Fin.ext; show (0 + p.val + 0 : Nat) = p.val; omega
  | ⟨2, _⟩ => apply Fin.ext; show (0 + c.val + 0 : Nat) = c.val; omega
  | ⟨3, _⟩ =>
    apply Fin.ext
    show min (idx (gD.siIdx (ix4 b p c (0 : Fin 1)) ⟨0, by decide⟩)).toInt.toNat (8 - 1) + 0 + 0
      = min (idx (ix5 b p c (0 : Fin 1) (0 : Fin 1))).toInt.toNat 7
    rw [siIdx_eq]
    rfl

theorem hred1 : S32x25600x4x1x1.Reduces [4] S32x25600x4x1 := by decide

/-- Inserting the one coordinate of the last axis of extent one. -/
theorem lift1 (b : Fin 32) (p : Fin 25600) (c : Fin 4) (k : Fin 1) :
    hred1.lift (ix4 b p c (0 : Fin 1)) k = ix5 b p c (0 : Fin 1) (0 : Fin 1) := by
  funext a
  match a with
  | ⟨0, _⟩ => rfl
  | ⟨1, _⟩ => rfl
  | ⟨2, _⟩ => rfl
  | ⟨3, _⟩ => rfl
  | ⟨4, _⟩ => apply Fin.ext; show k.val = 0; omega

/-- A fold over an axis of extent one is one application of the operation. -/
theorem fold_fin1 {α : Type} (op : α → α → α) [Std.Commutative op] [Std.Associative op] (e : α) (f : Fin 1 → α) :
    (Finset.univ : Finset (Fin 1)).fold op e f = op (f 0) e := by
  rw [show (Finset.univ : Finset (Fin 1)) = {0} from rfl]
  exact Finset.fold_singleton

/-! ### The lower bin -/

theorem idx16 (b : Fin 32) (p : Fin 25600) (c : Fin 4) : idx_main_v16 (ix3 b p c) = ix4 b p c (0 : Fin 1) := by
  funext a
  have hb := b.isLt; have hp := p.isLt; have hc := c.isLt
  match a with
  | ⟨0, _⟩ => apply Fin.ext; show ((b.val * 25600 + p.val) * 4 + c.val) / 102400 = b.val; omega
  | ⟨1, _⟩ => apply Fin.ext; show ((b.val * 25600 + p.val) * 4 + c.val) / 4 % 25600 = p.val; omega
  | ⟨2, _⟩ => apply Fin.ext; show ((b.val * 25600 + p.val) * 4 + c.val) / 1 % 4 = c.val; omega
  | ⟨3, _⟩ => rfl

theorem idx14 (b : Fin 32) (p : Fin 25600) (c : Fin 4) : idx_main_v14 (ix4 b p c (0 : Fin 1)) = ix3 b p c := by
  funext a
  match a with
  | ⟨0, _⟩ => rfl
  | ⟨1, _⟩ => rfl
  | ⟨2, _⟩ => rfl

theorem idxc2v5 (b : Fin 32) (p : Fin 25600) (c : Fin 4) :
    idx_main_call2_v5 (ix5 b p c (0 : Fin 1) (0 : Fin 1)) = ix4 b p c (0 : Fin 1) := by
  funext a
  have hb := b.isLt; have hp := p.isLt; have hc := c.isLt
  match a with
  | ⟨0, _⟩ => apply Fin.ext; show (((((b.val * 25600 + p.val) * 4 + c.val) * 1 + 0) * 1 + 0) / 102400) = b.val; omega
  | ⟨1, _⟩ => apply Fin.ext; show (((((b.val * 25600 + p.val) * 4 + c.val) * 1 + 0) * 1 + 0) / 4 % 25600) = p.val; omega
  | ⟨2, _⟩ => apply Fin.ext; show (((((b.val * 25600 + p.val) * 4 + c.val) * 1 + 0) * 1 + 0) / 1 % 4) = c.val; omega
  | ⟨3, _⟩ => rfl

/-- The lower bin word is not negative, so the index normalisation (add 8 to a negative index) leaves it. -/
theorem c2v4_eq (x1 : X1) (b : Fin 32) (p : Fin 25600) (c : Fin 4) :
    val_main_call2_v4 (F := Ideal) x1 (ix4 b p c (0 : Fin 1)) = Spec.lo (x1 (ix3 b p c)) := by
  have hl : (Spec.lo (x1 (ix3 b p c))).toNat < 8 := by have := Scalar.lo_le (x1 (ix3 b p c)); omega
  rw [val_main_call2_v4_apply, val_main_call2_v1_apply, val_main_v14_apply, idx14, v4_eq, val_main_call2_v0_apply,
    val_main_call2_c_apply, Scalar.slt_zero _ hl, select_zero]

theorem c2v5_eq (x1 : X1) (b : Fin 32) (p : Fin 25600) (c : Fin 4) :
    val_main_call2_v5 (F := Ideal) x1 (ix5 b p c (0 : Fin 1) (0 : Fin 1)) = Spec.lo (x1 (ix3 b p c)) := by
  rw [val_main_call2_v5_apply, idxc2v5, c2v4_eq]

theorem c2v9_eq (i : S32x25600x4x1x1.Idx) : val_main_call2_v9 (F := Ideal) i = 7#32 := by
  rw [val_main_call2_v9_apply, val_main_call2_v8_apply, val_main_call2_c_1_apply]

/-- The in-range test (`0 ≤ word ≤ 7`, and-reduced from `true` over an axis of extent one) holds for the lower bin. -/
theorem c2v12_eq (x1 : X1) (b : Fin 32) (p : Fin 25600) (c : Fin 4) :
    val_main_call2_v12 (F := Ideal) x1 (ix4 b p c (0 : Fin 1)) = 1#1 := by
  have hl : (Spec.lo (x1 (ix3 b p c))).toNat < 8 := by have := Scalar.lo_le (x1 (ix3 b p c)); omega
  unfold val_main_call2_v12
  rw [Host.reduce_eq_fold_single IntOp.andi _ _ reducesTo_S32x25600x4x1x1_S32x25600x4x1_d4 hred1 h_S_]
  have hf : (val_main_call2_v11 (F := Ideal) x1 ∘ hred1.lift (ix4 b p c (0 : Fin 1)))
      = fun _ : Fin 1 => val_main_call2_v11 (F := Ideal) x1 (ix5 b p c (0 : Fin 1) (0 : Fin 1)) :=
    funext fun k => congrArg (val_main_call2_v11 (F := Ideal) x1) (lift1 b p c k)
  rw [hf]
  refine (fold_fin1 IntOp.andi _ _).trans ?_
  rw [val_main_call2_v11_apply, val_main_call2_v7_apply, val_main_call2_v10_apply, c2v5_eq, val_main_call2_v6_apply,
    val_main_call2_c_2_apply, c2v9_eq, Scalar.sge_zero _ hl, Scalar.sle_seven _ hl, val_main_call2_c_3_apply]
  rfl

/-- The read picks the lower bin's log-probability: the clamped start of a word below 8 is its bin. -/
theorem c2v13_eq (x0 : X0) (x1 : X1) (b : Fin 32) (p : Fin 25600) (c : Fin 4) :
    val_main_call2_v13 (F := Ideal) x0 x1 (ix4 b p c (0 : Fin 1))
      = val_main_v13 (F := Ideal) x0 (ix4 b p c (Spec.bin (Spec.lo (x1 (ix3 b p c))))) := by
  have hl : (Spec.lo (x1 (ix3 b p c))).toNat < 8 := by have := Scalar.lo_le (x1 (ix3 b p c)); omega
  unfold val_main_call2_v13 Host.gather
  rw [opIdx_eq]
  refine congrArg (fun k => val_main_v13 (F := Ideal) x0 (ix4 b p c k)) (Fin.ext ?_)
  show min (val_main_call2_v5 (F := Ideal) x1 (ix5 b p c (0 : Fin 1) (0 : Fin 1))).toInt.toNat 7 = _
  rw [c2v5_eq]
  exact Scalar.clamp_bin _ hl

/-- The lower bin's log-probability, with the axis of extent one dropped again. -/
theorem v16_eq (x0 : X0) (x1 : X1) (b : Fin 32) (p : Fin 25600) (c : Fin 4) :
    val_main_v16 (F := Ideal) x0 x1 (ix3 b p c)
      = val_main_v13 (F := Ideal) x0 (ix4 b p c (Spec.bin (Spec.lo (x1 (ix3 b p c))))) := by
  rw [val_main_v16_apply, idx16, val_main_v15_apply, c2v12_eq, select_one, c2v13_eq]

/-! ### The upper bin -/

theorem idx20 (b : Fin 32) (p : Fin 25600) (c : Fin 4) : idx_main_v20 (ix3 b p c) = ix4 b p c (0 : Fin 1) := by
  funext a
  have hb := b.isLt; have hp := p.isLt; have hc := c.isLt
  match a with
  | ⟨0, _⟩ => apply Fin.ext; show ((b.val * 25600 + p.val) * 4 + c.val) / 102400 = b.val; omega
  | ⟨1, _⟩ => apply Fin.ext; show ((b.val * 25600 + p.val) * 4 + c.val) / 4 % 25600 = p.val; omega
  | ⟨2, _⟩ => apply Fin.ext; show ((b.val * 25600 + p.val) * 4 + c.val) / 1 % 4 = c.val; omega
  | ⟨3, _⟩ => rfl

theorem idx18 (b : Fin 32) (p : Fin 25600) (c : Fin 4) : idx_main_v18 (ix4 b p c (0 : Fin 1)) = ix3 b p c := by
  funext a
  match a with
  | ⟨0, _⟩ => rfl
  | ⟨1, _⟩ => rfl
  | ⟨2, _⟩ => rfl

theorem idxc3v5 (b : Fin 32) (p : Fin 25600) (c : Fin 4) :
    idx_main_call3_v5 (ix5 b p c (0 : Fin 1) (0 : Fin 1)) = ix4 b p c (0 : Fin 1) := by
  funext a
  have hb := b.isLt; have hp := p.isLt; have hc := c.isLt
  match a with
  | ⟨0, _⟩ => apply Fin.ext; show (((((b.val * 25600 + p.val) * 4 + c.val) * 1 + 0) * 1 + 0) / 102400) = b.val; omega
  | ⟨1, _⟩ => apply Fin.ext; show (((((b.val * 25600 + p.val) * 4 + c.val) * 1 + 0) * 1 + 0) / 4 % 25600) = p.val; omega
  | ⟨2, _⟩ => apply Fin.ext; show (((((b.val * 25600 + p.val) * 4 + c.val) * 1 + 0) * 1 + 0) / 1 % 4) = c.val; omega
  | ⟨3, _⟩ => rfl

/-- The upper bin word is at most 7 and not negative: the normalisation leaves it too. -/
theorem c3v4_eq (x1 : X1) (b : Fin 32) (p : Fin 25600) (c : Fin 4) :
    val_main_call3_v4 (F := Ideal) x1 (ix4 b p c (0 : Fin 1)) = Spec.hi (x1 (ix3 b p c)) := by
  have hu : (Spec.hi (x1 (ix3 b p c))).toNat < 8 := by have := Scalar.hi_le (x1 (ix3 b p c)); omega
  rw [val_main_call3_v4_apply, val_main_call3_v1_apply, val_main_v18_apply, idx18, v8_eq, val_main_call3_v0_apply,
    val_main_call3_c_apply, Scalar.slt_zero _ hu, select_zero]

theorem c3v5_eq (x1 : X1) (b : Fin 32) (p : Fin 25600) (c : Fin 4) :
    val_main_call3_v5 (F := Ideal) x1 (ix5 b p c (0 : Fin 1) (0 : Fin 1)) = Spec.hi (x1 (ix3 b p c)) := by
  rw [val_main_call3_v5_apply, idxc3v5, c3v4_eq]

theorem c3v9_eq (i : S32x25600x4x1x1.Idx) : val_main_call3_v9 (F := Ideal) i = 7#32 := by
  rw [val_main_call3_v9_apply, val_main_call3_v8_apply, val_main_call3_c_1_apply]

/-- The in-range test holds for the upper bin. -/
theorem c3v12_eq (x1 : X1) (b : Fin 32) (p : Fin 25600) (c : Fin 4) :
    val_main_call3_v12 (F := Ideal) x1 (ix4 b p c (0 : Fin 1)) = 1#1 := by
  have hu : (Spec.hi (x1 (ix3 b p c))).toNat < 8 := by have := Scalar.hi_le (x1 (ix3 b p c)); omega
  unfold val_main_call3_v12
  rw [Host.reduce_eq_fold_single IntOp.andi _ _ reducesTo_S32x25600x4x1x1_S32x25600x4x1_d4 hred1 h_S_]
  have hf : (val_main_call3_v11 (F := Ideal) x1 ∘ hred1.lift (ix4 b p c (0 : Fin 1)))
      = fun _ : Fin 1 => val_main_call3_v11 (F := Ideal) x1 (ix5 b p c (0 : Fin 1) (0 : Fin 1)) :=
    funext fun k => congrArg (val_main_call3_v11 (F := Ideal) x1) (lift1 b p c k)
  rw [hf]
  refine (fold_fin1 IntOp.andi _ _).trans ?_
  rw [val_main_call3_v11_apply, val_main_call3_v7_apply, val_main_call3_v10_apply, c3v5_eq, val_main_call3_v6_apply,
    val_main_call3_c_2_apply, c3v9_eq, Scalar.sge_zero _ hu, Scalar.sle_seven _ hu, val_main_call3_c_3_apply]
  rfl

/-- The read picks the upper bin's log-probability. -/
theorem c3v13_eq (x0 : X0) (x1 : X1) (b : Fin 32) (p : Fin 25600) (c : Fin 4) :
    val_main_call3_v13 (F := Ideal) x0 x1 (ix4 b p c (0 : Fin 1))
      = val_main_v13 (F := Ideal) x0 (ix4 b p c (Spec.bin (Spec.hi (x1 (ix3 b p c))))) := by
  have hu : (Spec.hi (x1 (ix3 b p c))).toNat < 8 := by have := Scalar.hi_le (x1 (ix3 b p c)); omega
  unfold val_main_call3_v13 Host.gather
  rw [opIdx_eq]
  refine congrArg (fun k => val_main_v13 (F := Ideal) x0 (ix4 b p c k)) (Fin.ext ?_)
  show min (val_main_call3_v5 (F := Ideal) x1 (ix5 b p c (0 : Fin 1) (0 : Fin 1))).toInt.toNat 7 = _
  rw [c3v5_eq]
  exact Scalar.clamp_bin _ hu

/-- The upper bin's log-probability, with the axis of extent one dropped again. -/
theorem v20_eq (x0 : X0) (x1 : X1) (b : Fin 32) (p : Fin 25600) (c : Fin 4) :
    val_main_v20 (F := Ideal) x0 x1 (ix3 b p c)
      = val_main_v13 (F := Ideal) x0 (ix4 b p c (Spec.bin (Spec.hi (x1 (ix3 b p c))))) := by
  rw [val_main_v20_apply, idx20, val_main_v19_apply, c3v12_eq, select_one, c3v13_eq]

/-! ## The weighted loss -/

/-- The mask value at `(b, p)`, laid along the coordinate axis. -/
theorem idx27_28 (b : Fin 32) (p : Fin 25600) (c : Fin 4) :
    idx_main_v27 (idx_main_v28 (ix3 b p c)) = ix2 b p := by
  funext a
  match a with
  | ⟨0, _⟩ => rfl
  | ⟨1, _⟩ => rfl

/-- The reference's logits at `(b, p, c)` are the specification's at row `p / 160` and column `p % 160`. -/
theorem zR_eq (x0 : X0) (b : Fin 32) (p : Fin 25600) (c : Fin 4) :
    zR x0 b p c = Spec.zAt x0 b c ⟨p.val / 160, by have := p.isLt; omega⟩ ⟨p.val % 160, Nat.mod_lt _ (by decide)⟩ :=
  funext fun k => v1_eq x0 b p c k

/-- The reference's weighted loss at (image, pixel, coordinate). -/
theorem v29_apply (x0 : (⟨S32x32x160x160, .f32⟩ : BufTy).Contents (Elt Ideal)) (x1 : (⟨S32x25600x4, .f32⟩ : BufTy).Contents (Elt Ideal))
    (x2 : (⟨S32x25600, .i1⟩ : BufTy).Contents (Elt Ideal)) (i : S32x25600x4.Idx) :
    val_main_v29 (F := Ideal) x0 x1 x2 i
      = Spec.per (Spec.zAt x0 (i 0) (i 2) ⟨(i 1).val / 160, by have h : (i 1).val < 25600 := (i 1).isLt; omega⟩ ⟨(i 1).val % 160, Nat.mod_lt _ (by decide)⟩) (x1 i)
        * (uitofp (F := Ideal) .f32 x2) (ix2 (i 0) (i 1)) := by
  obtain ⟨b, p, c, rfl⟩ : ∃ b p c, i = ix3 b p c := ⟨_, _, _, eq_ix3 i⟩
  show val_main_v29 (F := Ideal) x0 x1 x2 (ix3 b p c)
      = Spec.per (Spec.zAt x0 b c ⟨p.val / 160, _⟩ ⟨p.val % 160, _⟩) (x1 (ix3 b p c)) * (uitofp (F := Ideal) .f32 x2) (ix2 b p)
  rw [val_main_v29_apply, val_main_v24_apply, val_main_v22_apply, val_main_v23_apply, v12_eq, v10_eq,
    val_main_v17_apply, val_main_v21_apply, v16_eq, v20_eq, v13_eq, v13_eq, zR_eq,
    val_main_v28_apply, val_main_v27_apply, idx27_28, val_main_v25_apply]
  rfl

end Cert.Proof.RefElt

end
-- ==== Proof.RefTail.lean ====
/-
  The reference's result: the total of its weighted losses and the count of its mask, each a sum over a whole array
  from zero, combined by `Spec.finish`.
-/
import proofs.«150996_j10127532883990_1_alg».proof.Proof.RefElt

noncomputable section

open scoped BigOperators

namespace Cert.Proof.RefTail

open Idealize.ShloMosaic Idealize.ShloMosaic.ValueIdx Cert.ReferenceIdeal Cert.ReferenceIdeal.ReadP Cert.Proof

/-- The sum of the reference's weighted losses over (image, pixel, coordinate) is the reference's arrangement of the
    total: the two sums agree term by term. -/
theorem sum_v29 (x0 : (⟨S32x32x160x160, .f32⟩ : BufTy).Contents (Elt Ideal)) (x1 : (⟨S32x25600x4, .f32⟩ : BufTy).Contents (Elt Ideal))
    (x2 : (⟨S32x25600, .i1⟩ : BufTy).Contents (Elt Ideal)) :
    (∑ j : S32x25600x4.Idx, val_main_v29 (F := Ideal) x0 x1 x2 j) = Spec.totalR x0 x1 (uitofp (F := Ideal) .f32 x2) := by
  unfold Spec.totalR
  exact Finset.sum_congr rfl fun j _ => RefElt.v29_apply x0 x1 x2 j

/-- The sum of the mask read as floats is the count. -/
theorem sum_v25 (x2 : (⟨S32x25600, .i1⟩ : BufTy).Contents (Elt Ideal)) :
    (∑ j : S32x25600.Idx, val_main_v25 (F := Ideal) x2 j) = Spec.countR (uitofp (F := Ideal) .f32 x2) := rfl

/-- The reference's scalar result as a function of its three arguments. -/
theorem ref_value (x0 : (⟨S32x32x160x160, .f32⟩ : BufTy).Contents (Elt Ideal)) (x1 : (⟨S32x25600x4, .f32⟩ : BufTy).Contents (Elt Ideal))
    (x2 : (⟨S32x25600, .i1⟩ : BufTy).Contents (Elt Ideal)) :
    val_main_v35 (F := Ideal) x0 x1 x2
      = fun _ => Spec.finish (Spec.totalR x0 x1 (uitofp (F := Ideal) .f32 x2)) (Spec.countR (uitofp (F := Ideal) .f32 x2)) := by
  funext i
  -- Read the last operations one at a time: the select, the compare, the quotient, the product with 4, the maximum
  -- with 1, and the two sums from zero.
  rw [val_main_v35_apply, val_main_v34_apply, val_main_v33_apply, val_main_v32_apply, val_main_v31_apply,
    val_main_v30_apply, val_main_v26_apply, sum_v29, sum_v25]
  -- The constants are the words of 0, 1 and 4; a sum started from zero is the sum.
  rw [val_main_cst_3_apply, val_main_cst_4_apply, val_main_cst_5_apply, val_main_cst_6_apply, val_main_cst_7_apply,
    val_main_cst_8_apply]
  show Scalar.select (Ideal.cmp .ogt (Spec.cZero + Spec.countR (uitofp (F := Ideal) .f32 x2)) Spec.cZero)
      (Ideal.div (Spec.cZero + Spec.totalR x0 x1 (uitofp (F := Ideal) .f32 x2))
        (max (Spec.cZero + Spec.countR (uitofp (F := Ideal) .f32 x2)) Spec.cOne * Spec.cFour)) Spec.cZero = _
  unfold Spec.finish
  rw [show Spec.cZero + Spec.countR (uitofp (F := Ideal) .f32 x2) = Spec.countR (uitofp (F := Ideal) .f32 x2) by
        rw [Scalar.cZero_eq, zero_add],
      show Spec.cZero + Spec.totalR x0 x1 (uitofp (F := Ideal) .f32 x2) = Spec.totalR x0 x1 (uitofp (F := Ideal) .f32 x2) by
        rw [Scalar.cZero_eq, zero_add]]

end Cert.Proof.RefTail

end
-- ==== Proof.RefRunHand.lean ====
/-
  The run of the reference program: every weakly fair execution of its @main terminates with the result buffer at
  `val_main_v35` of the three arguments' launch contents, the arguments unchanged. The 108 host operations are cut at
  the values that cross between the program's natural blocks — clip, bins and weights, log-softmax, the two gathers,
  the masked mean — into six stretches. Each stretch is stated over an arbitrary incoming valuation: what it reads
  is given as stage values, what it writes comes out as stage values, what later stretches read passes through.
  The float family stays abstract throughout: every equation here is between the same operations applied to the
  same operands, and never looks inside one.
-/
import proofs.«150996_j10127532883990_1_alg».proof.Proof.RefRun
import proofs.«150996_j10127532883990_1_alg».proof.Proof.RefRead
import Idealize.ShloMosaic.Lib.StableHlo.Run

noncomputable section

namespace Cert.Proof.RefRunHand

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]
-- of a reduction or a gather the equations below use only that equal operands give equal results
attribute [local irreducible] Host.reduce Host.reduceAdd Host.gather

/-- Operations 0–9 of `ops`: the transposition and regrouping of the logits (`main_v1`), and the target clipped between
    `0` and the constant `0x40DFFF2E` just under `7` (`main_v2`). An operation of a called function is written with the plain builder: its typed references
    carry reflexive type equations, and transport along a reflexive equation is the identity. -/
def part1 : List (HloOp τ sig (Elt F)) :=
  [ unary main_arg0 main_v0 ((transpose S32x160x160x32 [0, 2, 3, 1] · transposes_S32x32x160x160_S32x160x160x32_0_2_3_1) : (⟨S32x32x160x160, .f32⟩ : BufTy).Contents (Elt F) → (⟨S32x160x160x32, .f32⟩ : BufTy).Contents (Elt F)),
    reshape main_v0 main_v1 rfl shapeCasts_S32x160x160x32_S32x25600x4x8,
    nullary main_cst (constant S_ .f32 0x00000000#32),
    nullary main_cst_0 (constant S_ .f32 0x40DFFF2E#32),
    unary main_cst main_call0_v0 (id : (⟨S_, .f32⟩ : BufTy).Contents (Elt F) → (⟨S_, .f32⟩ : BufTy).Contents (Elt F)),
    unary main_call0_v0 main_call0_v1 ((broadcastInDim S32x25600x4 ![] bcast_S_S32x25600x4) : (⟨S_, .f32⟩ : BufTy).Contents (Elt F) → (⟨S32x25600x4, .f32⟩ : BufTy).Contents (Elt F)),
    binary main_call0_v1 main_arg1 main_call0_v2 (maximumf : (⟨S32x25600x4, .f32⟩ : BufTy).Contents (Elt F) → (⟨S32x25600x4, .f32⟩ : BufTy).Contents (Elt F) → (⟨S32x25600x4, .f32⟩ : BufTy).Contents (Elt F)),
    unary main_cst_0 main_call0_v3 (id : (⟨S_, .f32⟩ : BufTy).Contents (Elt F) → (⟨S_, .f32⟩ : BufTy).Contents (Elt F)),
    unary main_call0_v3 main_call0_v4 ((broadcastInDim S32x25600x4 ![] bcast_S_S32x25600x4) : (⟨S_, .f32⟩ : BufTy).Contents (Elt F) → (⟨S32x25600x4, .f32⟩ : BufTy).Contents (Elt F)),
    binary main_call0_v4 main_call0_v2 main_v2 (minimumf : (⟨S32x25600x4, .f32⟩ : BufTy).Contents (Elt F) → (⟨S32x25600x4, .f32⟩ : BufTy).Contents (Elt F) → (⟨S32x25600x4, .f32⟩ : BufTy).Contents (Elt F)) ]

/-- Operations 10–22: the floor of the clipped target as an integer (`main_v4`), the next bin capped at 7 (`main_v8`),
    the upper weight `t − ⌊t⌋` (`main_v10`) and the lower weight `1 − (t − ⌊t⌋)` (`main_v12`). -/
def part2 : List (HloOp τ sig (Elt F)) :=
  [ unary main_v2 main_v3 (Host.floor : (⟨S32x25600x4, .f32⟩ : BufTy).Contents (Elt F) → (⟨S32x25600x4, .f32⟩ : BufTy).Contents (Elt F)),
    unary main_v3 main_v4 (fptosi 32 : (⟨S32x25600x4, .f32⟩ : BufTy).Contents (Elt F) → (⟨S32x25600x4, .i32⟩ : BufTy).Contents (Elt F)),
    nullary main_c (constantI S_ 32 1#32),
    unary main_c main_v5 (broadcastInDim S32x25600x4 ![] bcast_S_S32x25600x4 : (⟨S_, .i32⟩ : BufTy).Contents (Elt F) → (⟨S32x25600x4, .i32⟩ : BufTy).Contents (Elt F)),
    binary main_v4 main_v5 main_v6 (addi : (⟨S32x25600x4, .i32⟩ : BufTy).Contents (Elt F) → (⟨S32x25600x4, .i32⟩ : BufTy).Contents (Elt F) → (⟨S32x25600x4, .i32⟩ : BufTy).Contents (Elt F)),
    nullary main_c_1 (constantI S_ 32 7#32),
    unary main_c_1 main_v7 (broadcastInDim S32x25600x4 ![] bcast_S_S32x25600x4 : (⟨S_, .i32⟩ : BufTy).Contents (Elt F) → (⟨S32x25600x4, .i32⟩ : BufTy).Contents (Elt F)),
    binary main_v6 main_v7 main_v8 (minsi : (⟨S32x25600x4, .i32⟩ : BufTy).Contents (Elt F) → (⟨S32x25600x4, .i32⟩ : BufTy).Contents (Elt F) → (⟨S32x25600x4, .i32⟩ : BufTy).Contents (Elt F)),
    unary main_v4 main_v9 (sitofp (F := F) .f32 : (⟨S32x25600x4, .i32⟩ : BufTy).Contents (Elt F) → (⟨S32x25600x4, .f32⟩ : BufTy).Contents (Elt F)),
    binary main_v2 main_v9 main_v10 (subf : (⟨S32x25600x4, .f32⟩ : BufTy).Contents (Elt F) → (⟨S32x25600x4, .f32⟩ : BufTy).Contents (Elt F) → (⟨S32x25600x4, .f32⟩ : BufTy).Contents (Elt F)),
    nullary main_cst_2 (constant S_ .f32 0x3F800000#32),
    unary main_cst_2 main_v11 (broadcastInDim S32x25600x4 ![] bcast_S_S32x25600x4 : (⟨S_, .f32⟩ : BufTy).Contents (Elt F) → (⟨S32x25600x4, .f32⟩ : BufTy).Contents (Elt F)),
    binary main_v11 main_v10 main_v12 (subf : (⟨S32x25600x4, .f32⟩ : BufTy).Contents (Elt F) → (⟨S32x25600x4, .f32⟩ : BufTy).Contents (Elt F) → (⟨S32x25600x4, .f32⟩ : BufTy).Contents (Elt F)) ]

/-- Operations 23–37: the log-softmax over the eight bins, `x − max x − log Σ exp (x − max x)` (`main_v13`). -/
def part3 : List (HloOp τ sig (Elt F)) :=
  [ nullary main_call1_cst (constant S_ .f32 0xFF800000#32 : (⟨S_, .f32⟩ : BufTy).Contents (Elt F)),
    binary main_v1 main_call1_cst main_call1_v0 ((fun x v => Host.reduce FloatOps.maximumf x v reducesTo_S32x25600x4x8_S32x25600x4_d3 h_S_) : (⟨S32x25600x4x8, .f32⟩ : BufTy).Contents (Elt F) → (⟨S_, .f32⟩ : BufTy).Contents (Elt F) → (⟨S32x25600x4, .f32⟩ : BufTy).Contents (Elt F)),
    nullary main_call1_cst_0 (constant S_ .f32 0xFF800000#32 : (⟨S_, .f32⟩ : BufTy).Contents (Elt F)),
    unary main_call1_cst_0 main_call1_v1 ((broadcastInDim S32x25600x4 ![] bcast_S_S32x25600x4) : (⟨S_, .f32⟩ : BufTy).Contents (Elt F) → (⟨S32x25600x4, .f32⟩ : BufTy).Contents (Elt F)),
    binary main_call1_v1 main_call1_v0 main_call1_v2 (maximumf : (⟨S32x25600x4, .f32⟩ : BufTy).Contents (Elt F) → (⟨S32x25600x4, .f32⟩ : BufTy).Contents (Elt F) → (⟨S32x25600x4, .f32⟩ : BufTy).Contents (Elt F)),
    unary main_call1_v2 main_call1_v3 ((broadcastInDim S32x25600x4x1 ![0, 1, 2] bcast_S32x25600x4_S32x25600x4x1_0_1_2) : (⟨S32x25600x4, .f32⟩ : BufTy).Contents (Elt F) → (⟨S32x25600x4x1, .f32⟩ : BufTy).Contents (Elt F)),
    unary main_call1_v3 main_call1_v4 ((broadcastInDim S32x25600x4x8 ![0, 1, 2, 3] bcast_S32x25600x4x1_S32x25600x4x8_0_1_2_3) : (⟨S32x25600x4x1, .f32⟩ : BufTy).Contents (Elt F) → (⟨S32x25600x4x8, .f32⟩ : BufTy).Contents (Elt F)),
    binary main_v1 main_call1_v4 main_call1_v5 (subf : (⟨S32x25600x4x8, .f32⟩ : BufTy).Contents (Elt F) → (⟨S32x25600x4x8, .f32⟩ : BufTy).Contents (Elt F) → (⟨S32x25600x4x8, .f32⟩ : BufTy).Contents (Elt F)),
    unary main_call1_v5 main_call1_v6 (Host.exp : (⟨S32x25600x4x8, .f32⟩ : BufTy).Contents (Elt F) → (⟨S32x25600x4x8, .f32⟩ : BufTy).Contents (Elt F)),
    nullary main_call1_cst_1 (constant S_ .f32 0x00000000#32 : (⟨S_, .f32⟩ : BufTy).Contents (Elt F)),
    binary main_call1_v6 main_call1_cst_1 main_call1_v7 ((fun x v => Host.reduceAdd x v reducesTo_S32x25600x4x8_S32x25600x4_d3 h_S_) : (⟨S32x25600x4x8, .f32⟩ : BufTy).Contents (Elt F) → (⟨S_, .f32⟩ : BufTy).Contents (Elt F) → (⟨S32x25600x4, .f32⟩ : BufTy).Contents (Elt F)),
    unary main_call1_v7 main_call1_v8 ((broadcastInDim S32x25600x4x1 ![0, 1, 2] bcast_S32x25600x4_S32x25600x4x1_0_1_2) : (⟨S32x25600x4, .f32⟩ : BufTy).Contents (Elt F) → (⟨S32x25600x4x1, .f32⟩ : BufTy).Contents (Elt F)),
    unary main_call1_v8 main_call1_v9 (Host.log : (⟨S32x25600x4x1, .f32⟩ : BufTy).Contents (Elt F) → (⟨S32x25600x4x1, .f32⟩ : BufTy).Contents (Elt F)),
    unary main_call1_v9 main_call1_v10 ((broadcastInDim S32x25600x4x8 ![0, 1, 2, 3] bcast_S32x25600x4x1_S32x25600x4x8_0_1_2_3) : (⟨S32x25600x4x1, .f32⟩ : BufTy).Contents (Elt F) → (⟨S32x25600x4x8, .f32⟩ : BufTy).Contents (Elt F)),
    binary main_call1_v5 main_call1_v10 main_v13 (subf : (⟨S32x25600x4x8, .f32⟩ : BufTy).Contents (Elt F) → (⟨S32x25600x4x8, .f32⟩ : BufTy).Contents (Elt F) → (⟨S32x25600x4x8, .f32⟩ : BufTy).Contents (Elt F)) ]

/-- Operations 38–62: the log-probability gathered at the lower bin, negated (`main_v17`). -/
def part4 : List (HloOp τ sig (Elt F)) :=
  [ unary main_v4 main_v14 (broadcastInDim S32x25600x4x1 ![0, 1, 2] bcast_S32x25600x4_S32x25600x4x1_0_1_2 : (⟨S32x25600x4, .i32⟩ : BufTy).Contents (Elt F) → (⟨S32x25600x4x1, .i32⟩ : BufTy).Contents (Elt F)),
    nullary main_call2_c (constantI S_ 32 0#32 : (⟨S_, .i32⟩ : BufTy).Contents (Elt F)),
    unary main_call2_c main_call2_v0 ((broadcastInDim S32x25600x4x1 ![] bcast_S_S32x25600x4x1) : (⟨S_, .i32⟩ : BufTy).Contents (Elt F) → (⟨S32x25600x4x1, .i32⟩ : BufTy).Contents (Elt F)),
    binary main_v14 main_call2_v0 main_call2_v1 ((cmpi .slt) : (⟨S32x25600x4x1, .i32⟩ : BufTy).Contents (Elt F) → (⟨S32x25600x4x1, .i32⟩ : BufTy).Contents (Elt F) → (⟨S32x25600x4x1, .i1⟩ : BufTy).Contents (Elt F)),
    nullary main_call2_c_0 (constantI S_ 32 8#32 : (⟨S_, .i32⟩ : BufTy).Contents (Elt F)),
    unary main_call2_c_0 main_call2_v2 ((broadcastInDim S32x25600x4x1 ![] bcast_S_S32x25600x4x1) : (⟨S_, .i32⟩ : BufTy).Contents (Elt F) → (⟨S32x25600x4x1, .i32⟩ : BufTy).Contents (Elt F)),
    binary main_v14 main_call2_v2 main_call2_v3 (addi : (⟨S32x25600x4x1, .i32⟩ : BufTy).Contents (Elt F) → (⟨S32x25600x4x1, .i32⟩ : BufTy).Contents (Elt F) → (⟨S32x25600x4x1, .i32⟩ : BufTy).Contents (Elt F)),
    ternary main_call2_v1 main_call2_v3 main_v14 main_call2_v4 (select : (⟨S32x25600x4x1, .i1⟩ : BufTy).Contents (Elt F) → (⟨S32x25600x4x1, .i32⟩ : BufTy).Contents (Elt F) → (⟨S32x25600x4x1, .i32⟩ : BufTy).Contents (Elt F) → (⟨S32x25600x4x1, .i32⟩ : BufTy).Contents (Elt F)),
    reshape main_call2_v4 main_call2_v5 rfl shapeCasts_S32x25600x4x1_S32x25600x4x1x1,
    nullary main_call2_c_1 (constantI S1 32 7#32 : (⟨S1, .i32⟩ : BufTy).Contents (Elt F)),
    nullary main_call2_c_2 (constantI S_ 32 0#32 : (⟨S_, .i32⟩ : BufTy).Contents (Elt F)),
    unary main_call2_c_2 main_call2_v6 ((broadcastInDim S32x25600x4x1x1 ![] bcast_S_S32x25600x4x1x1) : (⟨S_, .i32⟩ : BufTy).Contents (Elt F) → (⟨S32x25600x4x1x1, .i32⟩ : BufTy).Contents (Elt F)),
    binary main_call2_v5 main_call2_v6 main_call2_v7 ((cmpi .sge) : (⟨S32x25600x4x1x1, .i32⟩ : BufTy).Contents (Elt F) → (⟨S32x25600x4x1x1, .i32⟩ : BufTy).Contents (Elt F) → (⟨S32x25600x4x1x1, .i1⟩ : BufTy).Contents (Elt F)),
    unary main_call2_c_1 main_call2_v8 ((broadcastInDim S1x1x1x1x1 ![4] bcast_S1_S1x1x1x1x1_4) : (⟨S1, .i32⟩ : BufTy).Contents (Elt F) → (⟨S1x1x1x1x1, .i32⟩ : BufTy).Contents (Elt F)),
    unary main_call2_v8 main_call2_v9 ((broadcastInDim S32x25600x4x1x1 ![0, 1, 2, 3, 4] bcast_S1x1x1x1x1_S32x25600x4x1x1_0_1_2_3_4) : (⟨S1x1x1x1x1, .i32⟩ : BufTy).Contents (Elt F) → (⟨S32x25600x4x1x1, .i32⟩ : BufTy).Contents (Elt F)),
    binary main_call2_v5 main_call2_v9 main_call2_v10 ((cmpi .sle) : (⟨S32x25600x4x1x1, .i32⟩ : BufTy).Contents (Elt F) → (⟨S32x25600x4x1x1, .i32⟩ : BufTy).Contents (Elt F) → (⟨S32x25600x4x1x1, .i1⟩ : BufTy).Contents (Elt F)),
    binary main_call2_v7 main_call2_v10 main_call2_v11 (andi : (⟨S32x25600x4x1x1, .i1⟩ : BufTy).Contents (Elt F) → (⟨S32x25600x4x1x1, .i1⟩ : BufTy).Contents (Elt F) → (⟨S32x25600x4x1x1, .i1⟩ : BufTy).Contents (Elt F)),
    nullary main_call2_c_3 (constantI S_ 1 1#1 : (⟨S_, .i1⟩ : BufTy).Contents (Elt F)),
    binary main_call2_v11 main_call2_c_3 main_call2_v12 ((fun x v => Host.reduce IntOp.andi x v reducesTo_S32x25600x4x1x1_S32x25600x4x1_d4 h_S_) : (⟨S32x25600x4x1x1, .i1⟩ : BufTy).Contents (Elt F) → (⟨S_, .i1⟩ : BufTy).Contents (Elt F) → (⟨S32x25600x4x1, .i1⟩ : BufTy).Contents (Elt F)),
    binary main_v13 main_call2_v5 main_call2_v13 ((fun x i => Host.gather gather_S32x25600x4x8_S32x25600x4x1x1_S32x25600x4x1_n_3_012_012_3_4_1111 x i) : (⟨S32x25600x4x8, .f32⟩ : BufTy).Contents (Elt F) → (⟨S32x25600x4x1x1, .i32⟩ : BufTy).Contents (Elt F) → (⟨S32x25600x4x1, .f32⟩ : BufTy).Contents (Elt F)),
    nullary main_call2_cst (constant S_ .f32 0x7FC00000#32 : (⟨S_, .f32⟩ : BufTy).Contents (Elt F)),
    unary main_call2_cst main_call2_v14 ((broadcastInDim S32x25600x4x1 ![] bcast_S_S32x25600x4x1) : (⟨S_, .f32⟩ : BufTy).Contents (Elt F) → (⟨S32x25600x4x1, .f32⟩ : BufTy).Contents (Elt F)),
    ternary main_call2_v12 main_call2_v13 main_call2_v14 main_v15 (select : (⟨S32x25600x4x1, .i1⟩ : BufTy).Contents (Elt F) → (⟨S32x25600x4x1, .f32⟩ : BufTy).Contents (Elt F) → (⟨S32x25600x4x1, .f32⟩ : BufTy).Contents (Elt F) → (⟨S32x25600x4x1, .f32⟩ : BufTy).Contents (Elt F)),
    reshape main_v15 main_v16 rfl shapeCasts_S32x25600x4x1_S32x25600x4,
    unary main_v16 main_v17 (Host.negf : (⟨S32x25600x4, .f32⟩ : BufTy).Contents (Elt F) → (⟨S32x25600x4, .f32⟩ : BufTy).Contents (Elt F)) ]

/-- Operations 63–87: the log-probability gathered at the upper bin, negated (`main_v21`). -/
def part5 : List (HloOp τ sig (Elt F)) :=
  [ unary main_v8 main_v18 (broadcastInDim S32x25600x4x1 ![0, 1, 2] bcast_S32x25600x4_S32x25600x4x1_0_1_2 : (⟨S32x25600x4, .i32⟩ : BufTy).Contents (Elt F) → (⟨S32x25600x4x1, .i32⟩ : BufTy).Contents (Elt F)),
    nullary main_call3_c (constantI S_ 32 0#32 : (⟨S_, .i32⟩ : BufTy).Contents (Elt F)),
    unary main_call3_c main_call3_v0 ((broadcastInDim S32x25600x4x1 ![] bcast_S_S32x25600x4x1) : (⟨S_, .i32⟩ : BufTy).Contents (Elt F) → (⟨S32x25600x4x1, .i32⟩ : BufTy).Contents (Elt F)),
    binary main_v18 main_call3_v0 main_call3_v1 ((cmpi .slt) : (⟨S32x25600x4x1, .i32⟩ : BufTy).Contents (Elt F) → (⟨S32x25600x4x1, .i32⟩ : BufTy).Contents (Elt F) → (⟨S32x25600x4x1, .i1⟩ : BufTy).Contents (Elt F)),
    nullary main_call3_c_0 (constantI S_ 32 8#32 : (⟨S_, .i32⟩ : BufTy).Contents (Elt F)),
    unary main_call3_c_0 main_call3_v2 ((broadcastInDim S32x25600x4x1 ![] bcast_S_S32x25600x4x1) : (⟨S_, .i32⟩ : BufTy).Contents (Elt F) → (⟨S32x25600x4x1, .i32⟩ : BufTy).Contents (Elt F)),
    binary main_v18 main_call3_v2 main_call3_v3 (addi : (⟨S32x25600x4x1, .i32⟩ : BufTy).Contents (Elt F) → (⟨S32x25600x4x1, .i32⟩ : BufTy).Contents (Elt F) → (⟨S32x25600x4x1, .i32⟩ : BufTy).Contents (Elt F)),
    ternary main_call3_v1 main_call3_v3 main_v18 main_call3_v4 (select : (⟨S32x25600x4x1, .i1⟩ : BufTy).Contents (Elt F) → (⟨S32x25600x4x1, .i32⟩ : BufTy).Contents (Elt F) → (⟨S32x25600x4x1, .i32⟩ : BufTy).Contents (Elt F) → (⟨S32x25600x4x1, .i32⟩ : BufTy).Contents (Elt F)),
    reshape main_call3_v4 main_call3_v5 rfl shapeCasts_S32x25600x4x1_S32x25600x4x1x1,
    nullary main_call3_c_1 (constantI S1 32 7#32 : (⟨S1, .i32⟩ : BufTy).Contents (Elt F)),
    nullary main_call3_c_2 (constantI S_ 32 0#32 : (⟨S_, .i32⟩ : BufTy).Contents (Elt F)),
    unary main_call3_c_2 main_call3_v6 ((broadcastInDim S32x25600x4x1x1 ![] bcast_S_S32x25600x4x1x1) : (⟨S_, .i32⟩ : BufTy).Contents (Elt F) → (⟨S32x25600x4x1x1, .i32⟩ : BufTy).Contents (Elt F)),
    binary main_call3_v5 main_call3_v6 main_call3_v7 ((cmpi .sge) : (⟨S32x25600x4x1x1, .i32⟩ : BufTy).Contents (Elt F) → (⟨S32x25600x4x1x1, .i32⟩ : BufTy).Contents (Elt F) → (⟨S32x25600x4x1x1, .i1⟩ : BufTy).Contents (Elt F)),
    unary main_call3_c_1 main_call3_v8 ((broadcastInDim S1x1x1x1x1 ![4] bcast_S1_S1x1x1x1x1_4) : (⟨S1, .i32⟩ : BufTy).Contents (Elt F) → (⟨S1x1x1x1x1, .i32⟩ : BufTy).Contents (Elt F)),
    unary main_call3_v8 main_call3_v9 ((broadcastInDim S32x25600x4x1x1 ![0, 1, 2, 3, 4] bcast_S1x1x1x1x1_S32x25600x4x1x1_0_1_2_3_4) : (⟨S1x1x1x1x1, .i32⟩ : BufTy).Contents (Elt F) → (⟨S32x25600x4x1x1, .i32⟩ : BufTy).Contents (Elt F)),
    binary main_call3_v5 main_call3_v9 main_call3_v10 ((cmpi .sle) : (⟨S32x25600x4x1x1, .i32⟩ : BufTy).Contents (Elt F) → (⟨S32x25600x4x1x1, .i32⟩ : BufTy).Contents (Elt F) → (⟨S32x25600x4x1x1, .i1⟩ : BufTy).Contents (Elt F)),
    binary main_call3_v7 main_call3_v10 main_call3_v11 (andi : (⟨S32x25600x4x1x1, .i1⟩ : BufTy).Contents (Elt F) → (⟨S32x25600x4x1x1, .i1⟩ : BufTy).Contents (Elt F) → (⟨S32x25600x4x1x1, .i1⟩ : BufTy).Contents (Elt F)),
    nullary main_call3_c_3 (constantI S_ 1 1#1 : (⟨S_, .i1⟩ : BufTy).Contents (Elt F)),
    binary main_call3_v11 main_call3_c_3 main_call3_v12 ((fun x v => Host.reduce IntOp.andi x v reducesTo_S32x25600x4x1x1_S32x25600x4x1_d4 h_S_) : (⟨S32x25600x4x1x1, .i1⟩ : BufTy).Contents (Elt F) → (⟨S_, .i1⟩ : BufTy).Contents (Elt F) → (⟨S32x25600x4x1, .i1⟩ : BufTy).Contents (Elt F)),
    binary main_v13 main_call3_v5 main_call3_v13 ((fun x i => Host.gather gather_S32x25600x4x8_S32x25600x4x1x1_S32x25600x4x1_n_3_012_012_3_4_1111 x i) : (⟨S32x25600x4x8, .f32⟩ : BufTy).Contents (Elt F) → (⟨S32x25600x4x1x1, .i32⟩ : BufTy).Contents (Elt F) → (⟨S32x25600x4x1, .f32⟩ : BufTy).Contents (Elt F)),
    nullary main_call3_cst (constant S_ .f32 0x7FC00000#32 : (⟨S_, .f32⟩ : BufTy).Contents (Elt F)),
    unary main_call3_cst main_call3_v14 ((broadcastInDim S32x25600x4x1 ![] bcast_S_S32x25600x4x1) : (⟨S_, .f32⟩ : BufTy).Contents (Elt F) → (⟨S32x25600x4x1, .f32⟩ : BufTy).Contents (Elt F)),
    ternary main_call3_v12 main_call3_v13 main_call3_v14 main_v19 (select : (⟨S32x25600x4x1, .i1⟩ : BufTy).Contents (Elt F) → (⟨S32x25600x4x1, .f32⟩ : BufTy).Contents (Elt F) → (⟨S32x25600x4x1, .f32⟩ : BufTy).Contents (Elt F) → (⟨S32x25600x4x1, .f32⟩ : BufTy).Contents (Elt F)),
    reshape main_v19 main_v20 rfl shapeCasts_S32x25600x4x1_S32x25600x4,
    unary main_v20 main_v21 (Host.negf : (⟨S32x25600x4, .f32⟩ : BufTy).Contents (Elt F) → (⟨S32x25600x4, .f32⟩ : BufTy).Contents (Elt F)) ]

/-- Operations 88–107: the weighted sum of the two terms, masked, summed over everything, divided by four times the
    mask's count (at least one), and zero where the count is zero (`main_v35`). -/
def part6 : List (HloOp τ sig (Elt F)) :=
  [ binary main_v12 main_v17 main_v22 (mulf : (⟨S32x25600x4, .f32⟩ : BufTy).Contents (Elt F) → (⟨S32x25600x4, .f32⟩ : BufTy).Contents (Elt F) → (⟨S32x25600x4, .f32⟩ : BufTy).Contents (Elt F)),
    binary main_v10 main_v21 main_v23 (mulf : (⟨S32x25600x4, .f32⟩ : BufTy).Contents (Elt F) → (⟨S32x25600x4, .f32⟩ : BufTy).Contents (Elt F) → (⟨S32x25600x4, .f32⟩ : BufTy).Contents (Elt F)),
    binary main_v22 main_v23 main_v24 (addf : (⟨S32x25600x4, .f32⟩ : BufTy).Contents (Elt F) → (⟨S32x25600x4, .f32⟩ : BufTy).Contents (Elt F) → (⟨S32x25600x4, .f32⟩ : BufTy).Contents (Elt F)),
    unary main_arg2 main_v25 (uitofp (F := F) .f32 : (⟨S32x25600, .i1⟩ : BufTy).Contents (Elt F) → (⟨S32x25600, .f32⟩ : BufTy).Contents (Elt F)),
    nullary main_cst_3 (constant S_ .f32 0x00000000#32),
    binary main_v25 main_cst_3 main_v26 ((fun x v => Host.reduceAdd x v reducesTo_S32x25600_S_d0_1 h_S_) : (⟨S32x25600, .f32⟩ : BufTy).Contents (Elt F) → (⟨S_, .f32⟩ : BufTy).Contents (Elt F) → (⟨S_, .f32⟩ : BufTy).Contents (Elt F)),
    unary main_v25 main_v27 (broadcastInDim S32x25600x1 ![0, 1] bcast_S32x25600_S32x25600x1_0_1 : (⟨S32x25600, .f32⟩ : BufTy).Contents (Elt F) → (⟨S32x25600x1, .f32⟩ : BufTy).Contents (Elt F)),
    unary main_v27 main_v28 (broadcastInDim S32x25600x4 ![0, 1, 2] bcast_S32x25600x1_S32x25600x4_0_1_2 : (⟨S32x25600x1, .f32⟩ : BufTy).Contents (Elt F) → (⟨S32x25600x4, .f32⟩ : BufTy).Contents (Elt F)),
    binary main_v24 main_v28 main_v29 (mulf : (⟨S32x25600x4, .f32⟩ : BufTy).Contents (Elt F) → (⟨S32x25600x4, .f32⟩ : BufTy).Contents (Elt F) → (⟨S32x25600x4, .f32⟩ : BufTy).Contents (Elt F)),
    nullary main_cst_4 (constant S_ .f32 0x00000000#32),
    binary main_v29 main_cst_4 main_v30 ((fun x v => Host.reduceAdd x v reducesTo_S32x25600x4_S_d0_1_2 h_S_) : (⟨S32x25600x4, .f32⟩ : BufTy).Contents (Elt F) → (⟨S_, .f32⟩ : BufTy).Contents (Elt F) → (⟨S_, .f32⟩ : BufTy).Contents (Elt F)),
    nullary main_cst_5 (constant S_ .f32 0x3F800000#32),
    binary main_v26 main_cst_5 main_v31 (maximumf : (⟨S_, .f32⟩ : BufTy).Contents (Elt F) → (⟨S_, .f32⟩ : BufTy).Contents (Elt F) → (⟨S_, .f32⟩ : BufTy).Contents (Elt F)),
    nullary main_cst_6 (constant S_ .f32 0x40800000#32),
    binary main_v31 main_cst_6 main_v32 (mulf : (⟨S_, .f32⟩ : BufTy).Contents (Elt F) → (⟨S_, .f32⟩ : BufTy).Contents (Elt F) → (⟨S_, .f32⟩ : BufTy).Contents (Elt F)),
    binary main_v30 main_v32 main_v33 (Host.divf : (⟨S_, .f32⟩ : BufTy).Contents (Elt F) → (⟨S_, .f32⟩ : BufTy).Contents (Elt F) → (⟨S_, .f32⟩ : BufTy).Contents (Elt F)),
    nullary main_cst_7 (constant S_ .f32 0x00000000#32),
    binary main_v26 main_cst_7 main_v34 (cmpf (F := F) .ogt : (⟨S_, .f32⟩ : BufTy).Contents (Elt F) → (⟨S_, .f32⟩ : BufTy).Contents (Elt F) → (⟨S_, .i1⟩ : BufTy).Contents (Elt F)),
    nullary main_cst_8 (constant S_ .f32 0x00000000#32),
    ternary main_v34 main_v33 main_cst_8 main_v35 (select : (⟨S_, .i1⟩ : BufTy).Contents (Elt F) → (⟨S_, .f32⟩ : BufTy).Contents (Elt F) → (⟨S_, .f32⟩ : BufTy).Contents (Elt F) → (⟨S_, .f32⟩ : BufTy).Contents (Elt F)) ]

set_option maxRecDepth 8192 in
/-- The operation list is the six stretches in a row: element by element the same operation, a typed reference's
    transport being the identity. -/
theorem ops_eq : (ops : List (HloOp τ sig (Elt F))) = part1 ++ (part2 ++ (part3 ++ (part4 ++ (part5 ++ part6)))) := rfl

/-- The first stretch from ANY contents `W`: `main_v1` and `main_v2` end at their stage values of `W`'s arguments, and the
    mask argument is not written. -/
theorem part1_spec (W : Valuation τ sig (Elt F)) :
    after part1 W (Proc.devRef .tc main_v1) = val_main_v1 (F := F) (W (Proc.devRef .tc main_arg0))
    ∧ after part1 W (Proc.devRef .tc main_v2) = val_main_v2 (F := F) (W (Proc.devRef .tc main_arg1))
    ∧ after part1 W (Proc.devRef .tc main_arg2) = W (Proc.devRef .tc main_arg2) := by
  unfold part1
  refine ⟨?_, ?_, ?_⟩
  · after_results_simp; rfl
  · after_results_simp; rfl
  · after_results_simp

/-- The second stretch reads `main_v2` only: its four results at their stage values; `main_v1` and the mask pass through. -/
theorem part2_spec (W : Valuation τ sig (Elt F)) (x1 : (⟨S32x25600x4, .f32⟩ : BufTy).Contents (Elt F))
    (h2 : W (Proc.devRef .tc main_v2) = val_main_v2 (F := F) x1) :
    after part2 W (Proc.devRef .tc main_v4) = val_main_v4 (F := F) x1
    ∧ after part2 W (Proc.devRef .tc main_v8) = val_main_v8 (F := F) x1
    ∧ after part2 W (Proc.devRef .tc main_v10) = val_main_v10 (F := F) x1
    ∧ after part2 W (Proc.devRef .tc main_v12) = val_main_v12 (F := F) x1
    ∧ after part2 W (Proc.devRef .tc main_v1) = W (Proc.devRef .tc main_v1)
    ∧ after part2 W (Proc.devRef .tc main_arg2) = W (Proc.devRef .tc main_arg2) := by
  unfold part2
  refine ⟨?_, ?_, ?_, ?_, ?_, ?_⟩
  · after_results_simp; rw [h2]; rfl
  · after_results_simp; rw [h2]; rfl
  · after_results_simp; rw [h2]; rfl
  · after_results_simp; rw [h2]; rfl
  · after_results_simp
  · after_results_simp

set_option maxRecDepth 8192 in
/-- The third stretch reads `main_v1` only: `main_v13` at its stage value; the second stretch's results and the mask pass through. -/
theorem part3_spec (W : Valuation τ sig (Elt F)) (x0 : (⟨S32x32x160x160, .f32⟩ : BufTy).Contents (Elt F))
    (h1 : W (Proc.devRef .tc main_v1) = val_main_v1 (F := F) x0) :
    after part3 W (Proc.devRef .tc main_v13) = val_main_v13 (F := F) x0
    ∧ after part3 W (Proc.devRef .tc main_v4) = W (Proc.devRef .tc main_v4)
    ∧ after part3 W (Proc.devRef .tc main_v8) = W (Proc.devRef .tc main_v8)
    ∧ after part3 W (Proc.devRef .tc main_v10) = W (Proc.devRef .tc main_v10)
    ∧ after part3 W (Proc.devRef .tc main_v12) = W (Proc.devRef .tc main_v12)
    ∧ after part3 W (Proc.devRef .tc main_arg2) = W (Proc.devRef .tc main_arg2) := by
  unfold part3
  refine ⟨?_, ?_, ?_, ?_, ?_, ?_⟩
  · after_results_simp; rw [h1]; rfl
  all_goals after_results_simp

set_option maxRecDepth 8192 in
/-- The fourth stretch reads `main_v4` and `main_v13`: `main_v17` at its stage value; what later stretches read passes through. -/
theorem part4_spec (W : Valuation τ sig (Elt F)) (x0 : (⟨S32x32x160x160, .f32⟩ : BufTy).Contents (Elt F))
    (x1 : (⟨S32x25600x4, .f32⟩ : BufTy).Contents (Elt F))
    (h4 : W (Proc.devRef .tc main_v4) = val_main_v4 (F := F) x1) (h13 : W (Proc.devRef .tc main_v13) = val_main_v13 (F := F) x0) :
    after part4 W (Proc.devRef .tc main_v17) = val_main_v17 (F := F) x0 x1
    ∧ after part4 W (Proc.devRef .tc main_v8) = W (Proc.devRef .tc main_v8)
    ∧ after part4 W (Proc.devRef .tc main_v10) = W (Proc.devRef .tc main_v10)
    ∧ after part4 W (Proc.devRef .tc main_v12) = W (Proc.devRef .tc main_v12)
    ∧ after part4 W (Proc.devRef .tc main_v13) = W (Proc.devRef .tc main_v13)
    ∧ after part4 W (Proc.devRef .tc main_arg2) = W (Proc.devRef .tc main_arg2) := by
  unfold part4
  refine ⟨?_, ?_, ?_, ?_, ?_, ?_⟩
  · after_results_simp; rw [h4, h13]; rfl
  all_goals after_results_simp

set_option maxRecDepth 8192 in
/-- The fifth stretch reads `main_v8` and `main_v13`: `main_v21` at its stage value; what the last stretch reads passes through. -/
theorem part5_spec (W : Valuation τ sig (Elt F)) (x0 : (⟨S32x32x160x160, .f32⟩ : BufTy).Contents (Elt F))
    (x1 : (⟨S32x25600x4, .f32⟩ : BufTy).Contents (Elt F))
    (h8 : W (Proc.devRef .tc main_v8) = val_main_v8 (F := F) x1) (h13 : W (Proc.devRef .tc main_v13) = val_main_v13 (F := F) x0) :
    after part5 W (Proc.devRef .tc main_v21) = val_main_v21 (F := F) x0 x1
    ∧ after part5 W (Proc.devRef .tc main_v10) = W (Proc.devRef .tc main_v10)
    ∧ after part5 W (Proc.devRef .tc main_v12) = W (Proc.devRef .tc main_v12)
    ∧ after part5 W (Proc.devRef .tc main_v17) = W (Proc.devRef .tc main_v17)
    ∧ after part5 W (Proc.devRef .tc main_arg2) = W (Proc.devRef .tc main_arg2) := by
  unfold part5
  refine ⟨?_, ?_, ?_, ?_, ?_⟩
  · after_results_simp; rw [h8, h13]; rfl
  all_goals after_results_simp

/-- The last stretch reads the two weights, the two gathered terms and the mask: `main_v35` at its stage value. -/
theorem part6_spec (W : Valuation τ sig (Elt F)) (x0 : (⟨S32x32x160x160, .f32⟩ : BufTy).Contents (Elt F))
    (x1 : (⟨S32x25600x4, .f32⟩ : BufTy).Contents (Elt F))
    (h10 : W (Proc.devRef .tc main_v10) = val_main_v10 (F := F) x1) (h12 : W (Proc.devRef .tc main_v12) = val_main_v12 (F := F) x1)
    (h17 : W (Proc.devRef .tc main_v17) = val_main_v17 (F := F) x0 x1) (h21 : W (Proc.devRef .tc main_v21) = val_main_v21 (F := F) x0 x1) :
    after part6 W (Proc.devRef .tc main_v35) = val_main_v35 (F := F) x0 x1 (W (Proc.devRef .tc main_arg2)) := by
  unfold part6
  after_results_simp; rw [h10, h12, h17, h21]; rfl

/-- The fold of all 108 operations at the result buffer: the six stretches chained (the fold over a concatenation is the
    fold of the second line from the first's result), each stretch's incoming facts being the outgoing facts of the
    stretches before it, carried by transitivity. -/
theorem result (V : Valuation τ sig (Elt F)) :
    after ops V (Proc.devRef .tc main_v35)
      = val_main_v35 (F := F) (V (Proc.devRef .tc main_arg0)) (V (Proc.devRef .tc main_arg1)) (V (Proc.devRef .tc main_arg2)) := by
  rw [ops_eq, after_append, after_append, after_append, after_append, after_append]
  obtain ⟨a1, a2, ka⟩ := part1_spec V
  generalize after part1 V = W1 at a1 a2 ka ⊢
  obtain ⟨b4, b8, b10, b12, kb1, kb⟩ := part2_spec W1 _ a2
  have b1 := kb1.trans a1
  have b := kb.trans ka
  clear a1 a2 ka kb1 kb
  generalize after part2 W1 = W2 at b4 b8 b10 b12 b1 b ⊢
  clear W1
  obtain ⟨c13, kc4, kc8, kc10, kc12, kc⟩ := part3_spec W2 _ b1
  have c4 := kc4.trans b4
  have c8 := kc8.trans b8
  have c10 := kc10.trans b10
  have c12 := kc12.trans b12
  have c := kc.trans b
  clear b4 b8 b10 b12 b1 b kc4 kc8 kc10 kc12 kc
  generalize after part3 W2 = W3 at c13 c4 c8 c10 c12 c ⊢
  clear W2
  obtain ⟨d17, kd8, kd10, kd12, kd13, kd⟩ := part4_spec W3 _ _ c4 c13
  have d8 := kd8.trans c8
  have d10 := kd10.trans c10
  have d12 := kd12.trans c12
  have d13 := kd13.trans c13
  have d := kd.trans c
  clear c13 c4 c8 c10 c12 c kd8 kd10 kd12 kd13 kd
  generalize after part4 W3 = W4 at d17 d8 d10 d12 d13 d ⊢
  clear W3
  obtain ⟨e21, ke10, ke12, ke17, ke⟩ := part5_spec W4 _ _ d8 d13
  have e10 := ke10.trans d10
  have e12 := ke12.trans d12
  have e17 := ke17.trans d17
  have e := ke.trans d
  clear d17 d8 d10 d12 d13 d ke10 ke12 ke17 ke
  generalize after part5 W4 = W5 at e21 e10 e12 e17 e ⊢
  clear W4
  exact (part6_spec W5 _ _ e10 e12 e17 e21).trans (congrArg (val_main_v35 (F := F) _ _) e)

/-- Every weakly fair execution of the reference's @main terminates with the result buffer at the stages' value of
    the three arguments' launch contents, and the arguments as launched: no operation writes an argument. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = val_main_v35 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v35).trans (result (launchContents m c)),
      (h c main_arg0).trans (by after_results_simp <;> rfl), (h c main_arg1).trans (by after_results_simp <;> rfl),
      (h c main_arg2).trans (by after_results_simp <;> rfl)⟩)
    (run_seq scopedRefs_eq scopedSems_eq defs main (fun _ => ops) main_eq (fun _ => ops_sub) m ρ)

end Cert.Proof.RefRunHand

end
-- ==== Proof.lean ====
/-
  The certificate of a distribution-focal loss kernel against its jnp reference.

  Both programs compute one number from a [32, 32, 160, 160] array of logits, a [32, 25600, 4] array of targets and a
  [32, 25600] boolean mask: for every image, pixel and box coordinate the eight logits of that coordinate are turned into
  log-probabilities, the clipped target picks two neighbouring bins and their weights, and the weighted negative
  log-probability, times the mask, is summed over everything and divided by four times the mask's count (Proof/Spec.lean).

  The kernel walks the images in four groups of eight and each image in ten strips of sixteen rows, keeps a running
  [total, count] pair per image across the strips, and picks a bin by summing against a one-hot weight; host lines then
  add the pairs over the images. The reference moves the bin axis last, picks a bin by an indexed read, and sums in one
  sweep. On the extended reals the two agree without any use of finiteness: a one-hot sum is the picked term because
  `x * 0 = 0` and `x * 1 = x` for every extended real, the bin words are below 8 because the target is clipped below 7,
  `0 - x = -x`, and the two arrangements of the sum differ by re-indexing a finite sum in a commutative monoid
  (Proof/Sums.lean).

  The modules: Spec (the loss, and the two arrangements of its sum), Scalar (single words and reals), Seg and Body (the
  kernel body's value at an index), Blocks (what a window's block holds), Accum (the accumulation over the strips and the
  output array), Tail (the host lines after the kernel, and the kernel program's run), Glue (the kernel's value
  assembled), RefElt and RefTail (the reference read at an index, and its result), RefRunHand (the reference's run,
  stretch by stretch), Sums (the re-indexing).
-/
import proofs.«150996_j10127532883990_1_alg».proof.Defs
import proofs.«150996_j10127532883990_1_alg».proof.Proof.Gen.Kernel
import proofs.«150996_j10127532883990_1_alg».proof.Proof.Gen.Kernel.Skeleton
import proofs.«150996_j10127532883990_1_alg».proof.Proof.Gen.Kernel.Launch
import proofs.«150996_j10127532883990_1_alg».proof.Proof.Gen.Kernel.Points
import proofs.«150996_j10127532883990_1_alg».proof.Proof.Gen.Kernel.Frame
import proofs.«150996_j10127532883990_1_alg».proof.Proof.Gen.KernelIdeal
import proofs.«150996_j10127532883990_1_alg».proof.Proof.Gen.KernelIdeal.Skeleton
import proofs.«150996_j10127532883990_1_alg».proof.Proof.Gen.KernelIdeal.Launch
import proofs.«150996_j10127532883990_1_alg».proof.Proof.Gen.KernelIdeal.Points
import proofs.«150996_j10127532883990_1_alg».proof.Proof.Gen.KernelIdeal.Frame
import proofs.«150996_j10127532883990_1_alg».proof.Proof.Gen.ReferenceIdeal
import proofs.«150996_j10127532883990_1_alg».proof.Proof.Gen.Pre_finite_inputs
import proofs.«150996_j10127532883990_1_alg».proof.Proof.Glue
import proofs.«150996_j10127532883990_1_alg».proof.Proof.Sums
import proofs.«150996_j10127532883990_1_alg».proof.Proof.RefTail
import proofs.«150996_j10127532883990_1_alg».proof.Proof.RefRunHand
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.Proof.RefRunHand.run (F := Ideal) m ρ)

/-- From memories that agree on the three arguments both programs end with the same number: the kernel's arrangement
    of the total and the count (`Spec.totalK`, `Spec.countK`) is the reference's (`Spec.totalR`, `Spec.countR`). -/
theorem algebraic : Cert.algebraic_KernelIdeal_ReferenceIdeal := by
  intro m ρ m' ρ' _ hagree
  refine ⟨_, Cert.Proof.Glue.kernel_run m ρ, ?_⟩
  refine (θ_run Cert.ReferenceIdeal.defs _ _).mono (fun _ h c => ⟨(h c).1.trans ?_, (h c).2⟩)
    (Cert.Proof.RefRunHand.run (F := Ideal) m' ρ')
  rw [Cert.Proof.RefTail.ref_value, (hagree c).1, (hagree c).2.1, (hagree c).2.2,
    ← Cert.Proof.Sums.total_eq, ← Cert.Proof.Sums.count_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
